-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3072x2048 : Shape := ⟨3, ![4, 3072, 2048]⟩
abbrev S_ : Shape := ⟨0, ![]⟩

class Facts : Prop where
  bcast_S_S4x3072x2048 : S_.BroadcastsInDim S4x3072x2048 (![] : Fin 0 → Fin S4x3072x2048.rank)
  reducesTo_S4x3072x2048_S_d0_1_2 : S4x3072x2048.ReducesTo [0, 1, 2] S_
  h_S_ : 0 < S_.numel

variable [Facts]

def fn {F : FTy → Type} [FloatOps F] (main_arg0 : FVec F S4x3072x2048 .f32) : IVec S_ 1 :=
  let main_v0 : FVec F S4x3072x2048 .f32 := Host.absf main_arg0
  let main_cst : FVec F S_ .f32 := constant S_ .f32 0x7F800000#32
  let main_v1 : FVec F S4x3072x2048 .f32 := broadcastInDim S4x3072x2048 ![] bcast_S_S4x3072x2048 main_cst
  let main_v2 : IVec S4x3072x2048 1 := cmpf .olt main_v0 main_v1
  let main_c : IVec S_ 1 := constantI S_ 1 1#1
  let main_v3 : IVec S_ 1 := (fun x v => Host.reduce IntOp.andi x v reducesTo_S4x3072x2048_S_d0_1_2 h_S_) main_v2 main_c
  main_v3
-- ==== Kernel.lean ====
abbrev S4x3072x2048 : Shape := ⟨3, ![4, 3072, 2048]⟩
abbrev S64x192x2048 : Shape := ⟨3, ![64, 192, 2048]⟩
abbrev S64x64x2048 : Shape := ⟨3, ![64, 64, 2048]⟩
abbrev S64x64x128 : Shape := ⟨3, ![64, 64, 128]⟩
abbrev S64x1x128 : Shape := ⟨3, ![64, 1, 128]⟩
abbrev S64x128x128 : Shape := ⟨3, ![64, 128, 128]⟩
abbrev S64x128 : Shape := ⟨2, ![64, 128]⟩
abbrev S4x1024x2048 : Shape := ⟨3, ![4, 1024, 2048]⟩

abbrev nBuf : Space → Nat
  | .hbm => 5
  | .vmem => 11
  | .smem => 0
  | _ => 0

abbrev bufTy : (tb : Table) → Fin (tcTables nBuf tb) → BufTy
  | .hbm, ⟨0, _⟩ => ⟨S4x3072x2048, .f32⟩
  | .hbm, ⟨1, _⟩ => ⟨S64x192x2048, .f32⟩
  | .hbm, ⟨2, _⟩ => ⟨S64x192x2048, .bf16⟩
  | .hbm, ⟨3, _⟩ => ⟨S64x64x2048, .f32⟩
  | .hbm, ⟨4, _⟩ => ⟨S4x1024x2048, .f32⟩
  | .local _ .vmem, ⟨0, _⟩ => ⟨S64x64x128, .bf16⟩
  | .local _ .vmem, ⟨1, _⟩ => ⟨S64x64x128, .bf16⟩
  | .local _ .vmem, ⟨2, _⟩ => ⟨S64x64x128, .bf16⟩
  | .local _ .vmem, ⟨3, _⟩ => ⟨S64x64x128, .bf16⟩
  | .local _ .vmem, ⟨4, _⟩ => ⟨S64x64x128, .bf16⟩
  | .local _ .vmem, ⟨5, _⟩ => ⟨S64x64x128, .bf16⟩
  | .local _ .vmem, ⟨6, _⟩ => ⟨S64x64x128, .f32⟩
  | .local _ .vmem, ⟨7, _⟩ => ⟨S64x64x128, .f32⟩
  | .local _ .vmem, ⟨8, _⟩ => ⟨S64x1x128, .f32⟩
  | .local _ .vmem, ⟨9, _⟩ => ⟨S64x1x128, .f32⟩
  | .local _ .vmem, ⟨10, _⟩ => ⟨S64x64x128, .f32⟩
  | _, _ => ⟨S4x3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_31 : BitVec 32 := 0#32
  let v43 : BitVec 1 := Scalar.cmpi .ne v42 c0_i32_31
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S64x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x3072x2048_S64x192x2048 : S4x3072x2048.ShapeCasts S64x192x2048
  bitsLt_bf16_f32 : FTy.bits .bf16 < FTy.bits .f32
  inb_S64x1x128_S64x1x128_0_0_0 : ∀ a, (![0, 0, 0] : Fin 3 → Nat) a + S64x1x128.size a ≤ S64x1x128.size a
  h_S64x1x128 : 0 < S64x1x128.numel
  shapeCasts_S64x1x128_S64x1x128 : S64x1x128.ShapeCasts S64x1x128
  inb_S64x64x128_S64x64x128_0_0_0 : ∀ a, (![0, 0, 0] : Fin 3 → Nat) a + S64x64x128.size a ≤ S64x64x128.size a
  h_S64x64x128 : 0 < S64x64x128.numel
  shapeCasts_S64x64x128_S64x64x128 : S64x64x128.ShapeCasts S64x64x128
  reduces_S64x128x128_S64x128 : S64x128x128.Reduces [1] S64x128
  shapeCasts_S64x128_S64x1x128 : S64x128.ShapeCasts S64x1x128
  broadcasts_S64x1x128_S64x128x128 : S64x1x128.Broadcasts S64x128x128
  broadcasts_S64x1x128_S64x64x128 : S64x1x128.Broadcasts S64x64x128
  shapeCasts_S64x64x2048_S4x1024x2048 : S64x64x2048.ShapeCasts S4x1024x2048
  dot_S64x64x128_S64x64x128_S64x128x128_1_1_2_2_0_0_wf : DotDims.WF S64x64x128 S64x64x128 S64x128x128 [1] [1] [2] [2] [0] [0]
  dot_S64x64x128_S64x128x128_S64x64x128_2_1_1_2_0_0_wf : DotDims.WF S64x64x128 S64x128x128 S64x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S64x192x2048.size a
  hwx0_0 : ∀ i : grid0.Coords, EltTy.bits .bf16 = 32 ∨ (Rect.block (s := S64x192x2048) S64x64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x128.size a ≤ S64x192x2048.size a
  hwx0_1 : ∀ i : grid0.Coords, EltTy.bits .bf16 = 32 ∨ (Rect.block (s := S64x192x2048) S64x64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x192x2048.size a
  hwx0_2 : ∀ i : grid0.Coords, EltTy.bits .bf16 = 32 ∨ (Rect.block (s := S64x192x2048) S64x64x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x128.size a ≤ S64x64x2048.size a
  hwx0_3 : ∀ i : grid0.Coords, EltTy.bits .f32 = 32 ∨ (Rect.block (s := S64x64x2048) S64x64x128.size (cc0_transform_3 i) (hinb0_3 i)).WholeWords (EltTy.packing .f32)

variable [Facts₀]

def dot_S64x64x128_S64x64x128_S64x128x128_1_1_2_2_0_0 : DotDims S64x64x128 S64x64x128 S64x128x128 where
  lhsContracting := [1]
  rhsContracting := [1]
  lhsNonContracting := [2]
  rhsNonContracting := [2]
  lhsBatch := [0]
  rhsBatch := [0]
  wf := dot_S64x64x128_S64x64x128_S64x128x128_1_1_2_2_0_0_wf
def dot_S64x64x128_S64x128x128_S64x64x128_2_1_1_2_0_0 : DotDims S64x64x128 S64x128x128 S64x64x128 where
  lhsContracting := [2]
  rhsContracting := [1]
  lhsNonContracting := [1]
  rhsNonContracting := [2]
  lhsBatch := [0]
  rhsBatch := [0]
  wf := dot_S64x64x128_S64x128x128_S64x64x128_2_1_1_2_0_0_wf

abbrev win0_0 : Pipeline.Window sig grid0 :=
  Pipeline.Window.ofSpec (Memref.whole main_v1) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3072x2048 : Shape := ⟨3, ![4, 3072, 2048]⟩
abbrev S64x192x2048 : Shape := ⟨3, ![64, 192, 2048]⟩
abbrev S64x64x2048 : Shape := ⟨3, ![64, 64, 2048]⟩
abbrev S_ : Shape := ⟨0, ![]⟩
abbrev S64x2048x2048 : Shape := ⟨3, ![64, 2048, 2048]⟩
abbrev S64x2048 : Shape := ⟨2, ![64, 2048]⟩
abbrev S64x2048x1 : Shape := ⟨3, ![64, 2048, 1]⟩
abbrev S4x1024x2048 : Shape := ⟨3, ![4, 1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x3072x2048, .f32⟩
  | .hbm, ⟨1, _⟩ => ⟨S64x192x2048, .f32⟩
  | .hbm, ⟨2, _⟩ => ⟨S64x64x2048, .f32⟩
  | .hbm, ⟨3, _⟩ => ⟨S64x64x2048, .f32⟩
  | .hbm, ⟨4, _⟩ => ⟨S64x64x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x64x2048, .f32⟩
  | .hbm, ⟨11, _⟩ => ⟨S64x64x2048, .f32⟩
  | .hbm, ⟨12, _⟩ => ⟨S64x64x2048, .f32⟩
  | .hbm, ⟨13, _⟩ => ⟨S64x64x2048, .f32⟩
  | .hbm, ⟨14, _⟩ => ⟨S64x2048x2048, .f32⟩
  | .hbm, ⟨15, _⟩ => ⟨S_, .f32⟩
  | .hbm, ⟨16, _⟩ => ⟨S64x2048, .f32⟩
  | .hbm, ⟨17, _⟩ => ⟨S_, .f32⟩
  | .hbm, ⟨18, _⟩ => ⟨S64x2048, .f32⟩
  | .hbm, ⟨19, _⟩ => ⟨S64x2048, .f32⟩
  | .hbm, ⟨20, _⟩ => ⟨S64x2048x1, .f32⟩
  | .hbm, ⟨21, _⟩ => ⟨S64x2048x2048, .f32⟩
  | .hbm, ⟨22, _⟩ => ⟨S64x2048x2048, .f32⟩
  | .hbm, ⟨23, _⟩ => ⟨S64x2048x2048, .f32⟩
  | .hbm, ⟨24, _⟩ => ⟨S_, .f32⟩
  | .hbm, ⟨25, _⟩ => ⟨S64x2048, .f32⟩
  | .hbm, ⟨26, _⟩ => ⟨S64x2048x1, .f32⟩
  | .hbm, ⟨27, _⟩ => ⟨S64x2048x2048, .f32⟩
  | .hbm, ⟨28, _⟩ => ⟨S64x2048x2048, .f32⟩
  | .hbm, ⟨29, _⟩ => ⟨S64x64x2048, .f32⟩
  | .hbm, ⟨30, _⟩ => ⟨S4x1024x2048, .f32⟩
  | _, _ => ⟨S4x3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S4x3072x2048_S64x192x2048 : S4x3072x2048.ShapeCasts S64x192x2048
  slices_S64x192x2048_S64x64x2048_0_0_0 : S64x192x2048.Slices ![0, 0, 0] S64x64x2048
  slices_S64x192x2048_S64x64x2048_0_64_0 : S64x192x2048.Slices ![0, 64, 0] S64x64x2048
  slices_S64x192x2048_S64x64x2048_0_128_0 : S64x192x2048.Slices ![0, 128, 0] S64x64x2048
  bcast_S_S64x64x2048 : S_.BroadcastsInDim S64x64x2048 (![] : Fin 0 → Fin S64x64x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  shapeCasts_S64x64x2048_S4x1024x2048 : S64x64x2048.ShapeCasts S4x1024x2048
  dot_S64x64x2048_S64x64x2048_S64x2048x2048_1_1_2_2_0_0_wf : DotDims.WF S64x64x2048 S64x64x2048 S64x2048x2048 [1] [1] [2] [2] [0] [0]
  dot_S64x64x2048_S64x2048x2048_S64x64x2048_2_2_1_1_0_0_wf : DotDims.WF S64x64x2048 S64x2048x2048 S64x64x2048 [2] [2] [1] [1] [0] [0]

variable [Facts₀]

def dot_S64x64x2048_S64x64x2048_S64x2048x2048_1_1_2_2_0_0 : DotDims S64x64x2048 S64x64x2048 S64x2048x2048 where
  lhsContracting := [1]
  rhsContracting := [1]
  lhsNonContracting := [2]
  rhsNonContracting := [2]
  lhsBatch := [0]
  rhsBatch := [0]
  wf := dot_S64x64x2048_S64x64x2048_S64x2048x2048_1_1_2_2_0_0_wf
def dot_S64x64x2048_S64x2048x2048_S64x64x2048_2_2_1_1_0_0 : DotDims S64x64x2048 S64x2048x2048 S64x64x2048 where
  lhsContracting := [2]
  rhsContracting := [2]
  lhsNonContracting := [1]
  rhsNonContracting := [1]
  lhsBatch := [0]
  rhsBatch := [0]
  wf := dot_S64x64x2048_S64x2048x2048_S64x64x2048_2_2_1_1_0_0_wf

class Facts : Prop extends Facts₀ where

variable [Facts]
-- ==== Proof.K.Around.lean ====
/-
  The attention kernel's launch, seen from @main: the buffers as the region finds them (after the reshape and the
  change of format before it), the program's shape around the region, each window's block at a grid point, the two
  branch conditions of the body in closed form over the 16 × 16 grid (the key-block coordinate is the point's
  residue mod 16), where the output window is idle, and the scratch operands as memrefs.
-/
import proofs.«418717_j6734508720606_3_alg».proof.Proof.Gen.Kernel.Launch
import proofs.«418717_j6734508720606_3_alg».proof.Proof.Gen.Kernel.Skeleton
import proofs.«418717_j6734508720606_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two host lines, the region, the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by exact hostOps0_sub)
    (by exact hostOps0_fresh) main_chain

/-- The argument array is untouched by the lines before the region. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The shares at which the three input windows hold the one array they all read: a three-way split of the full share
    (the output window holds its own array whole). -/
def qsh : Fin 4 → PosShare TreeShare
  | 0 => fullShare.left
  | 1 => fullShare.right.left
  | 2 => fullShare.right.right
  | _ => fullShare

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The first branch (the reset of the running maximum, the running sum and the accumulator): taken where the
    key-block coordinate is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- The last branch (the quotient stored into the output block): taken where the key-block coordinate is 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last key block the output window is idle and not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At the last key block it is live. -/
theorem liveAt3 : ∀ t : Fin cfg0.N, condLast (grid0.coords t) → cfg0.idle 3 (grid0.coords t) = false := by decide +kernel

/-! ## The memrefs the body runs on -/

/-- One staging buffer of the output window, through which its contents are stated. -/
abbrev VO3 : View sig .tc .vmem S64x64x128 .f32 := (Memref.whole cc0_stg3_0 : Memref sig .tc .vmem S64x64x128 .f32).view
abbrev ms0 (t : Fin cfg0.N) : Memref sig .tc .vmem S64x64x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64x128 .f32 := win0_3.stage (cfg0.slots t 3)
abbrev hs3 (t : Fin cfg0.N) : (ms3 t).IsWhole := hstage0_3 ((cfg0.slots t 3).cast nbuf0_3)
/-- The scratch operands: the running maximum, the running sum, the accumulator. -/
abbrev scM : Memref sig .tc .vmem S64x1x128 .f32 := Memref.whole cc0_scratch0
abbrev scL : Memref sig .tc .vmem S64x1x128 .f32 := Memref.whole cc0_scratch1
abbrev scA : Memref sig .tc .vmem S64x64x128 .f32 := Memref.whole cc0_scratch2
abbrev VSM : View sig .tc .vmem S64x1x128 .f32 := scM.view
abbrev VSL : View sig .tc .vmem S64x1x128 .f32 := scL.view
abbrev VSA : View sig .tc .vmem S64x64x128 .f32 := scA.view

/-- The region's invariant with the three scratch operands as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.Kernel.Hand

end
-- ==== Proof.K.RunA.lean ====
/-
  The body at a grid point whose key block is the FIRST of its row (and not the last): the three scratch operands are reset whatever they held, then updated from the point's query, key and value blocks; the output block is left as it was found. The pieces each scratch ends with are found by the run itself.
-/
import proofs.«418717_j6734508720606_3_alg».proof.Proof.K.Around

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (xi3 : Vec F S64x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HA

end Cert.Kernel.Hand

end
-- ==== Proof.K.RunB.lean ====
/-
  The body at a grid point whose key block is neither the first nor the last of its row: the three scratch operands hold what the point before left and are updated from the point's blocks; the output block is left as it was found.
-/
import proofs.«418717_j6734508720606_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (xi3 : Vec F S64x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xsM ∗ owns (c : Thread nD τ) arg7 fullShare xsL ∗ owns (c : Thread nD τ) arg8 fullShare xsA
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := harg2.eq_unread hf0; obtain rfl := harg3.eq_unread hf1; obtain rfl := harg4.eq_unread hf2; obtain rfl := harg5.eq_unread hf3
    obtain rfl := harg6.eq_unread hfM; obtain rfl := harg7.eq_unread hfL; obtain rfl := harg8.eq_unread hfA
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HA

end Cert.Kernel.Hand

end
-- ==== Proof.K.RunC.lean ====
/-
  The body at a grid point whose key block is the LAST of its row (and not the first): the three scratch operands hold what the point before left and are updated from the point's blocks; then the accumulator over the running sum is stored into the output block, whatever it held.
-/
import proofs.«418717_j6734508720606_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xsM ∗ owns (c : Thread nD τ) arg7 fullShare xsL ∗ owns (c : Thread nD τ) arg8 fullShare xsA
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg2.eq_unread hf0; obtain rfl := harg3.eq_unread hf1; obtain rfl := harg4.eq_unread hf2
    obtain rfl := harg6.eq_unread hfM; obtain rfl := harg7.eq_unread hfL; obtain rfl := harg8.eq_unread hfA
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HM]; · iexists _; iexact HM
    isplitl [HL]; · iexists _; iexact HL
    iexists _; iexact HA

end Cert.Kernel.Hand

end
-- ==== Proof.K.Frame.lean ====
/-
  The attention kernel's proof data: what each case of the body leaves in the output block and in the three scratch buffers (read back from the stores the runs found), the same point by point over the 256 grid points, the region's invariant carrying the scratch contents from one point to the next, and the body obligation at every point.
-/
import proofs.«418717_j6734508720606_3_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Off the last key block nothing is stored into the output block: a placeholder nothing consults. -/
def outA_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x64x128 .f32 :=
  VO3.read (Elt F) (VO3.writes (Elt F) VO3.junk (kernelRunA c i arg2 harg2 arg3 harg3 arg4 harg4 arg5 harg5 arg6 harg6 arg7 harg7 arg8 harg8 hc0 hc1 x0 x1 x2).1)

/-- The stores into the running maximum's scratch cover it. -/
theorem scoverA_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x1x128.Idx) :
    ∃ pc ∈ (kernelRunA c i arg2 harg2 arg3 harg3 arg4 harg4 arg5 harg5 arg6 harg6 arg7 harg7 arg8 harg8 hc0 hc1 x0 x1 x2).2.1, y ∈ pc.1.set :=
  View.cover_of_tiledL (kernelRunA c i arg2 harg2 arg3 harg3 arg4 harg4 arg5 harg5 arg6 harg6 arg7 harg7 arg8 harg8 hc0 hc1 x0 x1 x2).2.1 S64x1x128.size (by sl_kernel_rfl) y

/-- What the point leaves in the running maximum's scratch. -/
def soutA_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x1x128 .f32 :=
  VSM.read (Elt F) (VSM.writes (Elt F) VSM.junk (kernelRunA c i arg2 harg2 arg3 harg3 arg4 harg4 arg5 harg5 arg6 harg6 arg7 harg7 arg8 harg8 hc0 hc1 x0 x1 x2).2.1)

/-- The stores into the running sum's scratch cover it. -/
theorem scoverA_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x1x128.Idx) :
    ∃ pc ∈ (kernelRunA c i arg2 harg2 arg3 harg3 arg4 harg4 arg5 harg5 arg6 harg6 arg7 harg7 arg8 harg8 hc0 hc1 x0 x1 x2).2.2.1, y ∈ pc.1.set :=
  View.cover_of_tiledL (kernelRunA c i arg2 harg2 arg3 harg3 arg4 harg4 arg5 harg5 arg6 harg6 arg7 harg7 arg8 harg8 hc0 hc1 x0 x1 x2).2.2.1 S64x1x128.size (by sl_kernel_rfl) y

/-- What the point leaves in the running sum's scratch. -/
def soutA_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x1x128 .f32 :=
  VSL.read (Elt F) (VSL.writes (Elt F) VSL.junk (kernelRunA c i arg2 harg2 arg3 harg3 arg4 harg4 arg5 harg5 arg6 harg6 arg7 harg7 arg8 harg8 hc0 hc1 x0 x1 x2).2.2.1)

/-- The stores into the accumulator's scratch cover it. -/
theorem scoverA_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x64x128.Idx) :
    ∃ pc ∈ (kernelRunA c i arg2 harg2 arg3 harg3 arg4 harg4 arg5 harg5 arg6 harg6 arg7 harg7 arg8 harg8 hc0 hc1 x0 x1 x2).2.2.2.1, y ∈ pc.1.set :=
  View.cover_of_tiledL (kernelRunA c i arg2 harg2 arg3 harg3 arg4 harg4 arg5 harg5 arg6 harg6 arg7 harg7 arg8 harg8 hc0 hc1 x0 x1 x2).2.2.2.1 S64x64x128.size (by sl_kernel_rfl) y

/-- What the point leaves in the accumulator's scratch. -/
def soutA_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x64x128 .f32 :=
  VSA.read (Elt F) (VSA.writes (Elt F) VSA.junk (kernelRunA c i arg2 harg2 arg3 harg3 arg4 harg4 arg5 harg5 arg6 harg6 arg7 harg7 arg8 harg8 hc0 hc1 x0 x1 x2).2.2.2.1)

/-- Off the last key block nothing is stored into the output block: a placeholder nothing consults. -/
def outB_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x64x128 .f32 :=
  VO3.read (Elt F) (VO3.writes (Elt F) VO3.junk (kernelRunB c i arg2 harg2 arg3 harg3 arg4 harg4 arg5 harg5 arg6 harg6 arg7 harg7 arg8 harg8 hc0 hc1 x0 x1 x2 xsM xsL xsA).1)

/-- The stores into the running maximum's scratch cover it. -/
theorem scoverB_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x1x128.Idx) :
    ∃ pc ∈ (kernelRunB c i arg2 harg2 arg3 harg3 arg4 harg4 arg5 harg5 arg6 harg6 arg7 harg7 arg8 harg8 hc0 hc1 x0 x1 x2 xsM xsL xsA).2.1, y ∈ pc.1.set :=
  View.cover_of_tiledL (kernelRunB c i arg2 harg2 arg3 harg3 arg4 harg4 arg5 harg5 arg6 harg6 arg7 harg7 arg8 harg8 hc0 hc1 x0 x1 x2 xsM xsL xsA).2.1 S64x1x128.size (by sl_kernel_rfl) y

/-- What the point leaves in the running maximum's scratch. -/
def soutB_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x1x128 .f32 :=
  VSM.read (Elt F) (VSM.writes (Elt F) VSM.junk (kernelRunB c i arg2 harg2 arg3 harg3 arg4 harg4 arg5 harg5 arg6 harg6 arg7 harg7 arg8 harg8 hc0 hc1 x0 x1 x2 xsM xsL xsA).2.1)

/-- The stores into the running sum's scratch cover it. -/
theorem scoverB_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x1x128.Idx) :
    ∃ pc ∈ (kernelRunB c i arg2 harg2 arg3 harg3 arg4 harg4 arg5 harg5 arg6 harg6 arg7 harg7 arg8 harg8 hc0 hc1 x0 x1 x2 xsM xsL xsA).2.2.1, y ∈ pc.1.set :=
  View.cover_of_tiledL (kernelRunB c i arg2 harg2 arg3 harg3 arg4 harg4 arg5 harg5 arg6 harg6 arg7 harg7 arg8 harg8 hc0 hc1 x0 x1 x2 xsM xsL xsA).2.2.1 S64x1x128.size (by sl_kernel_rfl) y

/-- What the point leaves in the running sum's scratch. -/
def soutB_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x1x128 .f32 :=
  VSL.read (Elt F) (VSL.writes (Elt F) VSL.junk (kernelRunB c i arg2 harg2 arg3 harg3 arg4 harg4 arg5 harg5 arg6 harg6 arg7 harg7 arg8 harg8 hc0 hc1 x0 x1 x2 xsM xsL xsA).2.2.1)

/-- The stores into the accumulator's scratch cover it. -/
theorem scoverB_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x64x128.Idx) :
    ∃ pc ∈ (kernelRunB c i arg2 harg2 arg3 harg3 arg4 harg4 arg5 harg5 arg6 harg6 arg7 harg7 arg8 harg8 hc0 hc1 x0 x1 x2 xsM xsL xsA).2.2.2.1, y ∈ pc.1.set :=
  View.cover_of_tiledL (kernelRunB c i arg2 harg2 arg3 harg3 arg4 harg4 arg5 harg5 arg6 harg6 arg7 harg7 arg8 harg8 hc0 hc1 x0 x1 x2 xsM xsL xsA).2.2.2.1 S64x64x128.size (by sl_kernel_rfl) y

/-- What the point leaves in the accumulator's scratch. -/
def soutB_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x64x128 .f32 :=
  VSA.read (Elt F) (VSA.writes (Elt F) VSA.junk (kernelRunB c i arg2 harg2 arg3 harg3 arg4 harg4 arg5 harg5 arg6 harg6 arg7 harg7 arg8 harg8 hc0 hc1 x0 x1 x2 xsM xsL xsA).2.2.2.1)

/-- At the last key block the one store into the output block covers it. -/
theorem coverC_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x64x128.Idx) :
    ∃ pc ∈ (kernelRunC c i arg2 harg2 arg3 harg3 arg4 harg4 arg5 harg5 arg6 harg6 arg7 harg7 arg8 harg8 hc0 hc1 x0 x1 x2 xsM xsL xsA).1, y ∈ pc.1.set :=
  View.cover_of_tiledL (kernelRunC c i arg2 harg2 arg3 harg3 arg4 harg4 arg5 harg5 arg6 harg6 arg7 harg7 arg8 harg8 hc0 hc1 x0 x1 x2 xsM xsL xsA).1 S64x64x128.size (by sl_kernel_rfl) y

/-- What the last key block's point leaves in the output block. -/
def outC_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x64x128 .f32 :=
  VO3.read (Elt F) (VO3.writes (Elt F) VO3.junk (kernelRunC c i arg2 harg2 arg3 harg3 arg4 harg4 arg5 harg5 arg6 harg6 arg7 harg7 arg8 harg8 hc0 hc1 x0 x1 x2 xsM xsL xsA).1)

/-- The stores into the running maximum's scratch cover it. -/
theorem scoverC_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x1x128.Idx) :
    ∃ pc ∈ (kernelRunC c i arg2 harg2 arg3 harg3 arg4 harg4 arg5 harg5 arg6 harg6 arg7 harg7 arg8 harg8 hc0 hc1 x0 x1 x2 xsM xsL xsA).2.1, y ∈ pc.1.set :=
  View.cover_of_tiledL (kernelRunC c i arg2 harg2 arg3 harg3 arg4 harg4 arg5 harg5 arg6 harg6 arg7 harg7 arg8 harg8 hc0 hc1 x0 x1 x2 xsM xsL xsA).2.1 S64x1x128.size (by sl_kernel_rfl) y

/-- What the point leaves in the running maximum's scratch. -/
def soutC_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x1x128 .f32 :=
  VSM.read (Elt F) (VSM.writes (Elt F) VSM.junk (kernelRunC c i arg2 harg2 arg3 harg3 arg4 harg4 arg5 harg5 arg6 harg6 arg7 harg7 arg8 harg8 hc0 hc1 x0 x1 x2 xsM xsL xsA).2.1)

/-- The stores into the running sum's scratch cover it. -/
theorem scoverC_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x1x128.Idx) :
    ∃ pc ∈ (kernelRunC c i arg2 harg2 arg3 harg3 arg4 harg4 arg5 harg5 arg6 harg6 arg7 harg7 arg8 harg8 hc0 hc1 x0 x1 x2 xsM xsL xsA).2.2.1, y ∈ pc.1.set :=
  View.cover_of_tiledL (kernelRunC c i arg2 harg2 arg3 harg3 arg4 harg4 arg5 harg5 arg6 harg6 arg7 harg7 arg8 harg8 hc0 hc1 x0 x1 x2 xsM xsL xsA).2.2.1 S64x1x128.size (by sl_kernel_rfl) y

/-- What the point leaves in the running sum's scratch. -/
def soutC_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x1x128 .f32 :=
  VSL.read (Elt F) (VSL.writes (Elt F) VSL.junk (kernelRunC c i arg2 harg2 arg3 harg3 arg4 harg4 arg5 harg5 arg6 harg6 arg7 harg7 arg8 harg8 hc0 hc1 x0 x1 x2 xsM xsL xsA).2.2.1)

/-- The stores into the accumulator's scratch cover it. -/
theorem scoverC_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x64x128.Idx) :
    ∃ pc ∈ (kernelRunC c i arg2 harg2 arg3 harg3 arg4 harg4 arg5 harg5 arg6 harg6 arg7 harg7 arg8 harg8 hc0 hc1 x0 x1 x2 xsM xsL xsA).2.2.2.1, y ∈ pc.1.set :=
  View.cover_of_tiledL (kernelRunC c i arg2 harg2 arg3 harg3 arg4 harg4 arg5 harg5 arg6 harg6 arg7 harg7 arg8 harg8 hc0 hc1 x0 x1 x2 xsM xsL xsA).2.2.2.1 S64x64x128.size (by sl_kernel_rfl) y

/-- What the point leaves in the accumulator's scratch. -/
def soutC_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x64x128 .f32 :=
  VSA.read (Elt F) (VSA.writes (Elt F) VSA.junk (kernelRunC c i arg2 harg2 arg3 harg3 arg4 harg4 arg5 harg5 arg6 harg6 arg7 harg7 arg8 harg8 hc0 hc1 x0 x1 x2 xsM xsL xsA).2.2.2.1)

/-! ## What the output block and the three scratch buffers hold after each point -/

/-- After the body at position `n`: (the output block, the running maximum, the running sum, the accumulator).
    A point with key block 0 runs the resetting case on its blocks alone; every other point runs on what the point
    before left in the scratch buffers; a point with key block 15 also stores the output block. -/
def outsAt (c : Dev nD) : (n : ℕ) → n < cfg0.N → Vec F S64x64x128 .f32 × Vec F S64x1x128 .f32 × Vec F S64x1x128 .f32 × Vec F S64x64x128 .f32
  | 0, hn => (outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_M c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_L c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩))
  | n + 1, hn =>
    if h0 : (n + 1) % 16 = 0 then
      (outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩))
    else
      if h1 : (n + 1) % 16 = 15 then
        (outC_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2)
      else
        (outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2)

/-- `outsAt` at a point whose key block is 0. -/
theorem outsAt_A (c : Dev nD) (t : Fin cfg0.N) (h0 : t.val % 16 = 0) (h1 : ¬t.val % 16 = 15) :
    outsAt m c t.val t.isLt = (outA_3 c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_M c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_L c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_A c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (dif_pos h0).trans rfl

/-- `outsAt` at a point whose key block is neither 0 nor 15, over what the point before left. -/
theorem outsAt_B (c : Dev nD) (t : Fin cfg0.N) (h0 : ¬t.val % 16 = 0) (h1 : ¬t.val % 16 = 15) :
    outsAt m c t.val t.isLt = (outB_3 c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_M c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_L c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_A c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point whose key block is 15, over what the point before left. -/
theorem outsAt_C (c : Dev nD) (t : Fin cfg0.N) (h0 : ¬t.val % 16 = 0) (h1 : t.val % 16 = 15) :
    outsAt m c t.val t.isLt = (outC_3 c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_M c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_L c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_A c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)
/-! ## The region's invariant, point by point -/

/-- Before position `n`: before the first point the scratch buffers hold anything; afterwards each holds what the
    point before left in it. The generator register is carried at some state. -/
def PhiS (c : Dev nD) : (n : ℕ) → n ≤ cfg0.N → sProp 𝕄
  | 0, _ => Pipeline.ΦA spec0 c
  | n + 1, hn => iprop(iprop(owns (c : Thread nD τ) scM fullShare (outsAt m c n hn).2.1 ∗ owns (c : Thread nD τ) scL fullShare (outsAt m c n hn).2.2.1 ∗ owns (c : Thread nD τ) scA fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (outsAt m c n hn).2.1 ∗ owns (c : Thread nD τ) scL fullShare (outsAt m c n hn).2.2.1 ∗ owns (c : Thread nD τ) scA fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scM fullShare (outsAt m c (n - 1) (by omega)).2.1 ∗ owns (c : Thread nD τ) scL fullShare (outsAt m c (n - 1) (by omega)).2.2.1 ∗ owns (c : Thread nD τ) scA fullShare (outsAt m c (n - 1) (by omega)).2.2.2) ∗ (∃ r, prngReg c r)) := by
  cases n with
  | zero => exact absurd rfl hz
  | succ n => rfl

/-! ## The pipeline's proof data -/

/-- The arrays as the region finds them; after the body each input block is in place and the output block is
    `outsAt`'s; the invariant `PhiS`; the shared array held at the three shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := qsh w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qsh w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

/-- Each input window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's residue mod 16 says which case it is
    in; the invariant hands the body the scratch buffers at what the point before left (at anything before the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
    unfold Dat.leavesExact; rw [liveAt0 t], after_0]
    rw [show (dats m 0 c).leavesExact 1 t = owns (c : Thread nD τ) (ms1 t) fullShare ((dats m 0 c).after 1 t) from by
    unfold Dat.leavesExact; rw [liveAt1 t], after_1]
    rw [show (dats m 0 c).leavesExact 2 t = owns (c : Thread nD τ) (ms2 t) fullShare ((dats m 0 c).after 2 t) from by
    unfold Dat.leavesExact; rw [liveAt2 t], after_2]
    rw [Dat.leavesExact_idle (dats m 0 c) 3 t (idleAt3 t (fun h => h1 ((hcondLast t).mp h))) (noFlush3 t (fun h => h1 ((hcondLast t).mp h)))]
    rw [outsAt_A m c t h0 h1]
    unfold soutA_M soutA_L soutA_A; (try dsimp only)
    by_cases hz : t.val = 0
    · rw [PhiS_castSucc m c t, PhiS_zero m c _ _ hz, PhiA_eq]
      iintro ⟨⟨⟨HM, HL, HA⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcondFirst t).mpr h0) (fun h => h1 ((hcondLast t).mp h)) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverA_M c _ _ _ _ _ _ _ _ _ _ _ _ _ _ _ _ _ _ _ _)
          isplitl [HL]
          · unfold owns; iexists _; isplitr
            swap; · iexact HL
            ipureintro; exact View.read_writes_of_cover _ _ _ _ _ (scoverA_L c _ _ _ _ _ _ _ _ _ _ _ _ _ _ _ _ _ _ _ _)
          · unfold owns; iexists _; isplitr
            swap; · iexact HA
            ipureintro; exact View.read_writes_of_cover _ _ _ _ _ (scoverA_A c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcondFirst t).mpr h0) (fun h => h1 ((hcondLast t).mp h)) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverA_M c _ _ _ _ _ _ _ _ _ _ _ _ _ _ _ _ _ _ _ _)
          isplitl [HL]
          · unfold owns; iexists _; isplitr
            swap; · iexact HL
            ipureintro; exact View.read_writes_of_cover _ _ _ _ _ (scoverA_L c _ _ _ _ _ _ _ _ _ _ _ _ _ _ _ _ _ _ _ _)
          · unfold owns; iexists _; isplitr
            swap; · iexact HA
            ipureintro; exact View.read_writes_of_cover _ _ _ _ _ (scoverA_A c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 16 = 15
    · skip
      rw [show (dats m 0 c).leavesExact 0 t = owns (c : Thread nD τ) (ms0 t) fullShare ((dats m 0 c).after 0 t) from by
      unfold Dat.leavesExact; rw [liveAt0 t], after_0]
      rw [show (dats m 0 c).leavesExact 1 t = owns (c : Thread nD τ) (ms1 t) fullShare ((dats m 0 c).after 1 t) from by
      unfold Dat.leavesExact; rw [liveAt1 t], after_1]
      rw [show (dats m 0 c).leavesExact 2 t = owns (c : Thread nD τ) (ms2 t) fullShare ((dats m 0 c).after 2 t) from by
      unfold Dat.leavesExact; rw [liveAt2 t], after_2]
      rw [show (dats m 0 c).leavesExact 3 t = owns (c : Thread nD τ) (ms3 t) fullShare ((dats m 0 c).after 3 t) from by
      unfold Dat.leavesExact; rw [liveAt3 t ((hcondLast t).mpr h1)], after_3]
      rw [outsAt_C m c t h0 h1]
      unfold outC_3 soutC_M soutC_L soutC_A; (try dsimp only)
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunC c (grid0.coords t) _ _ _ _ _ _ _ _ _ _ _ _ _ _ (fun h => h0 ((hcondFirst t).mp h)) ((hcondLast t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverC_M c _ _ _ _ _ _ _ _ _ _ _ _ _ _ _ _ _ _ _ _ _ _ _)
          isplitl [HL]
          · unfold owns; iexists _; isplitr
            swap; · iexact HL
            ipureintro; exact View.read_writes_of_cover _ _ _ _ _ (scoverC_L c _ _ _ _ _ _ _ _ _ _ _ _ _ _ _ _ _ _ _ _ _ _ _)
          · unfold owns; iexists _; isplitr
            swap; · iexact HA
            ipureintro; exact View.read_writes_of_cover _ _ _ _ _ (scoverC_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _ _ _ _)
    · skip
      rw [show (dats m 0 c).leavesExact 0 t = owns (c : Thread nD τ) (ms0 t) fullShare ((dats m 0 c).after 0 t) from by
      unfold Dat.leavesExact; rw [liveAt0 t], after_0]
      rw [show (dats m 0 c).leavesExact 1 t = owns (c : Thread nD τ) (ms1 t) fullShare ((dats m 0 c).after 1 t) from by
      unfold Dat.leavesExact; rw [liveAt1 t], after_1]
      rw [show (dats m 0 c).leavesExact 2 t = owns (c : Thread nD τ) (ms2 t) fullShare ((dats m 0 c).after 2 t) from by
      unfold Dat.leavesExact; rw [liveAt2 t], after_2]
      rw [Dat.leavesExact_idle (dats m 0 c) 3 t (idleAt3 t (fun h => h1 ((hcondLast t).mp h))) (noFlush3 t (fun h => h1 ((hcondLast t).mp h)))]
      rw [outsAt_B m c t h0 h1]
      unfold soutB_M soutB_L soutB_A; (try dsimp only)
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunB c (grid0.coords t) _ _ _ _ _ _ _ _ _ _ _ _ _ _ (fun h => h0 ((hcondFirst t).mp h)) (fun h => h1 ((hcondLast t).mp h)) (iblk m c 0 t) (iblk m c 1 t) (iblk m c 2 t) _ _ _).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverB_M c _ _ _ _ _ _ _ _ _ _ _ _ _ _ _ _ _ _ _ _ _ _ _)
          isplitl [HL]
          · unfold owns; iexists _; isplitr
            swap; · iexact HL
            ipureintro; exact View.read_writes_of_cover _ _ _ _ _ (scoverB_L c _ _ _ _ _ _ _ _ _ _ _ _ _ _ _ _ _ _ _ _ _ _ _)
          · unfold owns; iexists _; isplitr
            swap; · iexact HA
            ipureintro; exact View.read_writes_of_cover _ _ _ _ _ (scoverB_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HA⟩, Hg⟩
  isplitl [HM HL HA]
  · isplitl [HM]; · iexists _; iexact HM
    isplitl [HL]; · iexists _; iexact HL
    iexists _; iexact HA
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.K.Launch.lean ====
/-
  The launch of the attention kernel's one pallas_call, whose three input windows read ONE array: the array's full
  share is dealt among the three windows (a left half and the two quarters of the right half), the output window holds
  its own array whole, and after the region the closing reshape reads the output array into the result buffer. The run
  concludes, for any proof data holding the inputs at those three shares, that the argument buffer is untouched and
  that the result buffer holds the output array, as the pipeline's write-backs leave it, recast to the result's shape.
-/
import proofs.«418717_j6734508720606_3_alg».proof.Proof.K.Around

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Shared

variable (dats : (p : Fin 1) → (c : Dev nD) → Dat τ (Elt F) Unit ℕ (UR sig nD τ) ℕ (cfgs p) c)

/-! ## The windows' shares and the pipeline's arrays, one by one -/

/-- An input window holds its array at its share of the three-way split. -/
theorem share_in (hq : ∀ c w, (dats 0 c).q w = qsh w) (c : Dev nD) (w : Fin 4) (hw : (cfg0.win w).isOut = false) :
    (dats 0 c).share w = qsh w := by
  rw [Dat.share, hw]; exact (if_neg Bool.false_ne_true).trans (hq c w)

/-- The output window holds its array whole. -/
theorem share_out (c : Dev nD) : (dats 0 c).share 3 = fullShare := by
  rw [Dat.share]; exact if_pos rfl

/-- The pipeline's arrays at contents `G`: the shared array three times, at the left half and at the two quarters of
    the right half of the full share, and the output array whole. -/
theorem arrays_eq4 (hq : ∀ c w, (dats 0 c).q w = qsh w) (c : Dev nD)
    (G : (w : Fin cfg0.W) → Buf (Elt F) ((cfg0.win w).arr.view.loc (c.tc : Thread nD τ))) :
    ((dats 0 c).arrays G : sProp 𝕄) = iprop(
      (((c.tc : Thread nD τ).loc main_v1) ↦{fullShare.left} G 0)
      ∗ (((c.tc : Thread nD τ).loc main_v1) ↦{fullShare.right.left} G 1)
      ∗ (((c.tc : Thread nD τ).loc main_v1) ↦{fullShare.right.right} G 2)
      ∗ (((c.tc : Thread nD τ).loc main_v2) ↦{fullShare} G 3)) := by
  rw [show ((dats 0 c).arrays G : sProp 𝕄)
      = bigSep Finset.univ fun w : Fin 4 => (((c.tc : Thread nD τ).loc (Pipeline.arrRef spec0 w)) ↦{(dats 0 c).share w} G w : sProp 𝕄) from
    bigSep_congr fun w _ => by rw [(arr_whole0 w).set_eq_univ]]
  rw [bigSep_W0, share_in dats hq c 0 rfl, share_in dats hq c 1 rfl, share_in dats hq c 2 rfl, share_out dats c]
  rfl

/-! ## The launch's split of the shared array -/

/-- The windows' arrays are two buffers: the one the three inputs read and the output's. -/
theorem arrRefs_eq : Finset.univ.image (Pipeline.arrRef spec0) = ({main_v1, main_v2} : Finset (Ref sig .tc)) := by decide

/-- The two buffers behind the arrays, whole at the region-entry contents, make the pipeline's arrays at entry: the shared
    buffer's full share splits into its left half and the two quarters of its right half, one per input window. -/
theorem hsplit (hA : ∀ c w, (dats 0 c).A w = V m c (Pipeline.arrRef spec0 w)) (hq : ∀ c w, (dats 0 c).q w = qsh w) (c : Dev nD) :
    (Pipeline.arrBufs spec0 c (V m c) : sProp 𝕄) ⊢ (dats 0 c).arrays ((dats 0 c).arrAt · 0) := by
  rw [arrays_eq4 dats hq c]
  unfold Pipeline.arrBufs
  rw [arrRefs_eq, bigSep_insert (by decide), bigSep_singleton]
  rw [show (dats 0 c).arrAt 0 0 = V m c main_v1 from hA c 0, show (dats 0 c).arrAt 1 0 = V m c main_v1 from hA c 1,
    show (dats 0 c).arrAt 2 0 = V m c main_v1 from hA c 2, show (dats 0 c).arrAt 3 0 = V m c main_v2 from hA c 3]
  refine (show iprop((((c.tc : Thread nD τ).loc main_v1) ↦{fullShare} V m c main_v1)
      ∗ (((c.tc : Thread nD τ).loc main_v2) ↦{fullShare} V m c main_v2)) ⊢ _ from ?_)
  iintro ⟨H1, H2⟩
  ihave Hs := (pointsTo_share (PosShare.mem_left_op_right fullShare)).1 $$ H1
  icases Hs with ⟨Hl, Hr⟩
  ihave Hrs := (pointsTo_share (PosShare.mem_left_op_right fullShare.right)).1 $$ Hr
  icases Hrs with ⟨Hrl, Hrr⟩
  isplitl [Hl]; · iexact Hl
  isplitl [Hrl]; · iexact Hrl
  isplitl [Hrr]; · iexact Hrr
  iexact H2

/-! ## The buffers at the region's exit, and after the closing reshape -/

/-- Core `c`'s buffer contents when the region is left: the output array as the write-backs leave it, every other
    buffer as the region found it. -/
def Wx (c : Dev nD) : Valuation τ sig (Elt F) :=
  Function.update (V0 m c) (Proc.devRef .tc main_v2) ((dats 0 c).arrAt 3 cfg0.N)

theorem Wx_v2 (c : Dev nD) : Wx m dats c (Proc.devRef .tc main_v2) = (dats 0 c).arrAt 3 cfg0.N :=
  Function.update_self ..

theorem Wx_ne (c : Dev nD) (b : Ref sig .tc) (h : b ≠ main_v2) : Wx m dats c (Proc.devRef .tc b) = V m c b :=
  Function.update_of_ne (StableHlo.devRef_ne_of_ne h) ..

/-- The same after the closing reshape, read at a TensorCore reference. -/
def Wf (c : Dev nD) (b : Ref sig .tc) : Buf (Elt F) ((c.tc : Thread nD τ).loc b) :=
  StableHlo.after hostOps1 (Wx m dats c) (Proc.devRef .tc b)

/-- The result buffer holds the output array recast to the result's shape. -/
theorem Wf_v3 (c : Dev nD) :
    Wf m dats c main_v3 = shapeCast S4x1024x2048 ((dats 0 c).arrAt 3 cfg0.N) shapeCasts_S64x64x2048_S4x1024x2048 := by
  show (StableHlo.reshape main_v2 main_v3 rfl shapeCasts_S64x64x2048_S4x1024x2048).result (Wx m dats c) (Proc.devRef .tc main_v3) = _
  rw [StableHlo.reshape_result]
  show shapeCast S4x1024x2048 (Wx m dats c (Proc.devRef .tc main_v2)) shapeCasts_S64x64x2048_S4x1024x2048 = _
  rw [Wx_v2]

/-- The reshape leaves every other buffer: the output array, -/
theorem Wf_v2 (c : Dev nD) : Wf m dats c main_v2 = (dats 0 c).arrAt 3 cfg0.N := by
  show (StableHlo.reshape main_v2 main_v3 rfl shapeCasts_S64x64x2048_S4x1024x2048).result (Wx m dats c) (Proc.devRef .tc main_v2) = _
  rw [StableHlo.reshape_result_ne _ _ _ _ _ _ _ (by decide), Wx_v2]

/-- and the buffers that bypass the region, which hold what the region found. -/
theorem Wf_ne (c : Dev nD) (b : Ref sig .tc) (h2 : b ≠ main_v2) (h3 : b ≠ main_v3) : Wf m dats c b = V m c b := by
  show (StableHlo.reshape main_v2 main_v3 rfl shapeCasts_S64x64x2048_S4x1024x2048).result (Wx m dats c) (Proc.devRef .tc b) = _
  rw [StableHlo.reshape_result_ne _ _ _ _ _ _ _ h3, Wx_ne m dats c b h2]

end Shared

section Tail

variable (dats : (p : Fin 1) → (c : Dev nD) → Dat τ (Elt F) Unit ℕ (UR sig nD τ) ℕ (cfgs p) c)

/-! ## The closing reshape, run from the region's exit -/

/-- The two buffers the closing reshape touches, held whole at a valuation. -/
theorem held_pair (c : Dev nD) (W : Valuation τ sig (Elt F)) :
    (StableHlo.held (c.tc : Thread nD τ) {Proc.devRef .tc main_v2, Proc.devRef .tc main_v3} W : sProp 𝕄)
      = iprop((((c.tc : Thread nD τ).loc main_v2) ↦{fullShare} W (Proc.devRef .tc main_v2))
          ∗ (((c.tc : Thread nD τ).loc main_v3) ↦{fullShare} W (Proc.devRef .tc main_v3))) := by
  unfold StableHlo.held
  rw [bigSep_insert (by rw [Finset.mem_singleton]; exact StableHlo.devRef_ne_of_ne (by decide)), bigSep_singleton]
  rfl

set_option backward.isDefEq.respectTransparency.types false in
/-- THE LINE AFTER THE REGION. From the region's exit — the boundary, the pipeline's arrays as the write-backs leave them,
    the bypassing buffers as the region found them — the closing reshape runs holding the output array (the output window's,
    whole) and the result buffer (a bypassing one), and hands back the arrays unchanged and the bypassing buffers with the
    result buffer rewritten. -/
theorem htail (hq : ∀ c w, (dats 0 c).q w = qsh w) (c : Dev nD) (Q' : PUnit → sProp 𝕄) :
    iprop((iprop((dats 0 c).arrays ((dats 0 c).arrAt · cfg0.N) ∗ Pipeline.unscopedRest spec0 c (Wf m dats c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_eq4 dats hq c, unscopedRest0_eq c (V m c), unscopedRest0_eq c (Wf m dats c),
    Wf_ne m dats c main_arg0 (by decide) (by decide), Wf_ne m dats c main_v0 (by decide) (by decide),
    Pipeline.chain_cons]
  have hex : (StableHlo.held (c.tc : Thread nD τ) {Proc.devRef .tc main_v2, Proc.devRef .tc main_v3}
        (StableHlo.after hostOps1 (Wx m dats c)) : sProp 𝕄)
      = iprop((((c.tc : Thread nD τ).loc main_v2) ↦{fullShare} (dats 0 c).arrAt 3 cfg0.N)
          ∗ (((c.tc : Thread nD τ).loc main_v3) ↦{fullShare} Wf m dats c main_v3)) := by
    rw [held_pair]
    exact congrArg₂ _ (congrArg _ (Wf_v2 m dats c)) rfl
  iintro ⟨Hk, Hb, ⟨H0, H1, H2, H3⟩, Hz0, Hz1, Hz3⟩
  iapply (StableHlo.wp_seq (Variants.lift Variants.none) none Set.univ c {Proc.devRef .tc main_v2, Proc.devRef .tc main_v3}
    (fun _ => Pipeline.chain []) hostOps1
    (fun op hop => by rw [List.mem_singleton.mp hop]; exact Finset.Subset.refl _)
    (List.forall_iff_forall_mem.mp hostOps1_fresh) (Wx m dats c)) $$ [Hb H3 Hz3]
  · isplitl [Hb]; · iexact Hb
    rw [held_pair, Wx_v2, Wx_ne m dats c main_v3 (by decide)]
    isplitl [H3] <;> iassumption
  iintro Hh
  rw [Pipeline.chain_nil, wp_pure, hex]
  imodintro
  icases Hh with ⟨-, H3, Hz3⟩
  iapply Hk
  isplitl [H0 H1 H2 H3]
  · isplitl [H0]; · iexact H0
    isplitl [H1]; · iexact H1
    isplitl [H2]; · iexact H2
    iexact H3
  isplitl [Hz0]; · iexact Hz0
  isplitl [Hz1]; · iexact Hz1
  iexact Hz3

end Tail

set_option backward.isDefEq.respectTransparency.types false in
/-- THE RUN. For any proof data that reads the arrays as the region finds them (`hA`), holds the three inputs at the
    three shares (`hq`), owes nothing, and whose invariant starts from and ends in the class's (`hin`, `hout`): every
    weakly fair execution of @main from a memory with zero counters terminates, the argument buffer is untouched, and the
    result buffer holds the output array — as the proof data's write-backs leave it — recast to the result's shape. -/
theorem run_shared
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qsh w)
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_v3)
          = shapeCast S4x1024x2048 ((dats 0 c).arrAt 3 cfg0.N) shapeCasts_S64x64x2048_S4x1024x2048) := by
  classical
  exact Pipeline.θ_run_region_pf_tail (fun q => (cfgs q).toPCfg (Val := Elt F)) (fun q => (cfgs q).toPCfg_adm) dats ()
    cellOf_inj (0 : Fin 1) winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wf m dats c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats hq c Q')
    (QY := fun c s => ∀ b ∈ Pipeline.restRefs sig spec0, s.mem ((c.tc : Thread nD τ).loc b) = Wf m dats c b)
    (hY := fun c s' => by
      iintro ⟨-, HU, HSI⟩
      unfold Pipeline.unscopedRest
      imodintro
      iapply (pointsTo_read_all (Pipeline.restRefs sig spec0) (fun b => (c.tc : Thread nD τ).loc b) (Wf m dats c) s')
      isplitl [HU] <;> iassumption)
    (hQ := fun s h c => by
      obtain ⟨-, -, hr⟩ := h c
      refine ⟨?_, ?_⟩
      · rw [hr main_arg0 (Pipeline.mem_restRefs_of main_arg0 rfl (by decide)),
          Wf_ne m dats c main_arg0 (by decide) (by decide), V_main_arg0]
      · rw [hr main_v3 (Pipeline.mem_restRefs_of main_v3 rfl (by decide)), Wf_v3])

end Cert.Kernel.Hand

end
-- ==== Proof.K.Run.lean ====
/-
  The attention kernel's run: every weakly fair execution of @main terminates, the argument array ends as it was, and the result buffer ends at the closing reshape of the output array the blocks written back make up. The three input windows read one array, each holding a share of it.
-/
import proofs.«418717_j6734508720606_3_alg».proof.Proof.K.Frame
import proofs.«418717_j6734508720606_3_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_v3)
          = shapeCast S4x1024x2048 ((dats m 0 c).arrAt 3 cfg0.N) shapeCasts_S64x64x2048_S4x1024x2048) :=
  run_shared m ρ (dats m) (A_eq m) (q_eq m) (fun c => (body_obligation m c).loose) (fun _ _ => rfl) (hin m) (hout m)

/-- The frame: the program runs to the end and the argument array is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.Kernel.Hand

end
-- ==== Proof.KI.Around.lean ====
/-
  The attention kernel's launch, seen from @main: the buffers as the region finds them (after the reshape and the
  change of format before it), the program's shape around the region, each window's block at a grid point, the two
  branch conditions of the body in closed form over the 16 × 16 grid (the key-block coordinate is the point's
  residue mod 16), where the output window is idle, and the scratch operands as memrefs.
-/
import proofs.«418717_j6734508720606_3_alg».proof.Proof.Gen.KernelIdeal.Launch
import proofs.«418717_j6734508720606_3_alg».proof.Proof.Gen.KernelIdeal.Skeleton
import proofs.«418717_j6734508720606_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two host lines, the region, the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by exact hostOps0_sub)
    (by exact hostOps0_fresh) main_chain

/-- The argument array is untouched by the lines before the region. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The shares at which the three input windows hold the one array they all read: a three-way split of the full share
    (the output window holds its own array whole). -/
def qsh : Fin 4 → PosShare TreeShare
  | 0 => fullShare.left
  | 1 => fullShare.right.left
  | 2 => fullShare.right.right
  | _ => fullShare

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions -/

/-- The first branch (the reset of the running maximum, the running sum and the accumulator): taken where the
    key-block coordinate is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- The last branch (the quotient stored into the output block): taken where the key-block coordinate is 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last key block the output window is idle and not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At the last key block it is live. -/
theorem liveAt3 : ∀ t : Fin cfg0.N, condLast (grid0.coords t) → cfg0.idle 3 (grid0.coords t) = false := by decide +kernel

/-! ## The memrefs the body runs on -/

/-- One staging buffer of the output window, through which its contents are stated. -/
abbrev VO3 : View sig .tc .vmem S64x64x128 .f32 := (Memref.whole cc0_stg3_0 : Memref sig .tc .vmem S64x64x128 .f32).view
abbrev ms0 (t : Fin cfg0.N) : Memref sig .tc .vmem S64x64x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64x128 .f32 := win0_3.stage (cfg0.slots t 3)
abbrev hs3 (t : Fin cfg0.N) : (ms3 t).IsWhole := hstage0_3 ((cfg0.slots t 3).cast nbuf0_3)
/-- The scratch operands: the running maximum, the running sum, the accumulator. -/
abbrev scM : Memref sig .tc .vmem S64x1x128 .f32 := Memref.whole cc0_scratch0
abbrev scL : Memref sig .tc .vmem S64x1x128 .f32 := Memref.whole cc0_scratch1
abbrev scA : Memref sig .tc .vmem S64x64x128 .f32 := Memref.whole cc0_scratch2
abbrev VSM : View sig .tc .vmem S64x1x128 .f32 := scM.view
abbrev VSL : View sig .tc .vmem S64x1x128 .f32 := scL.view
abbrev VSA : View sig .tc .vmem S64x64x128 .f32 := scA.view

/-- The region's invariant with the three scratch operands as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.KernelIdeal.Hand

end
-- ==== Proof.KI.RunA.lean ====
/-
  The body at a grid point whose key block is the FIRST of its row (and not the last): the three scratch operands are reset whatever they held, then updated from the point's query, key and value blocks; the output block is left as it was found. The pieces each scratch ends with are found by the run itself.
-/
import proofs.«418717_j6734508720606_3_alg».proof.Proof.KI.Around

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (xi3 : Vec F S64x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%dM, %fM, -, HM⟩, ⟨%dL, %fL, -, HL⟩, ⟨%dA, %fA, -, HA⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HA

end Cert.KernelIdeal.Hand

end
-- ==== Proof.KI.RunB.lean ====
/-
  The body at a grid point whose key block is neither the first nor the last of its row: the three scratch operands hold what the point before left and are updated from the point's blocks; the output block is left as it was found.
-/
import proofs.«418717_j6734508720606_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (xi3 : Vec F S64x64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xsM ∗ owns (c : Thread nD τ) arg7 fullShare xsL ∗ owns (c : Thread nD τ) arg8 fullShare xsA
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fM, %hfM, HM⟩, ⟨%fL, %hfL, HL⟩, ⟨%fA, %hfA, HA⟩, Hk⟩
    obtain rfl := harg2.eq_unread hf0; obtain rfl := harg3.eq_unread hf1; obtain rfl := harg4.eq_unread hf2; obtain rfl := harg5.eq_unread hf3
    obtain rfl := harg6.eq_unread hfM; obtain rfl := harg7.eq_unread hfL; obtain rfl := harg8.eq_unread hfA
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HM]; · iexists _; iexact HM
    isplitl [HL]; · iexists _; iexact HL
    iexists _; iexact HA

end Cert.KernelIdeal.Hand

end
-- ==== Proof.KI.RunC.lean ====
/-
  The body at a grid point whose key block is the LAST of its row (and not the first): the three scratch operands hold what the point before left and are updated from the point's blocks; then the accumulator over the running sum is stored into the output block, whatever it held.
-/
import proofs.«418717_j6734508720606_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunC (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    Σ' (L3 : List (View.Piece (Elt F) S64x64x128 .f32)) (LM : List (View.Piece (Elt F) S64x1x128 .f32)) (LL : List (View.Piece (Elt F) S64x1x128 .f32)),
      { LA : List (View.Piece (Elt F) S64x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xsM ∗ owns (c : Thread nD τ) arg7 fullShare xsL ∗ owns (c : Thread nD τ) arg8 fullShare xsA
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fM, %hfM, HM⟩, ⟨%fL, %hfL, HL⟩, ⟨%fA, %hfA, HA⟩, Hk⟩
    obtain rfl := harg2.eq_unread hf0; obtain rfl := harg3.eq_unread hf1; obtain rfl := harg4.eq_unread hf2
    obtain rfl := harg6.eq_unread hfM; obtain rfl := harg7.eq_unread hfL; obtain rfl := harg8.eq_unread hfA
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HM]; · iexists _; iexact HM
    isplitl [HL]; · iexists _; iexact HL
    iexists _; iexact HA

end Cert.KernelIdeal.Hand

end
-- ==== Proof.KI.Frame.lean ====
/-
  The attention kernel's proof data: what each case of the body leaves in the output block and in the three scratch buffers (read back from the stores the runs found), the same point by point over the 256 grid points, the region's invariant carrying the scratch contents from one point to the next, and the body obligation at every point.
-/
import proofs.«418717_j6734508720606_3_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Off the last key block nothing is stored into the output block: a placeholder nothing consults. -/
def outA_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x64x128 .f32 :=
  VO3.read (Elt F) (VO3.writes (Elt F) VO3.junk (kernelRunA c i arg2 harg2 arg3 harg3 arg4 harg4 arg5 harg5 arg6 harg6 arg7 harg7 arg8 harg8 hc0 hc1 x0 x1 x2).1)

/-- The stores into the running maximum's scratch cover it. -/
theorem scoverA_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x1x128.Idx) :
    ∃ pc ∈ (kernelRunA c i arg2 harg2 arg3 harg3 arg4 harg4 arg5 harg5 arg6 harg6 arg7 harg7 arg8 harg8 hc0 hc1 x0 x1 x2).2.1, y ∈ pc.1.set :=
  View.cover_of_tiledL (kernelRunA c i arg2 harg2 arg3 harg3 arg4 harg4 arg5 harg5 arg6 harg6 arg7 harg7 arg8 harg8 hc0 hc1 x0 x1 x2).2.1 S64x1x128.size (by sl_kernel_rfl) y

/-- What the point leaves in the running maximum's scratch. -/
def soutA_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x1x128 .f32 :=
  VSM.read (Elt F) (VSM.writes (Elt F) VSM.junk (kernelRunA c i arg2 harg2 arg3 harg3 arg4 harg4 arg5 harg5 arg6 harg6 arg7 harg7 arg8 harg8 hc0 hc1 x0 x1 x2).2.1)

/-- The stores into the running sum's scratch cover it. -/
theorem scoverA_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x1x128.Idx) :
    ∃ pc ∈ (kernelRunA c i arg2 harg2 arg3 harg3 arg4 harg4 arg5 harg5 arg6 harg6 arg7 harg7 arg8 harg8 hc0 hc1 x0 x1 x2).2.2.1, y ∈ pc.1.set :=
  View.cover_of_tiledL (kernelRunA c i arg2 harg2 arg3 harg3 arg4 harg4 arg5 harg5 arg6 harg6 arg7 harg7 arg8 harg8 hc0 hc1 x0 x1 x2).2.2.1 S64x1x128.size (by sl_kernel_rfl) y

/-- What the point leaves in the running sum's scratch. -/
def soutA_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x1x128 .f32 :=
  VSL.read (Elt F) (VSL.writes (Elt F) VSL.junk (kernelRunA c i arg2 harg2 arg3 harg3 arg4 harg4 arg5 harg5 arg6 harg6 arg7 harg7 arg8 harg8 hc0 hc1 x0 x1 x2).2.2.1)

/-- The stores into the accumulator's scratch cover it. -/
theorem scoverA_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) (y : S64x64x128.Idx) :
    ∃ pc ∈ (kernelRunA c i arg2 harg2 arg3 harg3 arg4 harg4 arg5 harg5 arg6 harg6 arg7 harg7 arg8 harg8 hc0 hc1 x0 x1 x2).2.2.2.1, y ∈ pc.1.set :=
  View.cover_of_tiledL (kernelRunA c i arg2 harg2 arg3 harg3 arg4 harg4 arg5 harg5 arg6 harg6 arg7 harg7 arg8 harg8 hc0 hc1 x0 x1 x2).2.2.2.1 S64x64x128.size (by sl_kernel_rfl) y

/-- What the point leaves in the accumulator's scratch. -/
def soutA_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) : Vec F S64x64x128 .f32 :=
  VSA.read (Elt F) (VSA.writes (Elt F) VSA.junk (kernelRunA c i arg2 harg2 arg3 harg3 arg4 harg4 arg5 harg5 arg6 harg6 arg7 harg7 arg8 harg8 hc0 hc1 x0 x1 x2).2.2.2.1)

/-- Off the last key block nothing is stored into the output block: a placeholder nothing consults. -/
def outB_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x64x128 .f32 :=
  VO3.read (Elt F) (VO3.writes (Elt F) VO3.junk (kernelRunB c i arg2 harg2 arg3 harg3 arg4 harg4 arg5 harg5 arg6 harg6 arg7 harg7 arg8 harg8 hc0 hc1 x0 x1 x2 xsM xsL xsA).1)

/-- The stores into the running maximum's scratch cover it. -/
theorem scoverB_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x1x128.Idx) :
    ∃ pc ∈ (kernelRunB c i arg2 harg2 arg3 harg3 arg4 harg4 arg5 harg5 arg6 harg6 arg7 harg7 arg8 harg8 hc0 hc1 x0 x1 x2 xsM xsL xsA).2.1, y ∈ pc.1.set :=
  View.cover_of_tiledL (kernelRunB c i arg2 harg2 arg3 harg3 arg4 harg4 arg5 harg5 arg6 harg6 arg7 harg7 arg8 harg8 hc0 hc1 x0 x1 x2 xsM xsL xsA).2.1 S64x1x128.size (by sl_kernel_rfl) y

/-- What the point leaves in the running maximum's scratch. -/
def soutB_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x1x128 .f32 :=
  VSM.read (Elt F) (VSM.writes (Elt F) VSM.junk (kernelRunB c i arg2 harg2 arg3 harg3 arg4 harg4 arg5 harg5 arg6 harg6 arg7 harg7 arg8 harg8 hc0 hc1 x0 x1 x2 xsM xsL xsA).2.1)

/-- The stores into the running sum's scratch cover it. -/
theorem scoverB_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x1x128.Idx) :
    ∃ pc ∈ (kernelRunB c i arg2 harg2 arg3 harg3 arg4 harg4 arg5 harg5 arg6 harg6 arg7 harg7 arg8 harg8 hc0 hc1 x0 x1 x2 xsM xsL xsA).2.2.1, y ∈ pc.1.set :=
  View.cover_of_tiledL (kernelRunB c i arg2 harg2 arg3 harg3 arg4 harg4 arg5 harg5 arg6 harg6 arg7 harg7 arg8 harg8 hc0 hc1 x0 x1 x2 xsM xsL xsA).2.2.1 S64x1x128.size (by sl_kernel_rfl) y

/-- What the point leaves in the running sum's scratch. -/
def soutB_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x1x128 .f32 :=
  VSL.read (Elt F) (VSL.writes (Elt F) VSL.junk (kernelRunB c i arg2 harg2 arg3 harg3 arg4 harg4 arg5 harg5 arg6 harg6 arg7 harg7 arg8 harg8 hc0 hc1 x0 x1 x2 xsM xsL xsA).2.2.1)

/-- The stores into the accumulator's scratch cover it. -/
theorem scoverB_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) (y : S64x64x128.Idx) :
    ∃ pc ∈ (kernelRunB c i arg2 harg2 arg3 harg3 arg4 harg4 arg5 harg5 arg6 harg6 arg7 harg7 arg8 harg8 hc0 hc1 x0 x1 x2 xsM xsL xsA).2.2.2.1, y ∈ pc.1.set :=
  View.cover_of_tiledL (kernelRunB c i arg2 harg2 arg3 harg3 arg4 harg4 arg5 harg5 arg6 harg6 arg7 harg7 arg8 harg8 hc0 hc1 x0 x1 x2 xsM xsL xsA).2.2.2.1 S64x64x128.size (by sl_kernel_rfl) y

/-- What the point leaves in the accumulator's scratch. -/
def soutB_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) : Vec F S64x64x128 .f32 :=
  VSA.read (Elt F) (VSA.writes (Elt F) VSA.junk (kernelRunB c i arg2 harg2 arg3 harg3 arg4 harg4 arg5 harg5 arg6 harg6 arg7 harg7 arg8 harg8 hc0 hc1 x0 x1 x2 xsM xsL xsA).2.2.2.1)

/-- At the last key block the one store into the output block covers it. -/
theorem coverC_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x64x128.Idx) :
    ∃ pc ∈ (kernelRunC c i arg2 harg2 arg3 harg3 arg4 harg4 arg5 harg5 arg6 harg6 arg7 harg7 arg8 harg8 hc0 hc1 x0 x1 x2 xsM xsL xsA).1, y ∈ pc.1.set :=
  View.cover_of_tiledL (kernelRunC c i arg2 harg2 arg3 harg3 arg4 harg4 arg5 harg5 arg6 harg6 arg7 harg7 arg8 harg8 hc0 hc1 x0 x1 x2 xsM xsL xsA).1 S64x64x128.size (by sl_kernel_rfl) y

/-- What the last key block's point leaves in the output block. -/
def outC_3 (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x64x128 .f32 :=
  VO3.read (Elt F) (VO3.writes (Elt F) VO3.junk (kernelRunC c i arg2 harg2 arg3 harg3 arg4 harg4 arg5 harg5 arg6 harg6 arg7 harg7 arg8 harg8 hc0 hc1 x0 x1 x2 xsM xsL xsA).1)

/-- The stores into the running maximum's scratch cover it. -/
theorem scoverC_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x1x128.Idx) :
    ∃ pc ∈ (kernelRunC c i arg2 harg2 arg3 harg3 arg4 harg4 arg5 harg5 arg6 harg6 arg7 harg7 arg8 harg8 hc0 hc1 x0 x1 x2 xsM xsL xsA).2.1, y ∈ pc.1.set :=
  View.cover_of_tiledL (kernelRunC c i arg2 harg2 arg3 harg3 arg4 harg4 arg5 harg5 arg6 harg6 arg7 harg7 arg8 harg8 hc0 hc1 x0 x1 x2 xsM xsL xsA).2.1 S64x1x128.size (by sl_kernel_rfl) y

/-- What the point leaves in the running maximum's scratch. -/
def soutC_M (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x1x128 .f32 :=
  VSM.read (Elt F) (VSM.writes (Elt F) VSM.junk (kernelRunC c i arg2 harg2 arg3 harg3 arg4 harg4 arg5 harg5 arg6 harg6 arg7 harg7 arg8 harg8 hc0 hc1 x0 x1 x2 xsM xsL xsA).2.1)

/-- The stores into the running sum's scratch cover it. -/
theorem scoverC_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x1x128.Idx) :
    ∃ pc ∈ (kernelRunC c i arg2 harg2 arg3 harg3 arg4 harg4 arg5 harg5 arg6 harg6 arg7 harg7 arg8 harg8 hc0 hc1 x0 x1 x2 xsM xsL xsA).2.2.1, y ∈ pc.1.set :=
  View.cover_of_tiledL (kernelRunC c i arg2 harg2 arg3 harg3 arg4 harg4 arg5 harg5 arg6 harg6 arg7 harg7 arg8 harg8 hc0 hc1 x0 x1 x2 xsM xsL xsA).2.2.1 S64x1x128.size (by sl_kernel_rfl) y

/-- What the point leaves in the running sum's scratch. -/
def soutC_L (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x1x128 .f32 :=
  VSL.read (Elt F) (VSL.writes (Elt F) VSL.junk (kernelRunC c i arg2 harg2 arg3 harg3 arg4 harg4 arg5 harg5 arg6 harg6 arg7 harg7 arg8 harg8 hc0 hc1 x0 x1 x2 xsM xsL xsA).2.2.1)

/-- The stores into the accumulator's scratch cover it. -/
theorem scoverC_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) (y : S64x64x128.Idx) :
    ∃ pc ∈ (kernelRunC c i arg2 harg2 arg3 harg3 arg4 harg4 arg5 harg5 arg6 harg6 arg7 harg7 arg8 harg8 hc0 hc1 x0 x1 x2 xsM xsL xsA).2.2.2.1, y ∈ pc.1.set :=
  View.cover_of_tiledL (kernelRunC c i arg2 harg2 arg3 harg3 arg4 harg4 arg5 harg5 arg6 harg6 arg7 harg7 arg8 harg8 hc0 hc1 x0 x1 x2 xsM xsL xsA).2.2.2.1 S64x64x128.size (by sl_kernel_rfl) y

/-- What the point leaves in the accumulator's scratch. -/
def soutC_A (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) : Vec F S64x64x128 .f32 :=
  VSA.read (Elt F) (VSA.writes (Elt F) VSA.junk (kernelRunC c i arg2 harg2 arg3 harg3 arg4 harg4 arg5 harg5 arg6 harg6 arg7 harg7 arg8 harg8 hc0 hc1 x0 x1 x2 xsM xsL xsA).2.2.2.1)

/-! ## What the output block and the three scratch buffers hold after each point -/

/-- After the body at position `n`: (the output block, the running maximum, the running sum, the accumulator).
    A point with key block 0 runs the resetting case on its blocks alone; every other point runs on what the point
    before left in the scratch buffers; a point with key block 15 also stores the output block. -/
def outsAt (c : Dev nD) : (n : ℕ) → n < cfg0.N → Vec F S64x64x128 .f32 × Vec F S64x1x128 .f32 × Vec F S64x1x128 .f32 × Vec F S64x64x128 .f32
  | 0, hn => (outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_M c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_L c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩), soutA_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) scL (Memref.isWhole_whole _) scA (Memref.isWhole_whole _) ((hcondFirst ⟨0, hn⟩).mpr (Nat.zero_mod _)) (fun h => (fun h' => by (try dsimp only at h'); omega) ((hcondLast ⟨0, hn⟩).mp h)) (iblk m c 0 ⟨0, hn⟩) (iblk m c 1 ⟨0, hn⟩) (iblk m c 2 ⟨0, hn⟩))
  | n + 1, hn =>
    if h0 : (n + 1) % 16 = 0 then
      (outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩), soutA_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) ((hcondFirst ⟨n + 1, hn⟩).mpr h0) (fun h => (fun h' => by (try dsimp only at h'); omega) ((hcondLast ⟨n + 1, hn⟩).mp h)) (iblk m c 0 ⟨n + 1, hn⟩) (iblk m c 1 ⟨n + 1, hn⟩) (iblk m c 2 ⟨n + 1, hn⟩))
    else
      if h1 : (n + 1) % 16 = 15 then
        (outC_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutC_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2)
      else
        (outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_M c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_L c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2, soutB_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) scL (Memref.isWhole_whole _) scA (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2.1 (outsAt c n (Nat.lt_of_succ_lt hn)).2.2.2)

/-- `outsAt` at a point whose key block is 0. -/
theorem outsAt_A (c : Dev nD) (t : Fin cfg0.N) (h0 : t.val % 16 = 0) (h1 : ¬t.val % 16 = 15) :
    outsAt m c t.val t.isLt = (outA_3 c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_M c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_L c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t), soutA_A c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (dif_pos h0).trans rfl

/-- `outsAt` at a point whose key block is neither 0 nor 15, over what the point before left. -/
theorem outsAt_B (c : Dev nD) (t : Fin cfg0.N) (h0 : ¬t.val % 16 = 0) (h1 : ¬t.val % 16 = 15) :
    outsAt m c t.val t.isLt = (outB_3 c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_M c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_L c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutB_A c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point whose key block is 15, over what the point before left. -/
theorem outsAt_C (c : Dev nD) (t : Fin cfg0.N) (h0 : ¬t.val % 16 = 0) (h1 : t.val % 16 = 15) :
    outsAt m c t.val t.isLt = (outC_3 c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_M c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_L c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, soutC_A c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)
/-! ## The region's invariant, point by point -/

/-- Before position `n`: before the first point the scratch buffers hold anything; afterwards each holds what the
    point before left in it. The generator register is carried at some state. -/
def PhiS (c : Dev nD) : (n : ℕ) → n ≤ cfg0.N → sProp 𝕄
  | 0, _ => Pipeline.ΦA spec0 c
  | n + 1, hn => iprop(iprop(owns (c : Thread nD τ) scM fullShare (outsAt m c n hn).2.1 ∗ owns (c : Thread nD τ) scL fullShare (outsAt m c n hn).2.2.1 ∗ owns (c : Thread nD τ) scA fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (outsAt m c n hn).2.1 ∗ owns (c : Thread nD τ) scL fullShare (outsAt m c n hn).2.2.1 ∗ owns (c : Thread nD τ) scA fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scM fullShare (outsAt m c (n - 1) (by omega)).2.1 ∗ owns (c : Thread nD τ) scL fullShare (outsAt m c (n - 1) (by omega)).2.2.1 ∗ owns (c : Thread nD τ) scA fullShare (outsAt m c (n - 1) (by omega)).2.2.2) ∗ (∃ r, prngReg c r)) := by
  cases n with
  | zero => exact absurd rfl hz
  | succ n => rfl

/-! ## The pipeline's proof data -/

/-- The arrays as the region finds them; after the body each input block is in place and the output block is
    `outsAt`'s; the invariant `PhiS`; the shared array held at the three shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := qsh w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qsh w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

/-- Each input window's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's residue mod 16 says which case it is
    in; the invariant hands the body the scratch buffers at what the point before left (at anything before the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
    unfold Dat.leavesExact; rw [liveAt0 t], after_0]
    rw [show (dats m 0 c).leavesExact 1 t = owns (c : Thread nD τ) (ms1 t) fullShare ((dats m 0 c).after 1 t) from by
    unfold Dat.leavesExact; rw [liveAt1 t], after_1]
    rw [show (dats m 0 c).leavesExact 2 t = owns (c : Thread nD τ) (ms2 t) fullShare ((dats m 0 c).after 2 t) from by
    unfold Dat.leavesExact; rw [liveAt2 t], after_2]
    rw [Dat.leavesExact_idle (dats m 0 c) 3 t (idleAt3 t (fun h => h1 ((hcondLast t).mp h))) (noFlush3 t (fun h => h1 ((hcondLast t).mp h)))]
    rw [outsAt_A m c t h0 h1]
    unfold soutA_M soutA_L soutA_A; (try dsimp only)
    by_cases hz : t.val = 0
    · rw [PhiS_castSucc m c t, PhiS_zero m c _ _ hz, PhiA_eq]
      iintro ⟨⟨⟨HM, HL, HA⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcondFirst t).mpr h0) (fun h => h1 ((hcondLast t).mp h)) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverA_M c _ _ _ _ _ _ _ _ _ _ _ _ _ _ _ _ _ _ _ _)
          isplitl [HL]
          · unfold owns; iexists _; isplitr
            swap; · iexact HL
            ipureintro; exact View.read_writes_of_cover _ _ _ _ _ (scoverA_L c _ _ _ _ _ _ _ _ _ _ _ _ _ _ _ _ _ _ _ _)
          · unfold owns; iexists _; isplitr
            swap; · iexact HA
            ipureintro; exact View.read_writes_of_cover _ _ _ _ _ (scoverA_A c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcondFirst t).mpr h0) (fun h => h1 ((hcondLast t).mp h)) (iblk m c 0 t) (iblk m c 1 t) (iblk m c 2 t)).2.2.2.2 _ Set.univ _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverA_M c _ _ _ _ _ _ _ _ _ _ _ _ _ _ _ _ _ _ _ _)
          isplitl [HL]
          · unfold owns; iexists _; isplitr
            swap; · iexact HL
            ipureintro; exact View.read_writes_of_cover _ _ _ _ _ (scoverA_L c _ _ _ _ _ _ _ _ _ _ _ _ _ _ _ _ _ _ _ _)
          · unfold owns; iexists _; isplitr
            swap; · iexact HA
            ipureintro; exact View.read_writes_of_cover _ _ _ _ _ (scoverA_A c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 16 = 15
    · skip
      rw [show (dats m 0 c).leavesExact 0 t = owns (c : Thread nD τ) (ms0 t) fullShare ((dats m 0 c).after 0 t) from by
      unfold Dat.leavesExact; rw [liveAt0 t], after_0]
      rw [show (dats m 0 c).leavesExact 1 t = owns (c : Thread nD τ) (ms1 t) fullShare ((dats m 0 c).after 1 t) from by
      unfold Dat.leavesExact; rw [liveAt1 t], after_1]
      rw [show (dats m 0 c).leavesExact 2 t = owns (c : Thread nD τ) (ms2 t) fullShare ((dats m 0 c).after 2 t) from by
      unfold Dat.leavesExact; rw [liveAt2 t], after_2]
      rw [show (dats m 0 c).leavesExact 3 t = owns (c : Thread nD τ) (ms3 t) fullShare ((dats m 0 c).after 3 t) from by
      unfold Dat.leavesExact; rw [liveAt3 t ((hcondLast t).mpr h1)], after_3]
      rw [outsAt_C m c t h0 h1]
      unfold outC_3 soutC_M soutC_L soutC_A; (try dsimp only)
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunC c (grid0.coords t) _ _ _ _ _ _ _ _ _ _ _ _ _ _ (fun h => h0 ((hcondFirst t).mp h)) ((hcondLast t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverC_M c _ _ _ _ _ _ _ _ _ _ _ _ _ _ _ _ _ _ _ _ _ _ _)
          isplitl [HL]
          · unfold owns; iexists _; isplitr
            swap; · iexact HL
            ipureintro; exact View.read_writes_of_cover _ _ _ _ _ (scoverC_L c _ _ _ _ _ _ _ _ _ _ _ _ _ _ _ _ _ _ _ _ _ _ _)
          · unfold owns; iexists _; isplitr
            swap; · iexact HA
            ipureintro; exact View.read_writes_of_cover _ _ _ _ _ (scoverC_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _ _ _ _)
    · skip
      rw [show (dats m 0 c).leavesExact 0 t = owns (c : Thread nD τ) (ms0 t) fullShare ((dats m 0 c).after 0 t) from by
      unfold Dat.leavesExact; rw [liveAt0 t], after_0]
      rw [show (dats m 0 c).leavesExact 1 t = owns (c : Thread nD τ) (ms1 t) fullShare ((dats m 0 c).after 1 t) from by
      unfold Dat.leavesExact; rw [liveAt1 t], after_1]
      rw [show (dats m 0 c).leavesExact 2 t = owns (c : Thread nD τ) (ms2 t) fullShare ((dats m 0 c).after 2 t) from by
      unfold Dat.leavesExact; rw [liveAt2 t], after_2]
      rw [Dat.leavesExact_idle (dats m 0 c) 3 t (idleAt3 t (fun h => h1 ((hcondLast t).mp h))) (noFlush3 t (fun h => h1 ((hcondLast t).mp h)))]
      rw [outsAt_B m c t h0 h1]
      unfold soutB_M soutB_L soutB_A; (try dsimp only)
      rw [PhiS_castSucc m c t, PhiS_pos m c _ _ hz]
      iintro ⟨⟨⟨HM, HL, HA⟩, Hg⟩, Ho, ⟨%d0, H0⟩, ⟨%d1, H1⟩, ⟨%d2, H2⟩, ⟨%d3, H3⟩⟩
      iapply ((kernelRunB c (grid0.coords t) _ _ _ _ _ _ _ _ _ _ _ _ _ _ (fun h => h0 ((hcondFirst t).mp h)) (fun h => h1 ((hcondLast t).mp h)) (iblk m c 0 t) (iblk m c 1 t) (iblk m c 2 t) _ _ _).2.2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%eM, HM⟩, ⟨%eL, HL⟩, ⟨%eA, HA⟩⟩
      isplitl [HM HL HA Hg]
      · isplitl [HM HL HA]
        · isplitl [HM]
          · unfold owns; iexists _; isplitr
            swap; · iexact HM
            ipureintro; exact View.read_writes_of_cover _ _ _ _ _ (scoverB_M c _ _ _ _ _ _ _ _ _ _ _ _ _ _ _ _ _ _ _ _ _ _ _)
          isplitl [HL]
          · unfold owns; iexists _; isplitr
            swap; · iexact HL
            ipureintro; exact View.read_writes_of_cover _ _ _ _ _ (scoverB_L c _ _ _ _ _ _ _ _ _ _ _ _ _ _ _ _ _ _ _ _ _ _ _)
          · unfold owns; iexists _; isplitr
            swap; · iexact HA
            ipureintro; exact View.read_writes_of_cover _ _ _ _ _ (scoverB_A c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HM, HL, HA⟩, Hg⟩
  isplitl [HM HL HA]
  · isplitl [HM]; · iexists _; iexact HM
    isplitl [HL]; · iexists _; iexact HL
    iexists _; iexact HA
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Launch.lean ====
/-
  The launch of the attention kernel's one pallas_call, whose three input windows read ONE array: the array's full
  share is dealt among the three windows (a left half and the two quarters of the right half), the output window holds
  its own array whole, and after the region the closing reshape reads the output array into the result buffer. The run
  concludes, for any proof data holding the inputs at those three shares, that the argument buffer is untouched and
  that the result buffer holds the output array, as the pipeline's write-backs leave it, recast to the result's shape.
-/
import proofs.«418717_j6734508720606_3_alg».proof.Proof.KI.Around

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Shared

variable (dats : (p : Fin 1) → (c : Dev nD) → Dat τ (Elt F) Unit ℕ (UR sig nD τ) ℕ (cfgs p) c)

/-! ## The windows' shares and the pipeline's arrays, one by one -/

/-- An input window holds its array at its share of the three-way split. -/
theorem share_in (hq : ∀ c w, (dats 0 c).q w = qsh w) (c : Dev nD) (w : Fin 4) (hw : (cfg0.win w).isOut = false) :
    (dats 0 c).share w = qsh w := by
  rw [Dat.share, hw]; exact (if_neg Bool.false_ne_true).trans (hq c w)

/-- The output window holds its array whole. -/
theorem share_out (c : Dev nD) : (dats 0 c).share 3 = fullShare := by
  rw [Dat.share]; exact if_pos rfl

/-- The pipeline's arrays at contents `G`: the shared array three times, at the left half and at the two quarters of
    the right half of the full share, and the output array whole. -/
theorem arrays_eq4 (hq : ∀ c w, (dats 0 c).q w = qsh w) (c : Dev nD)
    (G : (w : Fin cfg0.W) → Buf (Elt F) ((cfg0.win w).arr.view.loc (c.tc : Thread nD τ))) :
    ((dats 0 c).arrays G : sProp 𝕄) = iprop(
      (((c.tc : Thread nD τ).loc main_v1) ↦{fullShare.left} G 0)
      ∗ (((c.tc : Thread nD τ).loc main_v1) ↦{fullShare.right.left} G 1)
      ∗ (((c.tc : Thread nD τ).loc main_v1) ↦{fullShare.right.right} G 2)
      ∗ (((c.tc : Thread nD τ).loc main_v2) ↦{fullShare} G 3)) := by
  rw [show ((dats 0 c).arrays G : sProp 𝕄)
      = bigSep Finset.univ fun w : Fin 4 => (((c.tc : Thread nD τ).loc (Pipeline.arrRef spec0 w)) ↦{(dats 0 c).share w} G w : sProp 𝕄) from
    bigSep_congr fun w _ => by rw [(arr_whole0 w).set_eq_univ]]
  rw [bigSep_W0, share_in dats hq c 0 rfl, share_in dats hq c 1 rfl, share_in dats hq c 2 rfl, share_out dats c]
  rfl

/-! ## The launch's split of the shared array -/

/-- The windows' arrays are two buffers: the one the three inputs read and the output's. -/
theorem arrRefs_eq : Finset.univ.image (Pipeline.arrRef spec0) = ({main_v1, main_v2} : Finset (Ref sig .tc)) := by decide

/-- The two buffers behind the arrays, whole at the region-entry contents, make the pipeline's arrays at entry: the shared
    buffer's full share splits into its left half and the two quarters of its right half, one per input window. -/
theorem hsplit (hA : ∀ c w, (dats 0 c).A w = V m c (Pipeline.arrRef spec0 w)) (hq : ∀ c w, (dats 0 c).q w = qsh w) (c : Dev nD) :
    (Pipeline.arrBufs spec0 c (V m c) : sProp 𝕄) ⊢ (dats 0 c).arrays ((dats 0 c).arrAt · 0) := by
  rw [arrays_eq4 dats hq c]
  unfold Pipeline.arrBufs
  rw [arrRefs_eq, bigSep_insert (by decide), bigSep_singleton]
  rw [show (dats 0 c).arrAt 0 0 = V m c main_v1 from hA c 0, show (dats 0 c).arrAt 1 0 = V m c main_v1 from hA c 1,
    show (dats 0 c).arrAt 2 0 = V m c main_v1 from hA c 2, show (dats 0 c).arrAt 3 0 = V m c main_v2 from hA c 3]
  refine (show iprop((((c.tc : Thread nD τ).loc main_v1) ↦{fullShare} V m c main_v1)
      ∗ (((c.tc : Thread nD τ).loc main_v2) ↦{fullShare} V m c main_v2)) ⊢ _ from ?_)
  iintro ⟨H1, H2⟩
  ihave Hs := (pointsTo_share (PosShare.mem_left_op_right fullShare)).1 $$ H1
  icases Hs with ⟨Hl, Hr⟩
  ihave Hrs := (pointsTo_share (PosShare.mem_left_op_right fullShare.right)).1 $$ Hr
  icases Hrs with ⟨Hrl, Hrr⟩
  isplitl [Hl]; · iexact Hl
  isplitl [Hrl]; · iexact Hrl
  isplitl [Hrr]; · iexact Hrr
  iexact H2

/-! ## The buffers at the region's exit, and after the closing reshape -/

/-- Core `c`'s buffer contents when the region is left: the output array as the write-backs leave it, every other
    buffer as the region found it. -/
def Wx (c : Dev nD) : Valuation τ sig (Elt F) :=
  Function.update (V0 m c) (Proc.devRef .tc main_v2) ((dats 0 c).arrAt 3 cfg0.N)

theorem Wx_v2 (c : Dev nD) : Wx m dats c (Proc.devRef .tc main_v2) = (dats 0 c).arrAt 3 cfg0.N :=
  Function.update_self ..

theorem Wx_ne (c : Dev nD) (b : Ref sig .tc) (h : b ≠ main_v2) : Wx m dats c (Proc.devRef .tc b) = V m c b :=
  Function.update_of_ne (StableHlo.devRef_ne_of_ne h) ..

/-- The same after the closing reshape, read at a TensorCore reference. -/
def Wf (c : Dev nD) (b : Ref sig .tc) : Buf (Elt F) ((c.tc : Thread nD τ).loc b) :=
  StableHlo.after hostOps1 (Wx m dats c) (Proc.devRef .tc b)

/-- The result buffer holds the output array recast to the result's shape. -/
theorem Wf_v3 (c : Dev nD) :
    Wf m dats c main_v3 = shapeCast S4x1024x2048 ((dats 0 c).arrAt 3 cfg0.N) shapeCasts_S64x64x2048_S4x1024x2048 := by
  show (StableHlo.reshape main_v2 main_v3 rfl shapeCasts_S64x64x2048_S4x1024x2048).result (Wx m dats c) (Proc.devRef .tc main_v3) = _
  rw [StableHlo.reshape_result]
  show shapeCast S4x1024x2048 (Wx m dats c (Proc.devRef .tc main_v2)) shapeCasts_S64x64x2048_S4x1024x2048 = _
  rw [Wx_v2]

/-- The reshape leaves every other buffer: the output array, -/
theorem Wf_v2 (c : Dev nD) : Wf m dats c main_v2 = (dats 0 c).arrAt 3 cfg0.N := by
  show (StableHlo.reshape main_v2 main_v3 rfl shapeCasts_S64x64x2048_S4x1024x2048).result (Wx m dats c) (Proc.devRef .tc main_v2) = _
  rw [StableHlo.reshape_result_ne _ _ _ _ _ _ _ (by decide), Wx_v2]

/-- and the buffers that bypass the region, which hold what the region found. -/
theorem Wf_ne (c : Dev nD) (b : Ref sig .tc) (h2 : b ≠ main_v2) (h3 : b ≠ main_v3) : Wf m dats c b = V m c b := by
  show (StableHlo.reshape main_v2 main_v3 rfl shapeCasts_S64x64x2048_S4x1024x2048).result (Wx m dats c) (Proc.devRef .tc b) = _
  rw [StableHlo.reshape_result_ne _ _ _ _ _ _ _ h3, Wx_ne m dats c b h2]

end Shared

section Tail

variable (dats : (p : Fin 1) → (c : Dev nD) → Dat τ (Elt F) Unit ℕ (UR sig nD τ) ℕ (cfgs p) c)

/-! ## The closing reshape, run from the region's exit -/

/-- The two buffers the closing reshape touches, held whole at a valuation. -/
theorem held_pair (c : Dev nD) (W : Valuation τ sig (Elt F)) :
    (StableHlo.held (c.tc : Thread nD τ) {Proc.devRef .tc main_v2, Proc.devRef .tc main_v3} W : sProp 𝕄)
      = iprop((((c.tc : Thread nD τ).loc main_v2) ↦{fullShare} W (Proc.devRef .tc main_v2))
          ∗ (((c.tc : Thread nD τ).loc main_v3) ↦{fullShare} W (Proc.devRef .tc main_v3))) := by
  unfold StableHlo.held
  rw [bigSep_insert (by rw [Finset.mem_singleton]; exact StableHlo.devRef_ne_of_ne (by decide)), bigSep_singleton]
  rfl

set_option backward.isDefEq.respectTransparency.types false in
/-- THE LINE AFTER THE REGION. From the region's exit — the boundary, the pipeline's arrays as the write-backs leave them,
    the bypassing buffers as the region found them — the closing reshape runs holding the output array (the output window's,
    whole) and the result buffer (a bypassing one), and hands back the arrays unchanged and the bypassing buffers with the
    result buffer rewritten. -/
theorem htail (hq : ∀ c w, (dats 0 c).q w = qsh w) (c : Dev nD) (Q' : PUnit → sProp 𝕄) :
    iprop((iprop((dats 0 c).arrays ((dats 0 c).arrAt · cfg0.N) ∗ Pipeline.unscopedRest spec0 c (Wf m dats c)) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_eq4 dats hq c, unscopedRest0_eq c (V m c), unscopedRest0_eq c (Wf m dats c),
    Wf_ne m dats c main_arg0 (by decide) (by decide), Wf_ne m dats c main_v0 (by decide) (by decide),
    Pipeline.chain_cons]
  have hex : (StableHlo.held (c.tc : Thread nD τ) {Proc.devRef .tc main_v2, Proc.devRef .tc main_v3}
        (StableHlo.after hostOps1 (Wx m dats c)) : sProp 𝕄)
      = iprop((((c.tc : Thread nD τ).loc main_v2) ↦{fullShare} (dats 0 c).arrAt 3 cfg0.N)
          ∗ (((c.tc : Thread nD τ).loc main_v3) ↦{fullShare} Wf m dats c main_v3)) := by
    rw [held_pair]
    exact congrArg₂ _ (congrArg _ (Wf_v2 m dats c)) rfl
  iintro ⟨Hk, Hb, ⟨H0, H1, H2, H3⟩, Hz0, Hz1, Hz3⟩
  iapply (StableHlo.wp_seq (Variants.lift Variants.none) none Set.univ c {Proc.devRef .tc main_v2, Proc.devRef .tc main_v3}
    (fun _ => Pipeline.chain []) hostOps1
    (fun op hop => by rw [List.mem_singleton.mp hop]; exact Finset.Subset.refl _)
    (List.forall_iff_forall_mem.mp hostOps1_fresh) (Wx m dats c)) $$ [Hb H3 Hz3]
  · isplitl [Hb]; · iexact Hb
    rw [held_pair, Wx_v2, Wx_ne m dats c main_v3 (by decide)]
    isplitl [H3] <;> iassumption
  iintro Hh
  rw [Pipeline.chain_nil, wp_pure, hex]
  imodintro
  icases Hh with ⟨-, H3, Hz3⟩
  iapply Hk
  isplitl [H0 H1 H2 H3]
  · isplitl [H0]; · iexact H0
    isplitl [H1]; · iexact H1
    isplitl [H2]; · iexact H2
    iexact H3
  isplitl [Hz0]; · iexact Hz0
  isplitl [Hz1]; · iexact Hz1
  iexact Hz3

end Tail

set_option backward.isDefEq.respectTransparency.types false in
/-- THE RUN. For any proof data that reads the arrays as the region finds them (`hA`), holds the three inputs at the
    three shares (`hq`), owes nothing, and whose invariant starts from and ends in the class's (`hin`, `hout`): every
    weakly fair execution of @main from a memory with zero counters terminates, the argument buffer is untouched, and the
    result buffer holds the output array — as the proof data's write-backs leave it — recast to the result's shape. -/
theorem run_shared
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qsh w)
    (hbody : ∀ c, Pipeline.BodyObligationLoose (dats 0 c) defs₀ Variants.none () Set.univ)
    (howed : ∀ c t, (dats 0 c).owed t = 0)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_v3)
          = shapeCast S4x1024x2048 ((dats 0 c).arrAt 3 cfg0.N) shapeCasts_S64x64x2048_S4x1024x2048) := by
  classical
  exact Pipeline.θ_run_region_pf_tail (fun q => (cfgs q).toPCfg (Val := Elt F)) (fun q => (cfgs q).toPCfg_adm) dats ()
    cellOf_inj (0 : Fin 1) winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m dats hA hq)
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (Wf m dats c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail m dats hq c Q')
    (QY := fun c s => ∀ b ∈ Pipeline.restRefs sig spec0, s.mem ((c.tc : Thread nD τ).loc b) = Wf m dats c b)
    (hY := fun c s' => by
      iintro ⟨-, HU, HSI⟩
      unfold Pipeline.unscopedRest
      imodintro
      iapply (pointsTo_read_all (Pipeline.restRefs sig spec0) (fun b => (c.tc : Thread nD τ).loc b) (Wf m dats c) s')
      isplitl [HU] <;> iassumption)
    (hQ := fun s h c => by
      obtain ⟨-, -, hr⟩ := h c
      refine ⟨?_, ?_⟩
      · rw [hr main_arg0 (Pipeline.mem_restRefs_of main_arg0 rfl (by decide)),
          Wf_ne m dats c main_arg0 (by decide) (by decide), V_main_arg0]
      · rw [hr main_v3 (Pipeline.mem_restRefs_of main_v3 rfl (by decide)), Wf_v3])

end Cert.KernelIdeal.Hand

end
-- ==== Proof.KI.Run.lean ====
/-
  The attention kernel's run: every weakly fair execution of @main terminates, the argument array ends as it was, and the result buffer ends at the closing reshape of the output array the blocks written back make up. The three input windows read one array, each holding a share of it.
-/
import proofs.«418717_j6734508720606_3_alg».proof.Proof.KI.Frame
import proofs.«418717_j6734508720606_3_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_v3)
          = shapeCast S4x1024x2048 ((dats m 0 c).arrAt 3 cfg0.N) shapeCasts_S64x64x2048_S4x1024x2048) :=
  run_shared m ρ (dats m) (A_eq m) (q_eq m) (fun c => (body_obligation m c).loose) (fun _ _ => rfl) (hin m) (hout m)

/-- The frame: the program runs to the end and the argument array is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.KernelIdeal.Hand

end
-- ==== Proof.KI.Pieces.lean ====
/-
  What each case of the body leaves in the three scratch buffers and in the output block, as the body's own pure terms of the point's blocks and of what the scratch buffers held: every buffer is stored whole, so the last store's payload is what is read back, and a load after a store reads that store's payload.
-/
import proofs.«418717_j6734508720606_3_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## A point whose key block is the first: the scratch buffers are reset first -/

theorem soutA_M_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) :
    soutA_M c i arg2 harg2 arg3 harg3 arg4 harg4 arg5 harg5 arg6 harg6 arg7 harg7 arg8 harg8 hc0 hc1 x0 x1 x2 = k0_pay2 (k0_pay8 x0 x1 k0_pay4) := by
  unfold soutA_M
  rw [View.read_writes_eq_canon _ _ _ (scoverA_M c i arg2 harg2 arg3 harg3 arg4 harg4 arg5 harg5 arg6 harg6 arg7 harg7 arg8 harg8 hc0 hc1 x0 x1 x2)]
  unfold kernelRunA
  dsimp only
  sl_unfold_words
  rw [View.canon_cons_unit_zero (S := S64x1x128) hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutA_L_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) :
    soutA_L c i arg2 harg2 arg3 harg3 arg4 harg4 arg5 harg5 arg6 harg6 arg7 harg7 arg8 harg8 hc0 hc1 x0 x1 x2 = k0_pay11 x0 x1 k0_pay4 k0_pay5 := by
  unfold soutA_L
  rw [View.read_writes_eq_canon _ _ _ (scoverA_L c i arg2 harg2 arg3 harg3 arg4 harg4 arg5 harg5 arg6 harg6 arg7 harg7 arg8 harg8 hc0 hc1 x0 x1 x2)]
  unfold kernelRunA
  dsimp only
  sl_unfold_words
  rw [View.canon_cons_unit_zero (S := S64x1x128) hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutA_A_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : condFirst i) (hc1 : ¬condLast i)
    (x0 x1 x2 : Vec F S64x64x128 .bf16) :
    soutA_A c i arg2 harg2 arg3 harg3 arg4 harg4 arg5 harg5 arg6 harg6 arg7 harg7 arg8 harg8 hc0 hc1 x0 x1 x2 = k0_pay1 (k0_pay9 x0 x1 k0_pay4) (k0_pay12 x0 x1 x2 k0_pay4) k0_pay6 := by
  unfold soutA_A
  rw [View.read_writes_eq_canon _ _ _ (scoverA_A c i arg2 harg2 arg3 harg3 arg4 harg4 arg5 harg5 arg6 harg6 arg7 harg7 arg8 harg8 hc0 hc1 x0 x1 x2)]
  unfold kernelRunA
  dsimp only
  sl_unfold_words
  rw [View.canon_cons_unit_zero (S := S64x64x128) hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

/-! ## A point in the middle of its row -/

theorem soutB_M_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) :
    soutB_M c i arg2 harg2 arg3 harg3 arg4 harg4 arg5 harg5 arg6 harg6 arg7 harg7 arg8 harg8 hc0 hc1 x0 x1 x2 xsM xsL xsA = k0_pay2 (k0_pay8 x0 x1 xsM) := by
  unfold soutB_M
  rw [View.read_writes_eq_canon _ _ _ (scoverB_M c i arg2 harg2 arg3 harg3 arg4 harg4 arg5 harg5 arg6 harg6 arg7 harg7 arg8 harg8 hc0 hc1 x0 x1 x2 xsM xsL xsA)]
  unfold kernelRunB
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutB_L_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) :
    soutB_L c i arg2 harg2 arg3 harg3 arg4 harg4 arg5 harg5 arg6 harg6 arg7 harg7 arg8 harg8 hc0 hc1 x0 x1 x2 xsM xsL xsA = k0_pay11 x0 x1 xsM xsL := by
  unfold soutB_L
  rw [View.read_writes_eq_canon _ _ _ (scoverB_L c i arg2 harg2 arg3 harg3 arg4 harg4 arg5 harg5 arg6 harg6 arg7 harg7 arg8 harg8 hc0 hc1 x0 x1 x2 xsM xsL xsA)]
  unfold kernelRunB
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutB_A_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : ¬condLast i)
    (x0 x1 x2 : Vec F S64x64x128 .bf16) (xsM xsL : Vec F S64x1x128 .f32) (xsA : Vec F S64x64x128 .f32) :
    soutB_A c i arg2 harg2 arg3 harg3 arg4 harg4 arg5 harg5 arg6 harg6 arg7 harg7 arg8 harg8 hc0 hc1 x0 x1 x2 xsM xsL xsA = k0_pay1 (k0_pay9 x0 x1 xsM) (k0_pay12 x0 x1 x2 xsM) xsA := by
  unfold soutB_A
  rw [View.read_writes_eq_canon _ _ _ (scoverB_A c i arg2 harg2 arg3 harg3 arg4 harg4 arg5 harg5 arg6 harg6 arg7 harg7 arg8 harg8 hc0 hc1 x0 x1 x2 xsM xsL xsA)]
  unfold kernelRunB
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

/-! ## A point whose key block is the last: the quotient is stored too -/

theorem soutC_M_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    soutC_M c i arg2 harg2 arg3 harg3 arg4 harg4 arg5 harg5 arg6 harg6 arg7 harg7 arg8 harg8 hc0 hc1 x0 x1 x2 xsM xsL xsA = k0_pay2 (k0_pay8 x0 x1 xsM) := by
  unfold soutC_M
  rw [View.read_writes_eq_canon _ _ _ (scoverC_M c i arg2 harg2 arg3 harg3 arg4 harg4 arg5 harg5 arg6 harg6 arg7 harg7 arg8 harg8 hc0 hc1 x0 x1 x2 xsM xsL xsA)]
  unfold kernelRunC
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutC_L_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    soutC_L c i arg2 harg2 arg3 harg3 arg4 harg4 arg5 harg5 arg6 harg6 arg7 harg7 arg8 harg8 hc0 hc1 x0 x1 x2 xsM xsL xsA = k0_pay11 x0 x1 xsM xsL := by
  unfold soutC_L
  rw [View.read_writes_eq_canon _ _ _ (scoverC_L c i arg2 harg2 arg3 harg3 arg4 harg4 arg5 harg5 arg6 harg6 arg7 harg7 arg8 harg8 hc0 hc1 x0 x1 x2 xsM xsL xsA)]
  unfold kernelRunC
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem soutC_A_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    soutC_A c i arg2 harg2 arg3 harg3 arg4 harg4 arg5 harg5 arg6 harg6 arg7 harg7 arg8 harg8 hc0 hc1 x0 x1 x2 xsM xsL xsA = k0_pay1 (k0_pay9 x0 x1 xsM) (k0_pay12 x0 x1 x2 xsM) xsA := by
  unfold soutC_A
  rw [View.read_writes_eq_canon _ _ _ (scoverC_A c i arg2 harg2 arg3 harg3 arg4 harg4 arg5 harg5 arg6 harg6 arg7 harg7 arg8 harg8 hc0 hc1 x0 x1 x2 xsM xsL xsA)]
  unfold kernelRunC
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

theorem outC_3_eq (c : Dev nD) (i : grid0.Coords) (arg2 : Memref sig .tc .vmem S64x64x128 .bf16) (harg2 : arg2.IsWhole) (arg3 : Memref sig .tc .vmem S64x64x128 .bf16) (harg3 : arg3.IsWhole) (arg4 : Memref sig .tc .vmem S64x64x128 .bf16) (harg4 : arg4.IsWhole) (arg5 : Memref sig .tc .vmem S64x64x128 .f32) (harg5 : arg5.IsWhole) (arg6 : Memref sig .tc .vmem S64x1x128 .f32) (harg6 : arg6.IsWhole) (arg7 : Memref sig .tc .vmem S64x1x128 .f32) (harg7 : arg7.IsWhole) (arg8 : Memref sig .tc .vmem S64x64x128 .f32) (harg8 : arg8.IsWhole) (hc0 : ¬condFirst i) (hc1 : condLast i)
    (x0 x1 x2 : Vec F S64x64x128 .bf16) (xsM xsL : Vec F S64x1x128 .f32) (xsA : Vec F S64x64x128 .f32) :
    outC_3 c i arg2 harg2 arg3 harg3 arg4 harg4 arg5 harg5 arg6 harg6 arg7 harg7 arg8 harg8 hc0 hc1 x0 x1 x2 xsM xsL xsA = k0_pay3 (k0_pay1 (k0_pay9 x0 x1 xsM) (k0_pay12 x0 x1 x2 xsM) xsA) (k0_pay11 x0 x1 xsM xsL) := by
  unfold outC_3
  rw [View.read_writes_eq_canon _ _ _ (coverC_3 c i arg2 harg2 arg3 harg3 arg4 harg4 arg5 harg5 arg6 harg6 arg7 harg7 arg8 harg8 hc0 hc1 x0 x1 x2 xsM xsL xsA)]
  unfold kernelRunC
  dsimp only
  sl_unfold_words
  rw [View.canon_unit_zero hz3]
  simp only [View.readAt_eq_ld, harg2.read_unread, harg3.read_unread, harg4.read_unread, harg6.read_unread, harg7.read_unread, harg8.read_unread,
    View.ld_unit_zero (S := S64x64x128) hz3, View.ld_unit_zero (S := S64x1x128) hz3,
    View.readCov_unit_zero (S := S64x1x128) _ hz3, View.readCov_unit_zero (S := S64x64x128) _ hz3]

end Cert.KernelIdeal.Hand

end
-- ==== Proof.Attn.Spec.lean ====
/-
  Softmax attention over the extended reals, for one query column: the scores of that query against the 2048 keys
  come in 16 blocks of 128. The blockwise ("online") recurrence keeps a running maximum `m`, a running sum `l` of
  the exponentials rescaled to the current maximum, and per value channel an accumulator `a` of the values weighted
  by those exponentials; the whole-row form takes the maximum of all scores first. Both are stated here with the
  exact operations of the ideal float values (`Ideal.exp`, `Ideal.div`, EReal's `+ - * max`), so that each program's
  text reads as one of them.
-/
import Idealize.ShloMosaic.PureOps.Ideal
import Idealize.ShloMosaic.Lib.ValueIdx
import Mathlib.Algebra.BigOperators.Group.Finset.Basic

noncomputable section

namespace Cert.Attn

open Idealize.ShloMosaic Idealize.ShloMosaic.ValueIdx

/-- The running maximum after a block of scores `x`: the old one against the block's own maximum taken from `-∞`. -/
def mStep (m : EReal) (x : Fin 128 → EReal) : EReal := max m (Finset.univ.fold max ⊥ x)

/-- The factor that rescales what was accumulated under the old maximum to the new one. -/
def alpha (m : EReal) (x : Fin 128 → EReal) : EReal := Ideal.exp (m - mStep m x)

/-- The block's exponentials under the new maximum. -/
def pW (m : EReal) (x : Fin 128 → EReal) (s : Fin 128) : EReal := Ideal.exp (x s - mStep m x)

/-- The running sum after the block. -/
def lStep (m l : EReal) (x : Fin 128 → EReal) : EReal := alpha m x * l + ∑ s : Fin 128, pW m x s

/-- One channel's accumulator after the block, `v` the block's values on that channel. -/
def aStep (m a : EReal) (x v : Fin 128 → EReal) : EReal := alpha m x * a + ∑ s : Fin 128, v s * pW m x s

/-- The recurrence's state `(m, l, a)` after `j` blocks, from `(-∞, 0, 0)`; block `j`'s scores are `x j`, its values `v j`. -/
def state (x v : ℕ → Fin 128 → EReal) : ℕ → EReal × EReal × EReal
  | 0 => (⊥, 0, 0)
  | j + 1 =>
    let s := state x v j
    (mStep s.1 (x j), lStep s.1 s.2.1 (x j), aStep s.1 s.2.2 (x j) (v j))

/-- What the blockwise computation returns after its 16 blocks: the accumulator over the running sum. -/
def online (x v : ℕ → Fin 128 → EReal) : EReal := Ideal.div (state x v 16).2.2 (state x v 16).2.1

/-- The whole-row maximum as the reference takes it: `-∞` against the maximum, from `-∞`, of all 2048 scores. -/
def rowMax (X : Fin 2048 → EReal) : EReal := max ⊥ (Finset.univ.fold max ⊥ X)

/-- The normaliser: zero plus the sum of the exponentials under the row maximum. -/
def rowSum (X : Fin 2048 → EReal) : EReal := 0 + ∑ s : Fin 2048, Ideal.exp (X s - rowMax X)

/-- The reference's value: the values weighted by the normalised exponentials. -/
def offline (X V : Fin 2048 → EReal) : EReal :=
  ∑ s : Fin 2048, V s * Ideal.div (Ideal.exp (X s - rowMax X)) (rowSum X)

/-- Key position `128 j + i` of block `j`. -/
def pos (j : ℕ) (i : Fin 128) : ℕ := 128 * j + i.val

/-! ## The 64 heads of the packed array

The packed array has, per head `b`, 192 rows of 2048 positions: rows 0–63 the query channels, 64–127 the key
channels, 128–191 the value channels. -/

/-- Row of query channel `ch`, of key channel `ch`, of value channel `c`. -/
def qRow (ch : Fin 64) : Fin 192 := ⟨ch.val, by omega⟩
def kRow (ch : Fin 64) : Fin 192 := ⟨64 + ch.val, by omega⟩
def vRow (c : Fin 64) : Fin 192 := ⟨128 + c.val, by omega⟩

/-- The score of key position `s` against query position `t` in head `b`: the channel sum of key times query scaled
    by the exact eighth. -/
def score (R : (⟨3, ![64, 192, 2048]⟩ : Shape).Idx → EReal) (b : Fin 64) (s t : Fin 2048) : EReal :=
  ∑ ch : Fin 64, R (ix3 b (kRow ch) s) * (R (ix3 b (qRow ch) t) * Ideal.ofBits .bf16 0x3E00#16)

/-- Attention's result at head `b`, value channel `c`, query position `t`. -/
def attn (R : (⟨3, ![64, 192, 2048]⟩ : Shape).Idx → EReal) (b : Fin 64) (c : Fin 64) (t : Fin 2048) : EReal :=
  offline (fun s => score R b s t) (fun s => R (ix3 b (vRow c) s))

end Cert.Attn

end
-- ==== Proof.KI.Pay.lean ====
/-
  The arithmetic of the attention kernel's body, read one element at a time over the extended reals.
  One grid point holds, per head `b`, a block of 128 query positions `t` and a block of 128 key positions `s`,
  each with 64 channels. The body forms the block of scores (key against query scaled by the exact eighth,
  summed over the channels), takes per query column the running maximum against the block's own, rescales by
  the exponential of the old maximum minus the new, exponentiates the scores under the new maximum, adds their
  column sums to the rescaled running sum and their value-weighted sums to the rescaled accumulator; the last
  key block divides the accumulator by the running sum. Each of these reads, at an index written by its
  coordinates, as the corresponding step of the blockwise softmax recurrence.
-/
import proofs.«418717_j6734508720606_3_alg».proof.Proof.Gen.KernelIdeal.Skeleton
import proofs.«418717_j6734508720606_3_alg».proof.Proof.Attn.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Attn

/-! ## The two constants -/

/-- The pattern the maxima start from is `-∞`. -/
theorem negInf_f32 : Ideal.ofBits .f32 0xFF800000#32 = ⊥ := by simp [Ideal.ofBits, Ideal.ieee]

/-! ## The score block: keys against scaled queries, summed over the 64 channels -/

/-- The block of scores of head `b` at query position `t`, as a function of the key position: the channel sum of key
    times query scaled by the exact eighth. -/
def blkScore (q k : Vec Ideal S64x64x128 .bf16) (b : Fin 64) (t : Fin 128) : Fin 128 → EReal :=
  fun s => ∑ ch : Fin 64, k (ix3 b ch s) * (q (ix3 b ch t) * Ideal.ofBits .bf16 0x3E00#16)

/-! The first product contracts axis 1 (the channels) of both operands; the head axis 0 is shared, the left
operand's axis 2 (key position) becomes the result's axis 1, the right operand's axis 2 (query position) its axis 2. -/

theorem lhs_score_0 (i : S64x128x128.Idx) (p : dot_S64x64x128_S64x64x128_S64x128x128_1_1_2_2_0_0.contr.Idx) :
    (dot_S64x64x128_S64x64x128_S64x128x128_1_1_2_2_0_0.lhsIdx i p 0).val = (i 0).val := by
  unfold DotDims.lhsIdx
  rw [dif_pos (show (0 : Fin S64x64x128.rank) ∈ dot_S64x64x128_S64x64x128_S64x128x128_1_1_2_2_0_0.lhsBatch by decide)]
  rfl
theorem lhs_score_1 (i : S64x128x128.Idx) (p : dot_S64x64x128_S64x64x128_S64x128x128_1_1_2_2_0_0.contr.Idx) :
    (dot_S64x64x128_S64x64x128_S64x128x128_1_1_2_2_0_0.lhsIdx i p 1).val = (p ⟨0, by decide⟩).val :=
  dot_S64x64x128_S64x64x128_S64x128x128_1_1_2_2_0_0.lhsIdx_val_of_single rfl i p
theorem lhs_score_2 (i : S64x128x128.Idx) (p : dot_S64x64x128_S64x64x128_S64x128x128_1_1_2_2_0_0.contr.Idx) :
    (dot_S64x64x128_S64x64x128_S64x128x128_1_1_2_2_0_0.lhsIdx i p 2).val = (i 1).val := by
  unfold DotDims.lhsIdx
  rw [dif_neg (show ¬(2 : Fin S64x64x128.rank) ∈ dot_S64x64x128_S64x64x128_S64x128x128_1_1_2_2_0_0.lhsBatch by decide), dif_pos (show (2 : Fin S64x64x128.rank) ∈ dot_S64x64x128_S64x64x128_S64x128x128_1_1_2_2_0_0.lhsNonContracting by decide)]
  rfl
theorem rhs_score_0 (i : S64x128x128.Idx) (p : dot_S64x64x128_S64x64x128_S64x128x128_1_1_2_2_0_0.contr.Idx) :
    (dot_S64x64x128_S64x64x128_S64x128x128_1_1_2_2_0_0.rhsIdx i p 0).val = (i 0).val := by
  unfold DotDims.rhsIdx
  rw [dif_pos (show (0 : Fin S64x64x128.rank) ∈ dot_S64x64x128_S64x64x128_S64x128x128_1_1_2_2_0_0.rhsBatch by decide)]
  rfl
theorem rhs_score_1 (i : S64x128x128.Idx) (p : dot_S64x64x128_S64x64x128_S64x128x128_1_1_2_2_0_0.contr.Idx) :
    (dot_S64x64x128_S64x64x128_S64x128x128_1_1_2_2_0_0.rhsIdx i p 1).val = (p ⟨0, by decide⟩).val :=
  dot_S64x64x128_S64x64x128_S64x128x128_1_1_2_2_0_0.rhsIdx_val_of_single rfl i p
theorem rhs_score_2 (i : S64x128x128.Idx) (p : dot_S64x64x128_S64x64x128_S64x128x128_1_1_2_2_0_0.contr.Idx) :
    (dot_S64x64x128_S64x64x128_S64x128x128_1_1_2_2_0_0.rhsIdx i p 2).val = (i 2).val := by
  unfold DotDims.rhsIdx
  rw [dif_neg (show ¬(2 : Fin S64x64x128.rank) ∈ dot_S64x64x128_S64x64x128_S64x128x128_1_1_2_2_0_0.rhsBatch by decide), dif_pos (show (2 : Fin S64x64x128.rank) ∈ dot_S64x64x128_S64x64x128_S64x128x128_1_1_2_2_0_0.rhsNonContracting by decide)]
  rfl

/-- The first product into a zero accumulator, read at head `b`, key position `s`, query position `t`: the sum over
    the channels of the left operand at `(b, ch, s)` times the right at `(b, ch, t)`. -/
theorem matmul_score_apply (x y : FVec Ideal S64x64x128 .bf16) (b : Fin 64) (s t : Fin 128) :
    matmul (F := Ideal) dot_S64x64x128_S64x64x128_S64x128x128_1_1_2_2_0_0 none x y (constant (F := Ideal) S64x128x128 .f32 0x00000000#32) (ix3 b s t)
      = ∑ ch : Fin 64, x (ix3 b ch s) * y (ix3 b ch t) := by
  simp only [matmul]
  rw [Ideal.matmul_constant_zero_apply, ← Equiv.sum_comp (ValueIdx.contrEquiv1 dot_S64x64x128_S64x64x128_S64x128x128_1_1_2_2_0_0 64 rfl rfl).symm]
  refine Finset.sum_congr rfl fun ch _ => ?_
  have hk := ValueIdx.contrEquiv1_symm_val dot_S64x64x128_S64x64x128_S64x128x128_1_1_2_2_0_0 64 rfl rfl ch
  have el : dot_S64x64x128_S64x64x128_S64x128x128_1_1_2_2_0_0.lhsIdx (ix3 b s t) ((ValueIdx.contrEquiv1 dot_S64x64x128_S64x64x128_S64x128x128_1_1_2_2_0_0 64 rfl rfl).symm ch) = ix3 b ch s := funext fun a => Fin.ext (by
    match a with
    | ⟨0, _⟩ => exact lhs_score_0 _ _
    | ⟨1, _⟩ => exact (lhs_score_1 _ _).trans hk
    | ⟨2, _⟩ => exact lhs_score_2 _ _)
  have er : dot_S64x64x128_S64x64x128_S64x128x128_1_1_2_2_0_0.rhsIdx (ix3 b s t) ((ValueIdx.contrEquiv1 dot_S64x64x128_S64x64x128_S64x128x128_1_1_2_2_0_0 64 rfl rfl).symm ch) = ix3 b ch t := funext fun a => Fin.ext (by
    match a with
    | ⟨0, _⟩ => exact rhs_score_0 _ _
    | ⟨1, _⟩ => exact (rhs_score_1 _ _).trans hk
    | ⟨2, _⟩ => exact rhs_score_2 _ _)
  rw [el, er]

/-- The score block the body computes is `blkScore`: its left operand is the key block, its right the query block
    times the eighth. -/
theorem pay7_apply (q k : Vec Ideal S64x64x128 .bf16) (b : Fin 64) (s t : Fin 128) :
    k0_pay7 (F := Ideal) q k (ix3 b s t) = blkScore q k b t s := by
  unfold k0_pay7
  rw [shapeCast_self, shapeCast_self]
  exact matmul_score_apply k (mulf q (broadcast S64x64x128 (Scalar.ofBits .bf16 0x3E00#16))) b s t

/-! ## Layout: the column vector of a head kept as `[64, 1, 128]` -/

/-- A `[64, 128]` array viewed as `[64, 1, 128]` reads `(b, t)` at `(b, 0, t)`. -/
theorem cast_col_apply {α : Type} (x : S64x128.Idx → α) (b : Fin 64) (u : Fin 1) (t : Fin 128) :
    shapeCast S64x1x128 x shapeCasts_S64x128_S64x1x128 (ix3 b u t) = x (ix2 b t) :=
  shapeCast_apply x shapeCasts_S64x128_S64x1x128 (ix3 b u t) (ix2 b t) (by
    rewrite [Shape.rowMajor_val_two, Shape.rowMajor_val_three]
    have hu : u.val = 0 := by have := u.isLt; omega
    show b.val * 128 + t.val = (b.val * 1 + u.val) * 128 + t.val
    omega)

/-- A `[64, 1, 128]` column vector spread over the 128 key positions reads `(b, 0, t)` at `(b, s, t)`. -/
theorem bcast_keys_apply {α : Type} (x : S64x1x128.Idx → α) (b : Fin 64) (s t : Fin 128) :
    broadcastTo S64x128x128 x broadcasts_S64x1x128_S64x128x128 (ix3 b s t) = x (ix3 b 0 t) :=
  broadcastTo_apply x broadcasts_S64x1x128_S64x128x128 (ix3 b s t) (ix3 b 0 t) (fun a => by
    match a with
    | ⟨0, _⟩ => rfl
    | ⟨1, _⟩ => rfl
    | ⟨2, _⟩ => rfl)

/-- The same over the 64 value channels: `(b, 0, t)` at `(b, c, t)`. -/
theorem bcast_chan_apply {α : Type} (x : S64x1x128.Idx → α) (b : Fin 64) (c : Fin 64) (t : Fin 128) :
    broadcastTo S64x64x128 x broadcasts_S64x1x128_S64x64x128 (ix3 b c t) = x (ix3 b 0 t) :=
  broadcastTo_apply x broadcasts_S64x1x128_S64x64x128 (ix3 b c t) (ix3 b 0 t) (fun a => by
    match a with
    | ⟨0, _⟩ => rfl
    | ⟨1, _⟩ => rfl
    | ⟨2, _⟩ => rfl)

/-! ## The two reductions over the key positions -/

/-- The index of the score block over column `(b, t)` at key position `s` is `(b, s, t)`. -/
theorem lift_keys (b : Fin 64) (t s : Fin 128) :
    reduces_S64x128x128_S64x128.lift (ix2 b t) s = ix3 b s t :=
  funext fun a => Fin.ext (by
    match a with
    | ⟨0, _⟩ => rfl
    | ⟨1, _⟩ => rfl
    | ⟨2, _⟩ => rfl)

/-- The maximum over the key positions, from `-∞`, read at column `(b, t)`. -/
theorem colMax_apply (x : FVec Ideal S64x128x128 .f32) (b : Fin 64) (t : Fin 128) :
    multiReduction (F := Ideal) .maximumf [1] S64x128 x 0xFF800000#32 reduces_S64x128x128_S64x128 (.inl rfl) rfl (ix2 b t)
      = Finset.univ.fold max ⊥ (fun s : Fin 128 => x (ix3 b s t)) := by
  refine (Ideal.multiReduction_maximumf_single x 0xFF800000#32 reduces_S64x128x128_S64x128 (.inl rfl) rfl (ix2 b t)).trans ?_
  show (Finset.univ : Finset (Fin 128)).fold max (Ideal.ofBits .f32 0xFF800000#32) (x ∘ reduces_S64x128x128_S64x128.lift (ix2 b t)) = _
  rw [negInf_f32]
  exact congrArg (fun f => Finset.fold max ⊥ f Finset.univ) (funext fun s => congrArg x (lift_keys b t s))

/-- The sum over the key positions read at column `(b, t)`. -/
theorem colSum_apply (x : FVec Ideal S64x128x128 .f32) (b : Fin 64) (t : Fin 128) :
    multiReduction (F := Ideal) .add [1] S64x128 x 0x00000000#32 reduces_S64x128x128_S64x128 (.inl rfl) rfl (ix2 b t)
      = ∑ s : Fin 128, x (ix3 b s t) := by
  refine (Ideal.multiReduction_add_single x 0x00000000#32 reduces_S64x128x128_S64x128 (.inl rfl) rfl (ix2 b t)).trans ?_
  show ∑ s : Fin 128, x (reduces_S64x128x128_S64x128.lift (ix2 b t) s) = _
  exact Finset.sum_congr rfl fun s _ => congrArg x (lift_keys b t s)

/-! ## The running maximum, the rescaling factor, the block's exponentials, the running sum -/

theorem pay8_apply (q k : Vec Ideal S64x64x128 .bf16) (m : Vec Ideal S64x1x128 .f32) (b : Fin 64) (t : Fin 128) :
    k0_pay8 (F := Ideal) q k m (ix3 b 0 t) = mStep (m (ix3 b 0 t)) (blkScore q k b t) := by
  unfold k0_pay8
  refine (maximumf_apply _ _ _).trans ?_
  refine (congrArg (max (m (ix3 b 0 t))) ((cast_col_apply _ b 0 t).trans (colMax_apply _ b t))).trans ?_
  unfold mStep
  exact congrArg (fun f => max (m (ix3 b 0 t)) (Finset.fold max ⊥ f Finset.univ)) (funext fun s => pay7_apply q k b s t)

/-- The running maximum is stored through a shape cast to its own shape. -/
theorem pay2_apply (x : FVec Ideal S64x1x128 .f32) : k0_pay2 (F := Ideal) x = x := by
  unfold k0_pay2
  exact shapeCast_self x _

theorem pay9_apply (q k : Vec Ideal S64x64x128 .bf16) (m : Vec Ideal S64x1x128 .f32) (b : Fin 64) (t : Fin 128) :
    k0_pay9 (F := Ideal) q k m (ix3 b 0 t) = alpha (m (ix3 b 0 t)) (blkScore q k b t) := by
  unfold k0_pay9
  exact congrArg (fun y => Ideal.exp (m (ix3 b 0 t) - y)) (pay8_apply q k m b t)

theorem pay10_apply (q k : Vec Ideal S64x64x128 .bf16) (m : Vec Ideal S64x1x128 .f32) (b : Fin 64) (s t : Fin 128) :
    k0_pay10 (F := Ideal) q k m (ix3 b s t) = pW (m (ix3 b 0 t)) (blkScore q k b t) s := by
  unfold k0_pay10
  exact congrArg₂ (fun x y => Ideal.exp (x - y)) (pay7_apply q k b s t)
    ((bcast_keys_apply _ b s t).trans (pay8_apply q k m b t))

theorem pay11_apply (q k : Vec Ideal S64x64x128 .bf16) (m l : Vec Ideal S64x1x128 .f32) (b : Fin 64) (t : Fin 128) :
    k0_pay11 (F := Ideal) q k m l (ix3 b 0 t) = lStep (m (ix3 b 0 t)) (l (ix3 b 0 t)) (blkScore q k b t) := by
  unfold k0_pay11
  refine (congrFun (shapeCast_self _ _) (ix3 b 0 t)).trans ?_
  exact congrArg₂ (fun x y : EReal => x + y)
    (congrArg (fun y : EReal => y * l (ix3 b 0 t)) (pay9_apply q k m b t))
    ((cast_col_apply _ b 0 t).trans ((colSum_apply _ b t).trans
      (Finset.sum_congr rfl fun s _ => pay10_apply q k m b s t)))

/-! ## The weighted values: the second product contracts the key positions

The left operand is the value block `(b, c, s)`, contracted on its axis 2; the right operand the block of
exponentials `(b, s, t)`, contracted on its axis 1; the result is indexed `(b, c, t)`. -/

theorem lhs_pv_0 (i : S64x64x128.Idx) (p : dot_S64x64x128_S64x128x128_S64x64x128_2_1_1_2_0_0.contr.Idx) :
    (dot_S64x64x128_S64x128x128_S64x64x128_2_1_1_2_0_0.lhsIdx i p 0).val = (i 0).val := by
  unfold DotDims.lhsIdx
  rw [dif_pos (show (0 : Fin S64x64x128.rank) ∈ dot_S64x64x128_S64x128x128_S64x64x128_2_1_1_2_0_0.lhsBatch by decide)]
  rfl
theorem lhs_pv_1 (i : S64x64x128.Idx) (p : dot_S64x64x128_S64x128x128_S64x64x128_2_1_1_2_0_0.contr.Idx) :
    (dot_S64x64x128_S64x128x128_S64x64x128_2_1_1_2_0_0.lhsIdx i p 1).val = (i 1).val := by
  unfold DotDims.lhsIdx
  rw [dif_neg (show ¬(1 : Fin S64x64x128.rank) ∈ dot_S64x64x128_S64x128x128_S64x64x128_2_1_1_2_0_0.lhsBatch by decide), dif_pos (show (1 : Fin S64x64x128.rank) ∈ dot_S64x64x128_S64x128x128_S64x64x128_2_1_1_2_0_0.lhsNonContracting by decide)]
  rfl
theorem lhs_pv_2 (i : S64x64x128.Idx) (p : dot_S64x64x128_S64x128x128_S64x64x128_2_1_1_2_0_0.contr.Idx) :
    (dot_S64x64x128_S64x128x128_S64x64x128_2_1_1_2_0_0.lhsIdx i p 2).val = (p ⟨0, by decide⟩).val :=
  dot_S64x64x128_S64x128x128_S64x64x128_2_1_1_2_0_0.lhsIdx_val_of_single rfl i p
theorem rhs_pv_0 (i : S64x64x128.Idx) (p : dot_S64x64x128_S64x128x128_S64x64x128_2_1_1_2_0_0.contr.Idx) :
    (dot_S64x64x128_S64x128x128_S64x64x128_2_1_1_2_0_0.rhsIdx i p 0).val = (i 0).val := by
  unfold DotDims.rhsIdx
  rw [dif_pos (show (0 : Fin S64x128x128.rank) ∈ dot_S64x64x128_S64x128x128_S64x64x128_2_1_1_2_0_0.rhsBatch by decide)]
  rfl
theorem rhs_pv_1 (i : S64x64x128.Idx) (p : dot_S64x64x128_S64x128x128_S64x64x128_2_1_1_2_0_0.contr.Idx) :
    (dot_S64x64x128_S64x128x128_S64x64x128_2_1_1_2_0_0.rhsIdx i p 1).val = (p ⟨0, by decide⟩).val :=
  dot_S64x64x128_S64x128x128_S64x64x128_2_1_1_2_0_0.rhsIdx_val_of_single rfl i p
theorem rhs_pv_2 (i : S64x64x128.Idx) (p : dot_S64x64x128_S64x128x128_S64x64x128_2_1_1_2_0_0.contr.Idx) :
    (dot_S64x64x128_S64x128x128_S64x64x128_2_1_1_2_0_0.rhsIdx i p 2).val = (i 2).val := by
  unfold DotDims.rhsIdx
  rw [dif_neg (show ¬(2 : Fin S64x128x128.rank) ∈ dot_S64x64x128_S64x128x128_S64x64x128_2_1_1_2_0_0.rhsBatch by decide), dif_pos (show (2 : Fin S64x128x128.rank) ∈ dot_S64x64x128_S64x128x128_S64x64x128_2_1_1_2_0_0.rhsNonContracting by decide)]
  rfl

/-- The second product into a zero accumulator, read at head `b`, value channel `c`, query position `t`: the sum
    over the key positions of the left operand at `(b, c, s)` times the right at `(b, s, t)`. -/
theorem matmul_pv_apply (x : FVec Ideal S64x64x128 .bf16) (y : FVec Ideal S64x128x128 .bf16) (b c : Fin 64) (t : Fin 128) :
    matmul (F := Ideal) dot_S64x64x128_S64x128x128_S64x64x128_2_1_1_2_0_0 none x y (constant (F := Ideal) S64x64x128 .f32 0x00000000#32) (ix3 b c t)
      = ∑ s : Fin 128, x (ix3 b c s) * y (ix3 b s t) := by
  simp only [matmul]
  rw [Ideal.matmul_constant_zero_apply, ← Equiv.sum_comp (ValueIdx.contrEquiv1 dot_S64x64x128_S64x128x128_S64x64x128_2_1_1_2_0_0 128 rfl rfl).symm]
  refine Finset.sum_congr rfl fun s _ => ?_
  have hk := ValueIdx.contrEquiv1_symm_val dot_S64x64x128_S64x128x128_S64x64x128_2_1_1_2_0_0 128 rfl rfl s
  have el : dot_S64x64x128_S64x128x128_S64x64x128_2_1_1_2_0_0.lhsIdx (ix3 b c t) ((ValueIdx.contrEquiv1 dot_S64x64x128_S64x128x128_S64x64x128_2_1_1_2_0_0 128 rfl rfl).symm s) = ix3 b c s := funext fun a => Fin.ext (by
    match a with
    | ⟨0, _⟩ => exact lhs_pv_0 _ _
    | ⟨1, _⟩ => exact lhs_pv_1 _ _
    | ⟨2, _⟩ => exact (lhs_pv_2 _ _).trans hk)
  have er : dot_S64x64x128_S64x128x128_S64x64x128_2_1_1_2_0_0.rhsIdx (ix3 b c t) ((ValueIdx.contrEquiv1 dot_S64x64x128_S64x128x128_S64x64x128_2_1_1_2_0_0 128 rfl rfl).symm s) = ix3 b s t := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-- The block's contribution to the accumulator: the values weighted by the block's exponentials (the change of
    format on the way into the product is exact). -/
theorem pay12_apply (q k v : Vec Ideal S64x64x128 .bf16) (m : Vec Ideal S64x1x128 .f32) (b c : Fin 64) (t : Fin 128) :
    k0_pay12 (F := Ideal) q k v m (ix3 b c t)
      = ∑ s : Fin 128, v (ix3 b c s) * pW (m (ix3 b 0 t)) (blkScore q k b t) s := by
  unfold k0_pay12
  refine (matmul_pv_apply _ _ b c t).trans ?_
  exact Finset.sum_congr rfl fun s _ => congrArg₂ (fun x y : EReal => x * y)
    (congrFun (shapeCast_self v _) (ix3 b c s)) (pay10_apply q k m b s t)

/-! ## The accumulator's update, the final quotient, the initial values -/

/-- The accumulator's update over any rescaling column `al` and any contribution `pv`: at `(b, c, t)` the column
    at `(b, 0, t)` times the old accumulator plus the contribution. -/
theorem pay1_read (al : FVec Ideal S64x1x128 .f32) (pv : FVec Ideal S64x64x128 .f32) (a : Vec Ideal S64x64x128 .f32)
    (b c : Fin 64) (t : Fin 128) :
    k0_pay1 (F := Ideal) al pv a (ix3 b c t) = al (ix3 b 0 t) * a (ix3 b c t) + pv (ix3 b c t) := by
  unfold k0_pay1
  refine (congrFun (shapeCast_self _ _) (ix3 b c t)).trans ?_
  exact congrArg (fun y : EReal => y * a (ix3 b c t) + pv (ix3 b c t)) (bcast_chan_apply al b c t)

/-- With the body's own rescaling factor and contribution it is the recurrence's accumulator step on channel `c`. -/
theorem pay1_apply (q k v : Vec Ideal S64x64x128 .bf16) (m : Vec Ideal S64x1x128 .f32) (a : Vec Ideal S64x64x128 .f32)
    (b c : Fin 64) (t : Fin 128) :
    k0_pay1 (F := Ideal) (k0_pay9 q k m) (k0_pay12 q k v m) a (ix3 b c t)
      = aStep (m (ix3 b 0 t)) (a (ix3 b c t)) (blkScore q k b t) (fun s => v (ix3 b c s)) := by
  refine (pay1_read _ _ a b c t).trans ?_
  exact congrArg₂ (fun x y : EReal => x * a (ix3 b c t) + y) (pay9_apply q k m b t) (pay12_apply q k v m b c t)

/-- After the last key block: the accumulator over the running sum of its column. -/
theorem pay3_apply (a : Vec Ideal S64x64x128 .f32) (l : Vec Ideal S64x1x128 .f32) (b c : Fin 64) (t : Fin 128) :
    k0_pay3 (F := Ideal) a l (ix3 b c t) = Ideal.div (a (ix3 b c t)) (l (ix3 b 0 t)) := by
  unfold k0_pay3
  exact congrArg (Ideal.div (a (ix3 b c t))) (bcast_chan_apply l b c t)

/-- At the first key block the running maximum starts at `-∞`, the running sum and the accumulator at zero. -/
theorem pay4_apply (j : S64x1x128.Idx) : k0_pay4 (F := Ideal) j = ⊥ := by
  unfold k0_pay4
  exact (congrFun (shapeCast_self _ _) j).trans negInf_f32

theorem pay5_apply (j : S64x1x128.Idx) : k0_pay5 (F := Ideal) j = 0 := by
  unfold k0_pay5
  exact (congrFun (shapeCast_self _ _) j).trans Ideal.ofBits_zero_f32

theorem pay6_apply (j : S64x64x128.Idx) : k0_pay6 (F := Ideal) j = 0 := by
  unfold k0_pay6
  exact (congrFun (shapeCast_self _ _) j).trans Ideal.ofBits_zero_f32

end Cert.KernelIdeal.Hand

end
-- ==== Proof.KI.Blocks.lean ====
/-
  Index plumbing of the attention kernel's 16 × 16 grid. Point `t` has query tile `t / 16` and key tile `t % 16`.
  Each input window's block at a point is read off the packed array at explicit coordinates: head `b`, the row of
  the query / key / value channel, and position `128 · tile + j`. The output array after the run is assembled from
  the blocks written back at the points whose key tile is 15: query tile `q`'s block fills positions
  `128 q … 128 q + 127`, and the sixteen of them fill all 2048 positions.
-/
import proofs.«418717_j6734508720606_3_alg».proof.Proof.KI.Frame
import proofs.«418717_j6734508720606_3_alg».proof.Proof.Attn.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Attn

variable {F : FTy → Type} [FloatOps F]

variable (m : (ℓ : Loc nD τ sig) → Buf (Elt F) ℓ)

/-- Position `128 a + j` of the 2048: element `j` of tile `a` of sixteen. -/
def pos128 (a : ℕ) (ha : a < 16) (j : Fin 128) : Fin 2048 := ⟨128 * a + j.val, by have := j.isLt; omega⟩

theorem pos128_val (a : ℕ) (ha : a < 16) (j : Fin 128) : (pos128 a ha j).val = 128 * a + j.val := rfl

/-- A point's query tile is one of sixteen. -/
theorem qi_lt (t : Fin cfg0.N) : t.val / 16 < 16 := by
  have h1 := t.isLt; have h2 : cfg0.N = 256 := N_0; omega

/-- A point's key tile is one of sixteen. -/
theorem kv_lt (t : Fin cfg0.N) : t.val % 16 < 16 := Nat.mod_lt _ (by omega)

/-! ## The index maps over the grid -/

/-- The four windows' block indices at every point, decided over the 256 points: the query and output windows sit
    at block `(0, 0, t / 16)`, the key window at `(0, 1, t % 16)`, the value window at `(0, 2, t % 16)`. -/
theorem idx_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 1 ∧ win0_1.index t (2 : Fin 3) = t.val % 16
    ∧ win0_2.index t (0 : Fin 3) = 0 ∧ win0_2.index t (1 : Fin 3) = 2 ∧ win0_2.index t (2 : Fin 3) = t.val % 16
    ∧ win0_3.index t (0 : Fin 3) = 0 ∧ win0_3.index t (1 : Fin 3) = 0 ∧ win0_3.index t (2 : Fin 3) = t.val / 16 :=
  (by decide +kernel : ∀ t : Fin grid0.N, _)

/-! ## The input blocks, entry by entry -/

/-- The query window's block at point `t`: head `b`, query channel `ch`, position `128 (t / 16) + j`. -/
theorem iblk0_apply (c : Dev nD) (t : Fin cfg0.N) (b ch : Fin 64) (j : Fin 128) :
    iblk m c 0 t (ix3 b ch j) = V m c main_v1 (ix3 b (qRow ch) (pos128 (t.val / 16) (qi_lt t) j)) := by
  obtain ⟨e0, e1, e2, -⟩ := idx_facts t
  show V m c main_v1 (((cfg0.win 0).blk t).view.emb (ix3 b ch j)) = V m c main_v1 _
  refine congrArg _ ?_
  funext a; apply Fin.ext
  match a with
  | ⟨0, _⟩ => show win0_0.index t (0 : Fin 3) * 64 + 1 * b.val = b.val; omega
  | ⟨1, _⟩ => show win0_0.index t (1 : Fin 3) * 64 + 1 * ch.val = ch.val; omega
  | ⟨2, _⟩ => show win0_0.index t (2 : Fin 3) * 128 + 1 * j.val = 128 * (t.val / 16) + j.val; omega

/-- The key window's block at point `t`: head `b`, key channel `ch`, position `128 (t % 16) + j`. -/
theorem iblk1_apply (c : Dev nD) (t : Fin cfg0.N) (b ch : Fin 64) (j : Fin 128) :
    iblk m c 1 t (ix3 b ch j) = V m c main_v1 (ix3 b (kRow ch) (pos128 (t.val % 16) (kv_lt t) j)) := by
  obtain ⟨-, -, -, e0, e1, e2, -⟩ := idx_facts t
  show V m c main_v1 (((cfg0.win 1).blk t).view.emb (ix3 b ch j)) = V m c main_v1 _
  refine congrArg _ ?_
  funext a; apply Fin.ext
  match a with
  | ⟨0, _⟩ => show win0_1.index t (0 : Fin 3) * 64 + 1 * b.val = b.val; omega
  | ⟨1, _⟩ => show win0_1.index t (1 : Fin 3) * 64 + 1 * ch.val = 64 + ch.val; omega
  | ⟨2, _⟩ => show win0_1.index t (2 : Fin 3) * 128 + 1 * j.val = 128 * (t.val % 16) + j.val; omega

/-- The value window's block at point `t`: head `b`, value channel `ch`, position `128 (t % 16) + j`. -/
theorem iblk2_apply (c : Dev nD) (t : Fin cfg0.N) (b ch : Fin 64) (j : Fin 128) :
    iblk m c 2 t (ix3 b ch j) = V m c main_v1 (ix3 b (vRow ch) (pos128 (t.val % 16) (kv_lt t) j)) := by
  obtain ⟨-, -, -, -, -, -, e0, e1, e2, -⟩ := idx_facts t
  show V m c main_v1 (((cfg0.win 2).blk t).view.emb (ix3 b ch j)) = V m c main_v1 _
  refine congrArg _ ?_
  funext a; apply Fin.ext
  match a with
  | ⟨0, _⟩ => show win0_2.index t (0 : Fin 3) * 64 + 1 * b.val = b.val; omega
  | ⟨1, _⟩ => show win0_2.index t (1 : Fin 3) * 64 + 1 * ch.val = 128 + ch.val; omega
  | ⟨2, _⟩ => show win0_2.index t (2 : Fin 3) * 128 + 1 * j.val = 128 * (t.val % 16) + j.val; omega

/-! ## The output array from the blocks written back -/

/-- What a point with key tile 15 writes back is its block of `G`, once the body's output block is `G` there
    entry by entry. -/
theorem flushed3_eq (c : Dev nD) (G : S64x64x2048.Idx → Elt F .f32)
    (hG : ∀ (t : Fin cfg0.N), t.val % 16 = 15 → ∀ (b ch : Fin 64) (j : Fin 128),
      (outsAt m c t.val t.isLt).1 (ix3 b ch j) = G (ix3 b ch (pos128 (t.val / 16) (qi_lt t) j)))
    (t : Fin cfg0.N) (ht : t.val % 16 = 15) :
    (dats m 0 c).flushed 3 t = ((cfg0.win 3).blk t).view.read (Elt F) G := by
  show (cfg0.win 3).cut (grid0.coords t) ((dats m 0 c).after 3 t) = _
  rw [after_3]
  obtain ⟨-, -, -, -, -, -, -, -, -, e0, e1, e2⟩ := idx_facts t
  funext y
  obtain ⟨b, ch, j, rfl⟩ : ∃ (b ch : Fin 64) (j : Fin 128), y = ix3 b ch j :=
    ⟨y 0, y 1, y 2, eq_ix3 (n0 := 64) (n1 := 64) (n2 := 128) y⟩
  show (outsAt m c t.val t.isLt).1 (ix3 b ch j) = G (((cfg0.win 3).blk t).view.emb (ix3 b ch j))
  rw [hG t ht]
  refine congrArg _ ?_
  funext a; apply Fin.ext
  match a with
  | ⟨0, _⟩ => show b.val = win0_3.index t (0 : Fin 3) * 64 + 1 * b.val; omega
  | ⟨1, _⟩ => show ch.val = win0_3.index t (1 : Fin 3) * 64 + 1 * ch.val; omega
  | ⟨2, _⟩ => show 128 * (t.val / 16) + j.val = win0_3.index t (2 : Fin 3) * 128 + 1 * j.val; omega

/-- An index of the output array is in point `t`'s block iff each coordinate is in the block's range on its axis. -/
theorem mem_blk3 (t : Fin cfg0.N) (i : S64x64x2048.Idx) :
    i ∈ ((cfg0.win 3).blk t).view.set ↔ ∀ a : Fin 3, win0_3.index t a * S64x64x128.size a ≤ (i a).val ∧ (i a).val < win0_3.index t a * S64x64x128.size a + S64x64x128.size a := by
  show i ∈ ((View.whole main_v2).slice (win0_3.rect t)).set ↔ _
  rw [View.set_slice_whole, Rect.mem_set_unit]
  exact Iff.rfl

/-- Every index of the output array lies in the block written back by the last point of its query tile:
    position `p` is covered by point `16 (p / 128) + 15`. -/
theorem cover3 (i : S64x64x2048.Idx) :
    ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 2048 := (i 2).isLt
  have hlt : 16 * ((i 2).val / 128) + 15 < cfg0.N := by
    have hN : cfg0.N = 256 := N_0
    omega
  obtain ⟨-, -, -, -, -, -, -, -, -, e0, e1, e2⟩ := idx_facts ⟨16 * ((i 2).val / 128) + 15, hlt⟩
  have e2' : win0_3.index ⟨16 * ((i 2).val / 128) + 15, hlt⟩ (2 : Fin 3) = (i 2).val / 128 := by
    rw [e2]; show (16 * ((i 2).val / 128) + 15) / 16 = (i 2).val / 128; omega
  clear e2
  refine ⟨⟨16 * ((i 2).val / 128) + 15, hlt⟩, (flush0_3 _).mpr (by show (16 * ((i 2).val / 128) + 15) % 16 = 15; omega), ?_⟩
  rw [mem_blk3]
  intro a
  match a with
  | ⟨0, _⟩ => show win0_3.index _ (0 : Fin 3) * 64 ≤ (i 0).val ∧ (i 0).val < win0_3.index _ (0 : Fin 3) * 64 + 64; omega
  | ⟨1, _⟩ => show win0_3.index _ (1 : Fin 3) * 64 ≤ (i 1).val ∧ (i 1).val < win0_3.index _ (1 : Fin 3) * 64 + 64; omega
  | ⟨2, _⟩ => show win0_3.index _ (2 : Fin 3) * 128 ≤ (i 2).val ∧ (i 2).val < win0_3.index _ (2 : Fin 3) * 128 + 128; omega

/-- The output array after the run is `G`, once every point with key tile 15 leaves `G`'s entries of its query
    tile in the output block. -/
theorem final3 (c : Dev nD) (G : S64x64x2048.Idx → Elt F .f32)
    (hG : ∀ (t : Fin cfg0.N), t.val % 16 = 15 → ∀ (b ch : Fin 64) (j : Fin 128),
      (outsAt m c t.val t.isLt).1 (ix3 b ch j) = G (ix3 b ch (pos128 (t.val / 16) (qi_lt t) j))) :
    (dats m 0 c).arrAt 3 cfg0.N = G :=
  (dats m 0 c).arrAt_eq_of_cover 3 G (fun t hf => flushed3_eq m c G hG t ((flush0_3 t).mp hf)) cover3

end Cert.KernelIdeal.Hand

end
-- ==== Proof.Attn.Online.lean ====
/-
  The blockwise recurrence against the whole-row softmax, when every score and every value is a real number.

  With real scores the running maximum is a real number `M` from the first block on; the running sum is then
  `∑ exp (x - M)` over the scores seen so far and the accumulator `∑ v · exp (x - M)` over the same. Passing to a
  new maximum `M'` multiplies both by `exp (M - M')`, which is what the rescaling factor does:
  `exp (M - M') · exp (x - M) = exp (x - M')`. After the 16 blocks the quotient of the two does not depend on `M` (both
  carry the factor `exp (-M)`), so it is the whole-row value, whose own maximum is again some real number. Nothing
  below uses that `M` IS the maximum of the scores: only that it is real.
-/
import proofs.«418717_j6734508720606_3_alg».proof.Proof.Attn.Spec
import Mathlib.Data.EReal.Operations
import Mathlib.Analysis.Complex.Exponential
import Mathlib.Analysis.Real.Sqrt
import Mathlib.Algebra.BigOperators.Fin
import Mathlib.Algebra.Order.BigOperators.Group.Finset
import Mathlib.Data.Fintype.BigOperators
import Mathlib.Data.Finset.Fold
import Mathlib.Logic.Equiv.Fin.Basic
import Mathlib.Tactic.Ring
import Mathlib.Tactic.NormNum

noncomputable section

namespace Cert.Attn

open Idealize.ShloMosaic

/-! ## Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals is monotone, so it commutes with the maximum of two. -/
theorem coe_max (a b : ℝ) : ((max a b : ℝ) : EReal) = max (a : EReal) (b : EReal) :=
  EReal.coe_strictMono.monotone.map_max

/-- The maximum, taken from `-∞`, of finitely many reals over a nonempty index set is a real. -/
theorem fold_max_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    rcases s.eq_empty_or_nonempty with h | h
    · subst h
      exact ⟨f a, by rw [Finset.fold_empty, max_bot_right]⟩
    · obtain ⟨r, hr⟩ := ih h
      exact ⟨max (f a) r, by rw [hr, coe_max]⟩

/-- The exponential of a difference of reals. -/
theorem exp_sub_coe (a b : ℝ) : Ideal.exp ((a : EReal) - (b : EReal)) = ((Real.exp (a - b) : ℝ) : EReal) := by
  rw [← EReal.coe_sub, Ideal.exp_coe]

/-! ## One block of real scores and values -/

section Block

variable (xb vb : Fin 128 → ℝ)

/-- From the initial state `(-∞, 0, 0)`: the new maximum is a real `M`, the rescaling factor `exp (-∞) = 0` meets
    the zero sums, and what remains is the block's own sums under `M`. -/
theorem step_bot : ∃ M : ℝ,
    mStep ⊥ (fun i => (xb i : EReal)) = (M : EReal)
    ∧ lStep ⊥ 0 (fun i => (xb i : EReal)) = ((∑ i, Real.exp (xb i - M) : ℝ) : EReal)
    ∧ aStep ⊥ 0 (fun i => (xb i : EReal)) (fun i => (vb i : EReal))
        = ((∑ i, vb i * Real.exp (xb i - M) : ℝ) : EReal) := by
  obtain ⟨M, hM⟩ := fold_max_real Finset.univ Finset.univ_nonempty xb
  have hm : mStep ⊥ (fun i => (xb i : EReal)) = (M : EReal) := by
    rw [mStep, hM, max_bot_left]
  refine ⟨M, hm, ?_, ?_⟩
  · rw [lStep, mul_zero, zero_add, coe_sum]
    refine Finset.sum_congr rfl fun i _ => ?_
    rw [pW, hm, exp_sub_coe]
  · rw [aStep, mul_zero, zero_add, coe_sum]
    refine Finset.sum_congr rfl fun i _ => ?_
    rw [pW, hm, exp_sub_coe, EReal.coe_mul]

/-- From a real state `(M, L, A)`: the new maximum is a real `M'`, and both sums are the old ones times
    `exp (M - M')` plus the block's own under `M'`. -/
theorem step_real (M L A : ℝ) : ∃ M' : ℝ,
    mStep (M : EReal) (fun i => (xb i : EReal)) = (M' : EReal)
    ∧ lStep (M : EReal) (L : EReal) (fun i => (xb i : EReal))
        = ((Real.exp (M - M') * L + ∑ i, Real.exp (xb i - M') : ℝ) : EReal)
    ∧ aStep (M : EReal) (A : EReal) (fun i => (xb i : EReal)) (fun i => (vb i : EReal))
        = ((Real.exp (M - M') * A + ∑ i, vb i * Real.exp (xb i - M') : ℝ) : EReal) := by
  obtain ⟨r, hr⟩ := fold_max_real Finset.univ Finset.univ_nonempty xb
  have hm : mStep (M : EReal) (fun i => (xb i : EReal)) = ((max M r : ℝ) : EReal) := by
    rw [mStep, hr, coe_max]
  refine ⟨max M r, hm, ?_, ?_⟩
  · have hs : ∑ i : Fin 128, pW (M : EReal) (fun i => (xb i : EReal)) i
        = ((∑ i, Real.exp (xb i - max M r) : ℝ) : EReal) := by
      rw [coe_sum]
      refine Finset.sum_congr rfl fun i _ => ?_
      rw [pW, hm, exp_sub_coe]
    rw [lStep, alpha, hm, exp_sub_coe, hs, EReal.coe_add, EReal.coe_mul]
  · have hs : ∑ i : Fin 128, (vb i : EReal) * pW (M : EReal) (fun i => (xb i : EReal)) i
        = ((∑ i, vb i * Real.exp (xb i - max M r) : ℝ) : EReal) := by
      rw [coe_sum]
      refine Finset.sum_congr rfl fun i _ => ?_
      rw [pW, hm, exp_sub_coe, EReal.coe_mul]
    rw [aStep, alpha, hm, exp_sub_coe, hs, EReal.coe_add, EReal.coe_mul]

end Block

/-! ## The sums over the blocks seen so far -/

/-- `∑ exp (x - M)` over the scores of the first `j` blocks. -/
def Lr (xr : ℕ → Fin 128 → ℝ) (j : ℕ) (M : ℝ) : ℝ :=
  ∑ k ∈ Finset.range j, ∑ i : Fin 128, Real.exp (xr k i - M)

/-- `∑ v · exp (x - M)` over the same. -/
def Ar (xr vr : ℕ → Fin 128 → ℝ) (j : ℕ) (M : ℝ) : ℝ :=
  ∑ k ∈ Finset.range j, ∑ i : Fin 128, vr k i * Real.exp (xr k i - M)

theorem Lr_succ (xr : ℕ → Fin 128 → ℝ) (j : ℕ) (M : ℝ) :
    Lr xr (j + 1) M = Lr xr j M + ∑ i : Fin 128, Real.exp (xr j i - M) :=
  Finset.sum_range_succ _ _

theorem Ar_succ (xr vr : ℕ → Fin 128 → ℝ) (j : ℕ) (M : ℝ) :
    Ar xr vr (j + 1) M = Ar xr vr j M + ∑ i : Fin 128, vr j i * Real.exp (xr j i - M) :=
  Finset.sum_range_succ _ _

/-- Passing from `M` to `M'`: `exp (M - M') · exp (x - M) = exp (x - M')`, term by term. -/
theorem Lr_rescale (xr : ℕ → Fin 128 → ℝ) (j : ℕ) (M M' : ℝ) :
    Real.exp (M - M') * Lr xr j M = Lr xr j M' := by
  unfold Lr
  rw [Finset.mul_sum]
  refine Finset.sum_congr rfl fun k _ => ?_
  rw [Finset.mul_sum]
  refine Finset.sum_congr rfl fun i _ => ?_
  rw [← Real.exp_add, show M - M' + (xr k i - M) = xr k i - M' by ring]

theorem Ar_rescale (xr vr : ℕ → Fin 128 → ℝ) (j : ℕ) (M M' : ℝ) :
    Real.exp (M - M') * Ar xr vr j M = Ar xr vr j M' := by
  unfold Ar
  rw [Finset.mul_sum]
  refine Finset.sum_congr rfl fun k _ => ?_
  rw [Finset.mul_sum]
  refine Finset.sum_congr rfl fun i _ => ?_
  rw [mul_left_comm, ← Real.exp_add, show M - M' + (xr k i - M) = xr k i - M' by ring]

/-- The running sum is positive once a block has been seen: a nonempty sum of exponentials. -/
theorem Lr_pos (xr : ℕ → Fin 128 → ℝ) (j : ℕ) (M : ℝ) : 0 < Lr xr (j + 1) M :=
  Finset.sum_pos (fun _ _ => Finset.sum_pos (fun _ _ => Real.exp_pos _) Finset.univ_nonempty)
    (Finset.nonempty_range_add_one)

/-! ## The recurrence on real scores and values -/

theorem state_succ (x v : ℕ → Fin 128 → EReal) (j : ℕ) :
    state x v (j + 1) = (mStep (state x v j).1 (x j), lStep (state x v j).1 (state x v j).2.1 (x j),
      aStep (state x v j).1 (state x v j).2.2 (x j) (v j)) := rfl

/-- After `j + 1` blocks of real scores and values the state is `(M, ∑ exp (x - M), ∑ v · exp (x - M))` for a real
    `M`, the sums over everything seen. -/
theorem state_real (x v : ℕ → Fin 128 → EReal) (xr vr : ℕ → Fin 128 → ℝ) (n : ℕ)
    (hx : ∀ k, k < n → ∀ i, x k i = (xr k i : EReal)) (hv : ∀ k, k < n → ∀ i, v k i = (vr k i : EReal)) (j : ℕ) :
    j < n → ∃ M : ℝ, state x v (j + 1)
      = ((M : EReal), ((Lr xr (j + 1) M : ℝ) : EReal), ((Ar xr vr (j + 1) M : ℝ) : EReal)) := by
  induction j with
  | zero =>
    intro h0
    have ex : x 0 = fun i => (xr 0 i : EReal) := funext (hx 0 h0)
    have ev : v 0 = fun i => (vr 0 i : EReal) := funext (hv 0 h0)
    obtain ⟨M, h1, h2, h3⟩ := step_bot (xr 0) (vr 0)
    refine ⟨M, ?_⟩
    rw [state_succ]
    show (mStep ⊥ (x 0), lStep ⊥ 0 (x 0), aStep ⊥ 0 (x 0) (v 0)) = _
    rw [ex, ev, h1, h2, h3, Lr_succ, Ar_succ]
    simp [Lr, Ar]
  | succ j ih =>
    intro hj
    obtain ⟨M, hM⟩ := ih (by omega)
    have ex : x (j + 1) = fun i => (xr (j + 1) i : EReal) := funext (hx _ hj)
    have ev : v (j + 1) = fun i => (vr (j + 1) i : EReal) := funext (hv _ hj)
    obtain ⟨M', h1, h2, h3⟩ := step_real (xr (j + 1)) (vr (j + 1)) M (Lr xr (j + 1) M) (Ar xr vr (j + 1) M)
    refine ⟨M', ?_⟩
    rw [state_succ, hM]
    dsimp only
    rw [ex, ev, h1, h2, h3, Lr_rescale, Ar_rescale, ← Lr_succ, ← Ar_succ]

/-- What the blockwise computation returns on real scores and values. -/
theorem online_real (x v : ℕ → Fin 128 → EReal) (xr vr : ℕ → Fin 128 → ℝ)
    (hx : ∀ k, k < 16 → ∀ i, x k i = (xr k i : EReal)) (hv : ∀ k, k < 16 → ∀ i, v k i = (vr k i : EReal)) :
    ∃ M : ℝ, online x v = ((Ar xr vr 16 M * (1 / Lr xr 16 M) : ℝ) : EReal) := by
  obtain ⟨M, hM⟩ := state_real x v xr vr 16 hx hv 15 (by norm_num)
  have hM' : state x v 16
      = ((M : EReal), ((Lr xr 16 M : ℝ) : EReal), ((Ar xr vr 16 M : ℝ) : EReal)) := hM
  refine ⟨M, ?_⟩
  rw [online, hM']
  dsimp only
  rw [Ideal.div_coe (Lr_pos xr 15 M).ne', ← EReal.coe_mul]

/-! ## The whole row -/

theorem rowMax_real (X : Fin 2048 → EReal) (Xr : Fin 2048 → ℝ) (hXr : ∀ s, X s = (Xr s : EReal)) :
    ∃ M : ℝ, rowMax X = (M : EReal) := by
  obtain ⟨r, hr⟩ := fold_max_real Finset.univ Finset.univ_nonempty Xr
  have hXf : X = fun s => (Xr s : EReal) := funext hXr
  exact ⟨r, by rw [rowMax, hXf, hr, max_bot_left]⟩

/-- The reference's value on real scores and values: the normalised weights are real, the sum is a real sum. -/
theorem offline_real (X V : Fin 2048 → EReal) (Xr Vr : Fin 2048 → ℝ) (hXr : ∀ s, X s = (Xr s : EReal))
    (hVr : ∀ s, V s = (Vr s : EReal)) :
    ∃ M : ℝ, offline X V
      = ((∑ s, Vr s * (Real.exp (Xr s - M) * (1 / ∑ t, Real.exp (Xr t - M))) : ℝ) : EReal) := by
  obtain ⟨M, hM⟩ := rowMax_real X Xr hXr
  have hZ : rowSum X = ((∑ t, Real.exp (Xr t - M) : ℝ) : EReal) := by
    rw [rowSum, zero_add, coe_sum]
    refine Finset.sum_congr rfl fun s _ => ?_
    rw [hM, hXr s, exp_sub_coe]
  have hpos : (∑ t : Fin 2048, Real.exp (Xr t - M)) ≠ 0 :=
    (Finset.sum_pos (fun t _ => Real.exp_pos _) Finset.univ_nonempty).ne'
  refine ⟨M, ?_⟩
  rw [offline, coe_sum]
  refine Finset.sum_congr rfl fun s _ => ?_
  rw [hZ, hM, hXr s, hVr s, exp_sub_coe, Ideal.div_coe hpos, ← EReal.coe_mul, ← EReal.coe_mul]

/-! ## The real identity -/

/-- The softmax-weighted sum does not depend on the number subtracted in the exponents. -/
theorem softmax_shift (Xr Vr : Fin 2048 → ℝ) (M M' : ℝ) :
    (∑ s, Vr s * Real.exp (Xr s - M)) * (1 / ∑ s, Real.exp (Xr s - M))
      = ∑ s, Vr s * (Real.exp (Xr s - M') * (1 / ∑ t, Real.exp (Xr t - M'))) := by
  have h1 : ∑ s, Vr s * Real.exp (Xr s - M) = Real.exp (M' - M) * ∑ s, Vr s * Real.exp (Xr s - M') := by
    rw [Finset.mul_sum]
    refine Finset.sum_congr rfl fun s _ => ?_
    rw [mul_left_comm, ← Real.exp_add, show M' - M + (Xr s - M') = Xr s - M by ring]
  have h2 : ∑ s, Real.exp (Xr s - M) = Real.exp (M' - M) * ∑ s, Real.exp (Xr s - M') := by
    rw [Finset.mul_sum]
    refine Finset.sum_congr rfl fun s _ => ?_
    rw [← Real.exp_add, show M' - M + (Xr s - M') = Xr s - M by ring]
  have h3 : ∑ s, Vr s * (Real.exp (Xr s - M') * (1 / ∑ t, Real.exp (Xr t - M')))
      = (∑ s, Vr s * Real.exp (Xr s - M')) * (1 / ∑ t, Real.exp (Xr t - M')) := by
    rw [Finset.sum_mul]
    refine Finset.sum_congr rfl fun s _ => ?_
    rw [mul_assoc]
  have hc : Real.exp (M' - M) ≠ 0 := (Real.exp_pos _).ne'
  rw [h1, h2, h3, one_div, one_div, mul_inv, mul_mul_mul_comm, mul_inv_cancel₀ hc, one_mul]

/-- The 16 blocks of 128 together are the 2048 positions. -/
theorem sum_blocks (G : Fin 2048 → ℝ) :
    ∑ k ∈ Finset.range 16, ∑ i : Fin 128, G ⟨(128 * k + i.val) % 2048, Nat.mod_lt _ (by norm_num)⟩ = ∑ s, G s := by
  rw [Finset.sum_range, ← Fintype.sum_prod_type'
    (fun (k : Fin 16) (i : Fin 128) => G ⟨(128 * k.val + i.val) % 2048, Nat.mod_lt _ (by norm_num)⟩)]
  refine Fintype.sum_equiv (finProdFinEquiv (m := 16) (n := 128)) _ _ fun p => ?_
  obtain ⟨⟨k, hk⟩, ⟨i, hi⟩⟩ := p
  refine congrArg G (Fin.ext ?_)
  show (128 * k + i) % 2048 = i + 128 * k
  omega

/-! ## The theorem -/

theorem online_eq_offline (X V : Fin 2048 → EReal) (hX : ∀ s, ∃ r : ℝ, X s = (r : EReal))
    (hV : ∀ s, ∃ r : ℝ, V s = (r : EReal))
    (x v : ℕ → Fin 128 → EReal)
    (hx : ∀ (j : ℕ) (hj : j < 16) (i : Fin 128), x j i = X ⟨128 * j + i.val, by omega⟩)
    (hv : ∀ (j : ℕ) (hj : j < 16) (i : Fin 128), v j i = V ⟨128 * j + i.val, by omega⟩) :
    online x v = offline X V := by
  choose Xr hXr using hX
  choose Vr hVr using hV
  have hidx : ∀ (k : ℕ) (hk : k < 16) (i : Fin 128),
      (⟨128 * k + i.val, by omega⟩ : Fin 2048) = ⟨(128 * k + i.val) % 2048, Nat.mod_lt _ (by norm_num)⟩ := by
    intro k hk i
    apply Fin.ext
    show 128 * k + i.val = (128 * k + i.val) % 2048
    omega
  obtain ⟨M, hon⟩ := online_real x v
    (fun k i => Xr ⟨(128 * k + i.val) % 2048, Nat.mod_lt _ (by norm_num)⟩)
    (fun k i => Vr ⟨(128 * k + i.val) % 2048, Nat.mod_lt _ (by norm_num)⟩)
    (fun k hk i => by rw [hx k hk i, hXr, hidx k hk i]) (fun k hk i => by rw [hv k hk i, hVr, hidx k hk i])
  obtain ⟨M', hoff⟩ := offline_real X V Xr Vr hXr hVr
  rw [hon, hoff]
  refine congrArg Real.toEReal ?_
  have hA : Ar (fun k i => Xr ⟨(128 * k + i.val) % 2048, Nat.mod_lt _ (by norm_num)⟩)
      (fun k i => Vr ⟨(128 * k + i.val) % 2048, Nat.mod_lt _ (by norm_num)⟩) 16 M
      = ∑ s, Vr s * Real.exp (Xr s - M) := sum_blocks (fun s => Vr s * Real.exp (Xr s - M))
  have hL : Lr (fun k i => Xr ⟨(128 * k + i.val) % 2048, Nat.mod_lt _ (by norm_num)⟩) 16 M
      = ∑ s, Real.exp (Xr s - M) := sum_blocks (fun s => Real.exp (Xr s - M))
  rw [hA, hL]
  exact softmax_shift Xr Vr M M'

/-! ## The scale -/

/-- The pattern `0x42800000` denotes `64`. -/
theorem ofBits_64 : Ideal.ofBits .f32 0x42800000#32 = ((64 : ℝ) : EReal) := by
  simp [Ideal.ofBits, Ideal.ieee, -EReal.coe_mul]; norm_num

/-- The pattern `0x3E00` denotes the eighth. -/
theorem ofBits_eighth : Ideal.ofBits .bf16 0x3E00#16 = ((1 / 8 : ℝ) : EReal) := by
  simp [Ideal.ofBits, Ideal.ieee, -EReal.coe_mul]; norm_num

/-- `√√64 = √8`, and the square of its reciprocal is the exact eighth. -/
theorem kappa_sq :
    let κ : EReal := Ideal.div 1 (Ideal.sqrt (Ideal.sqrt (Ideal.ofBits .f32 0x42800000#32)))
    κ * κ = Ideal.ofBits .bf16 0x3E00#16 := by
  intro κ
  have h64 : Real.sqrt 64 = 8 := by
    rw [show (64 : ℝ) = 8 ^ 2 by norm_num, Real.sqrt_sq (by norm_num)]
  have h8 : Real.sqrt 8 ≠ 0 := (Real.sqrt_pos.mpr (by norm_num)).ne'
  have hκ : κ = ((1 / Real.sqrt 8 : ℝ) : EReal) := by
    show Ideal.div 1 (Ideal.sqrt (Ideal.sqrt (Ideal.ofBits .f32 0x42800000#32))) = _
    rw [ofBits_64, Ideal.sqrt_coe, if_neg (by norm_num), h64, Ideal.sqrt_coe, if_neg (by norm_num),
      Ideal.div_coe h8, one_mul]
  rw [hκ, ofBits_eighth, ← EReal.coe_mul, div_mul_div_comm, one_mul, Real.mul_self_sqrt (by norm_num)]

/-- The same with the scale written out on both sides of the product. -/
theorem kappa_mul_self :
    Ideal.div 1 (Ideal.sqrt (Ideal.sqrt (Ideal.ofBits .f32 0x42800000#32)))
        * Ideal.div 1 (Ideal.sqrt (Ideal.sqrt (Ideal.ofBits .f32 0x42800000#32)))
      = Ideal.ofBits .bf16 0x3E00#16 := kappa_sq

/-- Scaling both factors by `κ` scales the product by `κ²`: the extended reals' product is commutative and
    associative, so no finiteness is needed. -/
theorem scaled_mul (q k κ e : EReal) (hκ : κ * κ = e) : (q * κ) * (k * κ) = k * (q * e) := by
  rw [mul_mul_mul_comm, hκ, mul_comm q k, mul_assoc]

end Cert.Attn

end
-- ==== Proof.KI.Value.lean ====
/-
  The attention kernel's value: after the point with query tile qi and key tile kv, the three scratch buffers hold,
  column by column, the state of the blockwise softmax recurrence after kv + 1 blocks of that query column's scores
  (induction over the grid's points in their order; a point with key tile 0 starts the recurrence afresh); at key tile
  15 the output block is the accumulator over the running sum, which for real scores and values is whole-row
  attention; the blocks written back tile the output array.
-/
import proofs.«418717_j6734508720606_3_alg».proof.Proof.KI.Pieces
import proofs.«418717_j6734508720606_3_alg».proof.Proof.KI.Pay
import proofs.«418717_j6734508720606_3_alg».proof.Proof.KI.Blocks
import proofs.«418717_j6734508720606_3_alg».proof.Proof.Attn.Online

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Attn

variable (m : (ℓ : Loc nD τ sig) → Buf (Elt Ideal) ℓ)

/-- The packed array (64 heads × 192 rows × 2048 positions) as the region finds it. -/
abbrev Rk (c : Dev nD) : (⟨3, ![64, 192, 2048]⟩ : Shape).Idx → EReal := V m c main_v1

/-- Position `128 j + s`, for every `j` (wrapped past the array's end, which no block reaches). -/
def posN (j : ℕ) (s : Fin 128) : Fin 2048 := ⟨(128 * j + s.val) % 2048, Nat.mod_lt _ (by norm_num)⟩

theorem posN_val (j : ℕ) (hj : j < 16) (s : Fin 128) : (posN j s).val = 128 * j + s.val := by
  have := s.isLt
  show (128 * j + s.val) % 2048 = _
  exact Nat.mod_eq_of_lt (by omega)

/-- Query column (head `b`, tile `qi`, lane `tq`): block `j`'s scores. -/
def xs (c : Dev nD) (qi : ℕ) (b : Fin 64) (tq : Fin 128) : ℕ → Fin 128 → EReal :=
  fun j s => score (Rk m c) b (posN j s) (posN qi tq)
/-- Value channel `ch` of head `b`: block `j`'s values. -/
def vs (c : Dev nD) (b ch : Fin 64) : ℕ → Fin 128 → EReal :=
  fun j s => Rk m c (ix3 b (vRow ch) (posN j s))

/-- The point's three input blocks at their literal type. -/
abbrev qb (c : Dev nD) (t : Fin cfg0.N) : Vec Ideal S64x64x128 .bf16 := iblk m c 0 t
abbrev kb (c : Dev nD) (t : Fin cfg0.N) : Vec Ideal S64x64x128 .bf16 := iblk m c 1 t
abbrev vb (c : Dev nD) (t : Fin cfg0.N) : Vec Ideal S64x64x128 .bf16 := iblk m c 2 t

/-! ## The blocks at coordinates of the packed array -/

theorem posN_eq (a : ℕ) (ha : a < 16) (j : Fin 128) : posN a j = pos128 a ha j :=
  Fin.ext ((posN_val a ha j).trans (pos128_val a ha j).symm)

theorem qb_apply (c : Dev nD) (t : Fin cfg0.N) (b ch : Fin 64) (j : Fin 128) :
    qb m c t (ix3 b ch j) = Rk m c (ix3 b (qRow ch) (posN (t.val / 16) j)) := by
  rw [posN_eq _ (qi_lt t)]; exact iblk0_apply m c t b ch j
theorem kb_apply (c : Dev nD) (t : Fin cfg0.N) (b ch : Fin 64) (j : Fin 128) :
    kb m c t (ix3 b ch j) = Rk m c (ix3 b (kRow ch) (posN (t.val % 16) j)) := by
  rw [posN_eq _ (kv_lt t)]; exact iblk1_apply m c t b ch j
theorem vb_apply (c : Dev nD) (t : Fin cfg0.N) (b ch : Fin 64) (j : Fin 128) :
    vb m c t (ix3 b ch j) = Rk m c (ix3 b (vRow ch) (posN (t.val % 16) j)) := by
  rw [posN_eq _ (kv_lt t)]; exact iblk2_apply m c t b ch j

/-- The point's block of scores for a query column is that column's block `kv` of scores. -/
theorem blk_eq_xs (c : Dev nD) (t : Fin cfg0.N) (b : Fin 64) (tq : Fin 128) :
    blkScore (qb m c t) (kb m c t) b tq = xs m c (t.val / 16) b tq (t.val % 16) := by
  funext s
  unfold blkScore xs score
  refine Finset.sum_congr rfl fun ch _ => ?_
  exact congrArg₂ (· * ·) (kb_apply m c t b ch s) (congrArg (· * _) (qb_apply m c t b ch tq))

theorem vb_eq_vs (c : Dev nD) (t : Fin cfg0.N) (b ch : Fin 64) :
    (fun s => vb m c t (ix3 b ch s)) = vs m c b ch (t.val % 16) := by
  funext s; unfold vs; exact vb_apply m c t b ch s

/-! ## One point is one step of the recurrence, column by column -/

theorem step_cols (c : Dev nD) (t : Fin cfg0.N) (pM pL : Vec Ideal S64x1x128 .f32) (pA : Vec Ideal S64x64x128 .f32)
    (b ch : Fin 64) (tq : Fin 128) :
    k0_pay2 (F := Ideal) (k0_pay8 (qb m c t) (kb m c t) pM) (ix3 b 0 tq)
        = mStep (pM (ix3 b 0 tq)) (xs m c (t.val / 16) b tq (t.val % 16))
    ∧ k0_pay11 (F := Ideal) (qb m c t) (kb m c t) pM pL (ix3 b 0 tq)
        = lStep (pM (ix3 b 0 tq)) (pL (ix3 b 0 tq)) (xs m c (t.val / 16) b tq (t.val % 16))
    ∧ k0_pay1 (F := Ideal) (k0_pay9 (qb m c t) (kb m c t) pM) (k0_pay12 (qb m c t) (kb m c t) (vb m c t) pM) pA (ix3 b ch tq)
        = aStep (pM (ix3 b 0 tq)) (pA (ix3 b ch tq)) (xs m c (t.val / 16) b tq (t.val % 16)) (vs m c b ch (t.val % 16)) := by
  refine ⟨?_, ?_, ?_⟩
  · rw [pay2_apply]; exact (pay8_apply (qb m c t) (kb m c t) pM b tq).trans (by rw [blk_eq_xs])
  · exact (pay11_apply (qb m c t) (kb m c t) pM pL b tq).trans (by rw [blk_eq_xs])
  · exact (pay1_apply (qb m c t) (kb m c t) (vb m c t) pM pA b ch tq).trans (by rw [blk_eq_xs, vb_eq_vs])

/-- After point `t` the scratch buffers hold, in every column, the recurrence's state after `t % 16 + 1` blocks of the
    column's scores (and, per channel, values). -/
def Inv (c : Dev nD) (t : Fin cfg0.N) : Prop :=
  ∀ (b ch : Fin 64) (tq : Fin 128),
    (outsAt m c t.val t.isLt).2.1 (ix3 b 0 tq) = (state (xs m c (t.val / 16) b tq) (vs m c b ch) (t.val % 16 + 1)).1
    ∧ (outsAt m c t.val t.isLt).2.2.1 (ix3 b 0 tq) = (state (xs m c (t.val / 16) b tq) (vs m c b ch) (t.val % 16 + 1)).2.1
    ∧ (outsAt m c t.val t.isLt).2.2.2 (ix3 b ch tq) = (state (xs m c (t.val / 16) b tq) (vs m c b ch) (t.val % 16 + 1)).2.2

/-- A point with key tile 0 resets the scratch buffers and makes the recurrence's first step. -/
theorem inv_first (c : Dev nD) (t : Fin cfg0.N) (h0 : t.val % 16 = 0) (h1 : ¬t.val % 16 = 15) : Inv m c t := by
  intro b ch tq
  have e := outsAt_A m c t h0 h1
  have eM : (outsAt m c t.val t.isLt).2.1 = k0_pay2 (F := Ideal) (k0_pay8 (qb m c t) (kb m c t) (k0_pay4 (F := Ideal))) := by
    rw [e]; dsimp only
    exact soutA_M_eq c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t)
  have eL : (outsAt m c t.val t.isLt).2.2.1 = k0_pay11 (F := Ideal) (qb m c t) (kb m c t) (k0_pay4 (F := Ideal)) (k0_pay5 (F := Ideal)) := by
    rw [e]; dsimp only
    exact soutA_L_eq c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t)
  have eA : (outsAt m c t.val t.isLt).2.2.2 = k0_pay1 (F := Ideal) (k0_pay9 (qb m c t) (kb m c t) (k0_pay4 (F := Ideal))) (k0_pay12 (qb m c t) (kb m c t) (vb m c t) (k0_pay4 (F := Ideal))) (k0_pay6 (F := Ideal)) := by
    rw [e]; dsimp only
    exact soutA_A_eq c (grid0.coords t) (ms0 t) (hs0 t) (ms1 t) (hs1 t) (ms2 t) (hs2 t) (ms3 t) (hs3 t) scM (Memref.isWhole_whole _) scL (Memref.isWhole_whole _) scA (Memref.isWhole_whole _) ((hcondFirst t).mpr h0) (fun h => h1 ((hcondLast t).mp h)) (iblk m c 0 t) (iblk m c 1 t) (iblk m c 2 t)
  obtain ⟨sM, sL, sA⟩ := step_cols m c t (k0_pay4 (F := Ideal)) (k0_pay5 (F := Ideal)) (k0_pay6 (F := Ideal)) b ch tq
  rw [eM, eL, eA, sM, sL, sA, pay4_apply, pay5_apply, pay6_apply, h0]
  exact ⟨rfl, rfl, rfl⟩

/-- Any other point makes the next step from what the point before left. -/
theorem inv_next (c : Dev nD) (t : Fin cfg0.N) (h0 : ¬t.val % 16 = 0)
    (ih : Inv m c ⟨t.val - 1, Nat.lt_of_le_of_lt (Nat.sub_le _ _) t.isLt⟩) : Inv m c t := by
  intro b ch tq
  have hq : (t.val - 1) / 16 = t.val / 16 := by omega
  have hr : (t.val - 1) % 16 + 1 = t.val % 16 := by omega
  obtain ⟨iM, iL, iA⟩ := ih b ch tq
  dsimp only at iM iL iA
  rw [hq, hr] at iM iL iA
  obtain ⟨sM, sL, sA⟩ := step_cols m c t (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2 b ch tq
  have eM : (outsAt m c t.val t.isLt).2.1 = k0_pay2 (F := Ideal) (k0_pay8 (qb m c t) (kb m c t) (outsAt m c (t.val - 1) (Nat.lt_of_le_of_lt (Nat.sub_le _ _) t.isLt)).2.1) := by
    by_cases h1 : t.val % 16 = 15
    · rw [outsAt_C m c t h0 h1]; dsimp only
      exact soutC_M_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
    · rw [outsAt_B m c t h0 h1]; dsimp only
      exact soutB_M_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
  have eL : (outsAt m c t.val t.isLt).2.2.1 = k0_pay11 (F := Ideal) (qb m c t) (kb m c t) (outsAt m c (t.val - 1) (Nat.lt_of_le_of_lt (Nat.sub_le _ _) t.isLt)).2.1 (outsAt m c (t.val - 1) (Nat.lt_of_le_of_lt (Nat.sub_le _ _) t.isLt)).2.2.1 := by
    by_cases h1 : t.val % 16 = 15
    · rw [outsAt_C m c t h0 h1]; dsimp only
      exact soutC_L_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
    · rw [outsAt_B m c t h0 h1]; dsimp only
      exact soutB_L_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
  have eA : (outsAt m c t.val t.isLt).2.2.2 = k0_pay1 (F := Ideal) (k0_pay9 (qb m c t) (kb m c t) (outsAt m c (t.val - 1) (Nat.lt_of_le_of_lt (Nat.sub_le _ _) t.isLt)).2.1) (k0_pay12 (qb m c t) (kb m c t) (vb m c t) (outsAt m c (t.val - 1) (Nat.lt_of_le_of_lt (Nat.sub_le _ _) t.isLt)).2.1) (outsAt m c (t.val - 1) (Nat.lt_of_le_of_lt (Nat.sub_le _ _) t.isLt)).2.2.2 := by
    by_cases h1 : t.val % 16 = 15
    · rw [outsAt_C m c t h0 h1]; dsimp only
      exact soutC_A_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
    · rw [outsAt_B m c t h0 h1]; dsimp only
      exact soutB_A_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2
  rw [eM, eL, eA, sM, sL, sA, iM, iL, iA]
  exact ⟨rfl, rfl, rfl⟩

theorem inv_all (c : Dev nD) : ∀ (n : ℕ) (hn : n < cfg0.N), Inv m c ⟨n, hn⟩ := by
  intro n
  induction n with
  | zero => intro hn; exact inv_first m c ⟨0, hn⟩ (Nat.zero_mod _) (by show ¬(0 : ℕ) % 16 = 15; omega)
  | succ n ih =>
    intro hn
    by_cases h0 : (n + 1) % 16 = 0
    · exact inv_first m c ⟨n + 1, hn⟩ h0 (by show ¬(n + 1) % 16 = 15; omega)
    · exact inv_next m c ⟨n + 1, hn⟩ h0 (ih (Nat.lt_of_succ_lt hn))

/-! ## The block written back at key tile 15 -/

/-- There the output block is the accumulator over the running sum, column by column. -/
theorem out_last (c : Dev nD) (t : Fin cfg0.N) (h0 : ¬t.val % 16 = 0) (h1 : t.val % 16 = 15) (b ch : Fin 64) (tq : Fin 128) :
    (outsAt m c t.val t.isLt).1 (ix3 b ch tq)
      = Ideal.div ((outsAt m c t.val t.isLt).2.2.2 (ix3 b ch tq)) ((outsAt m c t.val t.isLt).2.2.1 (ix3 b 0 tq)) := by
  rw [outsAt_C m c t h0 h1]; dsimp only
  rw [outC_3_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2,
    soutC_A_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2,
    soutC_L_eq c (grid0.coords t) (ms0 t) (hs0 t) (ms1 t) (hs1 t) (ms2 t) (hs2 t) (ms3 t) (hs3 t) scM (Memref.isWhole_whole _) scL (Memref.isWhole_whole _) scA (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2]
  exact pay3_apply _ _ b ch tq

/-- A score of real entries is real. -/
theorem score_real (R : (⟨3, ![64, 192, 2048]⟩ : Shape).Idx → EReal) (hR : ∀ i, ∃ r : ℝ, R i = (r : EReal))
    (b : Fin 64) (s t : Fin 2048) : ∃ r : ℝ, score R b s t = (r : EReal) := by
  choose f hf using hR
  refine ⟨∑ ch : Fin 64, f (ix3 b (kRow ch) s) * (f (ix3 b (qRow ch) t) * (1 / 8 : ℝ)), ?_⟩
  unfold score
  rw [coe_sum]
  refine Finset.sum_congr rfl fun ch _ => ?_
  rw [hf, hf, ofBits_eighth, ← EReal.coe_mul, ← EReal.coe_mul]

/-- With real entries, the block written back at query tile `qi` is whole-row attention at its positions. -/
theorem out_attn (c : Dev nD) (hR : ∀ i, ∃ r : ℝ, Rk m c i = (r : EReal)) (t : Fin cfg0.N) (h1 : t.val % 16 = 15)
    (b ch : Fin 64) (tq : Fin 128) :
    (outsAt m c t.val t.isLt).1 (ix3 b ch tq) = attn (Rk m c) b ch (posN (t.val / 16) tq) := by
  have h0 : ¬t.val % 16 = 0 := by omega
  obtain ⟨-, iL, iA⟩ := inv_all m c t.val t.isLt b ch tq
  rw [out_last m c t h0 h1 b ch tq, iL, iA, h1]
  show online (xs m c (t.val / 16) b tq) (vs m c b ch) = _
  refine online_eq_offline (fun s => score (Rk m c) b s (posN (t.val / 16) tq)) (fun s => Rk m c (ix3 b (vRow ch) s))
    (fun s => score_real (Rk m c) hR b s _) (fun s => hR _) _ _ ?_ ?_
  · intro j hj i
    show score (Rk m c) b (posN j i) (posN (t.val / 16) tq) = score (Rk m c) b ⟨128 * j + i.val, _⟩ (posN (t.val / 16) tq)
    exact congrArg (fun p => score (Rk m c) b p (posN (t.val / 16) tq)) (Fin.ext (posN_val j hj i))
  · intro j hj i
    show Rk m c (ix3 b (vRow ch) (posN j i)) = Rk m c (ix3 b (vRow ch) ⟨128 * j + i.val, _⟩)
    exact congrArg (fun p => Rk m c (ix3 b (vRow ch) p)) (Fin.ext (posN_val j hj i))

/-! ## The output array after the run -/

/-- Whole-row attention of the packed array, as an array of 64 heads × 64 channels × 2048 positions. -/
def attnArr (R : (⟨3, ![64, 192, 2048]⟩ : Shape).Idx → EReal) : S64x64x2048.Idx → EReal :=
  fun i => attn R (i 0) (i 1) (i 2)

theorem final_attn (c : Dev nD) (hR : ∀ i, ∃ r : ℝ, Rk m c i = (r : EReal)) :
    (dats m 0 c).arrAt 3 cfg0.N = attnArr (Rk m c) := by
  refine final3 m c (attnArr (Rk m c)) fun t h1 b ch j => ?_
  rw [out_attn m c hR t h1 b ch j, ← posN_eq _ (qi_lt t)]
  rfl

end Cert.KernelIdeal.Hand

end
-- ==== Proof.Ref.Value.lean ====
/-
  The reference program, read one result element at a time, is whole-row softmax attention.

  The packed input is reshaped to 64 heads of 192 rows by 2048 positions; rows 0–63 of a head are the query channels,
  64–127 the key channels, 128–191 the value channels. Queries and keys are each scaled by κ = 1/√√64; the score of
  query position t against key position s is the channel sum of the products; along s the program takes the row maximum
  (from −∞, then once more against −∞), the exponentials of the differences, their sum from zero, the quotients, and
  finally the sum over s of value times quotient. Read at head b, value channel c, query position t this is the
  whole-row form of Attn/Spec once the two factors κ are collected into the exact eighth κ·κ — a regrouping of a product
  of four factors, which holds in the extended reals without any finiteness.
-/
import proofs.«418717_j6734508720606_3_alg».proof.Proof.Gen.ReferenceIdeal.Read
import proofs.«418717_j6734508720606_3_alg».proof.Proof.Attn.Spec
import Idealize.ShloMosaic.PureOps.Reduce

noncomputable section

namespace Cert.ReferenceIdeal.RefValue

open Cert.ReferenceIdeal Cert.ReferenceIdeal.Read Cert.ReferenceIdeal.Gen Idealize.ShloMosaic Idealize.ShloMosaic.ValueIdx Cert.Attn

/-- The scale each of query and key is multiplied by: one over the square root of the square root of 64. -/
abbrev kappa : EReal := Ideal.div 1 (Ideal.sqrt (Ideal.sqrt (Ideal.ofBits .f32 0x42800000#32)))

/-- The word of 1.0 is one. -/
theorem one_word : Ideal.ofBits .f32 0x3F800000#32 = 1 := by
  simp [Ideal.ofBits, Ideal.ieee, -EReal.coe_mul]; norm_num

/-- The word of −∞ is the bottom element. -/
theorem negInf_word : Ideal.ofBits .f32 0xFF800000#32 = ⊥ := by simp [Ideal.ofBits, Ideal.ieee]

variable (x0 : (⟨S4x3072x2048, .f32⟩ : BufTy).Contents (Elt Ideal))

/-- The broadcast scale is κ at every index (the query's copy). -/
theorem scaleQ_at (i : S64x64x2048.Idx) : (val_main_v7 (F := Ideal) i : EReal) = kappa := by
  rw [val_main_v7_apply, val_main_v6_apply, val_main_v5_apply, val_main_v4_apply, val_main_cst_apply, val_main_cst_0_apply]
  simp only [Ideal.hostDivf_def, Ideal.hostUnary_sqrt_def, Ideal.ofBits_def, one_word]

/-- The broadcast scale is κ at every index (the key's copy). -/
theorem scaleK_at (i : S64x64x2048.Idx) : (val_main_v9 (F := Ideal) i : EReal) = kappa := by
  rw [val_main_v9_apply, val_main_v6_apply, val_main_v5_apply, val_main_v4_apply, val_main_cst_apply, val_main_cst_0_apply]
  simp only [Ideal.hostDivf_def, Ideal.hostUnary_sqrt_def, Ideal.ofBits_def, one_word]

/-- The scaled query at head b, channel ch, position t. -/
theorem q_at (b ch : Fin 64) (t : Fin 2048) :
    (val_main_v8 (F := Ideal) x0 (ix3 b ch t) : EReal) = val_main_v0 (F := Ideal) x0 (ix3 b (qRow ch) t) * kappa := by
  rw [val_main_v8_apply, val_main_v1_apply, scaleQ_at, Ideal.mulf_def]
  exact congrArg (fun i => (val_main_v0 (F := Ideal) x0 i : EReal) * kappa)
    (funext fun a => Fin.ext (by match a with | ⟨0, _⟩ => rfl | ⟨1, _⟩ => rfl | ⟨2, _⟩ => rfl))

/-- The scaled key at head b, channel ch, position s. -/
theorem k_at (b ch : Fin 64) (s : Fin 2048) :
    (val_main_v10 (F := Ideal) x0 (ix3 b ch s) : EReal) = val_main_v0 (F := Ideal) x0 (ix3 b (kRow ch) s) * kappa := by
  rw [val_main_v10_apply, val_main_v2_apply, scaleK_at, Ideal.mulf_def]
  exact congrArg (fun i => (val_main_v0 (F := Ideal) x0 i : EReal) * kappa)
    (funext fun a => Fin.ext (by match a with | ⟨0, _⟩ => rfl | ⟨1, _⟩ => rfl | ⟨2, _⟩ => rfl))

/-- The value at head b, channel c, position s. -/
theorem v_at (b c : Fin 64) (s : Fin 2048) :
    (val_main_v3 (F := Ideal) x0 (ix3 b c s) : EReal) = val_main_v0 (F := Ideal) x0 (ix3 b (vRow c) s) := by
  rw [val_main_v3_apply]
  exact congrArg (fun i => (val_main_v0 (F := Ideal) x0 i : EReal))
    (funext fun a => Fin.ext (by match a with | ⟨0, _⟩ => rfl | ⟨1, _⟩ => rfl | ⟨2, _⟩ => rfl))

/-- The score of query position t against key position s, as the program computes it: the channel sum of scaled query
    times scaled key. -/
theorem w_at (b : Fin 64) (t s : Fin 2048) :
    (val_main_v11 (F := Ideal) x0 (ix3 b t s) : EReal)
      = ∑ ch : Fin 64, (val_main_v0 (F := Ideal) x0 (ix3 b (qRow ch) t) * kappa)
          * (val_main_v0 (F := Ideal) x0 (ix3 b (kRow ch) s) * kappa) := by
  rw [val_main_v11_apply]
  refine Finset.sum_congr rfl fun ch _ => ?_
  rw [← q_at x0 b ch t, ← k_at x0 b ch s]
  exact congrArg₂ (fun i j => (val_main_v8 (F := Ideal) x0 i : EReal) * val_main_v10 (F := Ideal) x0 j)
    (funext fun a => Fin.ext (by match a with | ⟨0, _⟩ => rfl | ⟨1, _⟩ => rfl | ⟨2, _⟩ => rfl))
    (funext fun a => Fin.ext (by match a with | ⟨0, _⟩ => rfl | ⟨1, _⟩ => rfl | ⟨2, _⟩ => rfl))

/-- A (head, query position) index with key position k put back on the reduced axis is (b, t, k). -/
theorem lift_at (h : S64x2048x2048.Reduces [2] S64x2048) (b : Fin 64) (t : Fin 2048) (k : Fin (S64x2048x2048.size 2)) :
    h.lift (ix2 b t) k = ix3 b t (⟨k.val, k.isLt⟩ : Fin 2048) := by
  funext c; apply Fin.ext
  match c with | ⟨0, _⟩ => rfl | ⟨1, _⟩ => rfl | ⟨2, _⟩ => rfl

/-- The row maximum the program takes: the maximum over the key positions, from −∞. -/
theorem max_at (b : Fin 64) (t : Fin 2048) :
    (val_main_v12 (F := Ideal) x0 (ix2 b t) : EReal)
      = (Finset.univ : Finset (Fin 2048)).fold max ⊥ (fun s => (val_main_v11 (F := Ideal) x0 (ix3 b t s) : EReal)) := by
  have h : S64x2048x2048.Reduces [2] S64x2048 := by decide
  unfold val_main_v12
  generalize val_main_v11 (F := Ideal) x0 = y
  refine (Host.reduce_eq_fold_single (FloatOps.maximumf (F := Ideal) (φ := .f32)) y (val_main_cst_1 (F := Ideal))
    reducesTo_S64x2048x2048_S64x2048_d2 h h_S_ (ix2 b t)).trans ?_
  rw [val_main_cst_1_apply, Ideal.ofBits_def, negInf_word]
  have hf : (y ∘ h.lift (ix2 b t)) = fun s : Fin 2048 => y (ix3 b t s) := funext fun k => congrArg y (lift_at h b t k)
  exact congrArg (fun f => Finset.fold max (⊥ : EReal) f (Finset.univ : Finset (Fin 2048))) hf

/-- The maximum the program subtracts: −∞ against the row maximum. -/
theorem rowmax_at (b : Fin 64) (t : Fin 2048) :
    (val_main_v14 (F := Ideal) x0 (ix2 b t) : EReal)
      = max ⊥ ((Finset.univ : Finset (Fin 2048)).fold max ⊥ (fun s => (val_main_v11 (F := Ideal) x0 (ix3 b t s) : EReal))) := by
  rw [val_main_v14_apply, val_main_v13_apply, val_main_cst_2_apply, max_at, Ideal.ofBits_def, negInf_word, Ideal.maximumf_def]

/-- The exponential of a score less the row's maximum. -/
theorem e_at (b : Fin 64) (t s : Fin 2048) :
    (val_main_v18 (F := Ideal) x0 (ix3 b t s) : EReal)
      = Ideal.exp (val_main_v11 (F := Ideal) x0 (ix3 b t s) - val_main_v14 (F := Ideal) x0 (ix2 b t)) := by
  rw [val_main_v18_apply, val_main_v17_apply, val_main_v16_apply, val_main_v15_apply, Ideal.hostUnary_exp_def, Ideal.subf_def]
  exact congrArg (fun i => Ideal.exp ((val_main_v11 (F := Ideal) x0 (ix3 b t s) : EReal) - val_main_v14 (F := Ideal) x0 i))
    (funext fun a => Fin.ext (by match a with | ⟨0, _⟩ => rfl | ⟨1, _⟩ => rfl))

/-- The normaliser: zero plus the sum of the row's exponentials. -/
theorem sum_at (b : Fin 64) (t : Fin 2048) :
    (val_main_v19 (F := Ideal) x0 (ix2 b t) : EReal) = 0 + ∑ s : Fin 2048, (val_main_v18 (F := Ideal) x0 (ix3 b t s) : EReal) := by
  rw [val_main_v19_apply, val_main_cst_3_apply, Ideal.ofBits_def, Ideal.ofBits_zero_f32]
  refine congrArg (0 + ·) (Finset.sum_congr rfl fun s _ => ?_)
  exact congrArg (fun i => (val_main_v18 (F := Ideal) x0 i : EReal))
    (funext fun a => Fin.ext (by match a with | ⟨0, _⟩ => rfl | ⟨1, _⟩ => rfl | ⟨2, _⟩ => rfl))

/-- The normalised weight of key position s for query position t. -/
theorem p_at (b : Fin 64) (t s : Fin 2048) :
    (val_main_v22 (F := Ideal) x0 (ix3 b t s) : EReal)
      = Ideal.div (val_main_v18 (F := Ideal) x0 (ix3 b t s)) (val_main_v19 (F := Ideal) x0 (ix2 b t)) := by
  rw [val_main_v22_apply, val_main_v21_apply, val_main_v20_apply, Ideal.hostDivf_def]
  exact congrArg (fun i => Ideal.div (val_main_v18 (F := Ideal) x0 (ix3 b t s) : EReal) (val_main_v19 (F := Ideal) x0 i))
    (funext fun a => Fin.ext (by match a with | ⟨0, _⟩ => rfl | ⟨1, _⟩ => rfl))

/-- The result at head b, value channel c, query position t: the values weighted by the normalised weights. -/
theorem out_at (b c : Fin 64) (t : Fin 2048) :
    (val_main_v23 (F := Ideal) x0 (ix3 b c t) : EReal)
      = ∑ s : Fin 2048, (val_main_v3 (F := Ideal) x0 (ix3 b c s) : EReal) * val_main_v22 (F := Ideal) x0 (ix3 b t s) := by
  rw [val_main_v23_apply]
  refine Finset.sum_congr rfl fun s _ => ?_
  exact congrArg₂ (fun i j => (val_main_v3 (F := Ideal) x0 i : EReal) * val_main_v22 (F := Ideal) x0 j)
    (funext fun a => Fin.ext (by match a with | ⟨0, _⟩ => rfl | ⟨1, _⟩ => rfl | ⟨2, _⟩ => rfl))
    (funext fun a => Fin.ext (by match a with | ⟨0, _⟩ => rfl | ⟨1, _⟩ => rfl | ⟨2, _⟩ => rfl))

/-- With κ·κ the exact eighth the program's score is the specification's: (q·κ)·(k·κ) = k·(q·(κ·κ)), a regrouping of
    four factors in a commutative monoid. -/
theorem w_eq_score (hκ : kappa * kappa = Ideal.ofBits .bf16 0x3E00#16) (b : Fin 64) (t s : Fin 2048) :
    (val_main_v11 (F := Ideal) x0 (ix3 b t s) : EReal) = score (val_main_v0 (F := Ideal) x0) b s t := by
  rw [w_at]
  unfold score
  refine Finset.sum_congr rfl fun ch _ => ?_
  rw [mul_mul_mul_comm, hκ, mul_comm (val_main_v0 (F := Ideal) x0 (ix3 b (qRow ch) t) : EReal), mul_assoc]

/-- The reference's result at head b, value channel c, query position t is whole-row attention of the reshaped input. -/
theorem ref_attn (hκ : kappa * kappa = Ideal.ofBits .bf16 0x3E00#16) (b c : Fin 64) (t : Fin 2048) :
    val_main_v23 (F := Ideal) x0 (ix3 b c t) = attn (val_main_v0 (F := Ideal) x0) b c t := by
  have hW : (fun s : Fin 2048 => (val_main_v11 (F := Ideal) x0 (ix3 b t s) : EReal))
      = fun s => score (val_main_v0 (F := Ideal) x0) b s t := funext fun s => w_eq_score x0 hκ b t s
  have hM : (val_main_v14 (F := Ideal) x0 (ix2 b t) : EReal) = rowMax (fun s => score (val_main_v0 (F := Ideal) x0) b s t) := by
    rw [rowmax_at, hW]; rfl
  have hE : ∀ s : Fin 2048, (val_main_v18 (F := Ideal) x0 (ix3 b t s) : EReal)
      = Ideal.exp (score (val_main_v0 (F := Ideal) x0) b s t - rowMax (fun s => score (val_main_v0 (F := Ideal) x0) b s t)) :=
    fun s => by rw [e_at, hM, w_eq_score x0 hκ]
  have hS : (val_main_v19 (F := Ideal) x0 (ix2 b t) : EReal) = rowSum (fun s => score (val_main_v0 (F := Ideal) x0) b s t) := by
    rw [sum_at]
    unfold rowSum
    exact congrArg (0 + ·) (Finset.sum_congr rfl fun s _ => hE s)
  unfold attn offline
  rw [out_at]
  refine Finset.sum_congr rfl fun s _ => ?_
  rw [v_at, p_at, hE, hS]

end Cert.ReferenceIdeal.RefValue

end
-- ==== Proof.Attn.Finite.lean ====
/-
  From the stated precondition to the reals. The precondition on the packed argument array says that the
  conjunction, over all of its 4 × 3072 × 2048 entries, of the comparisons |x| < +∞ is true. Over the extended
  reals |x| is the larger of x and -x, and the pattern 0x7F800000 denotes +∞; so the conjunction being true says,
  entry by entry, that max x (-x) < ⊤, which excludes both infinities: every entry is a real number.
-/
import proofs.«418717_j6734508720606_3_alg».proof.Defs
import proofs.«418717_j6734508720606_3_alg».proof.Proof.Gen.Pre_finite_inputs
import Idealize.ShloMosaic.Lib.ReduceAll
import Idealize.ShloMosaic.Lib.ValueIdx
import Mathlib.Data.EReal.Basic

noncomputable section

namespace Cert.Proof.Finite

open Idealize.ShloMosaic Idealize.ShloMosaic.ValueIdx

/-- The result of a reduction over all three axes has exactly one index. -/
instance : Subsingleton Cert.Pre_finite_inputs.S_.Idx := ⟨fun a b => funext fun d => d.elim0⟩

/-- An extended real whose absolute value — the larger of it and its negative — lies strictly below +∞ is a real
    number: at -∞ the negative is +∞, at +∞ the number itself is. -/
theorem real_of_abs_lt_top (x : EReal) (h : max x (-x) < ⊤) : ∃ r : ℝ, x = (r : EReal) := by
  induction x using EReal.rec with
  | bot => simp at h
  | coe r => exact ⟨r, rfl⟩
  | top => simp at h

/-- A truth value written as a one-bit word is the word 1 only when it is true. -/
theorem true_of_ofBool_eq_one {b : Bool} (h : BitVec.ofBool b = 1#1) : b = true := by
  cases b
  · exact absurd h (by decide)
  · rfl

/-- The pattern 0x7F800000 (exponent all ones, significand zero, sign clear) denotes +∞. -/
theorem inf_pattern : Ideal.ofBits .f32 0x7F800000#32 = (⊤ : EReal) := by
  simp [Ideal.ofBits, Ideal.ieee]

/-- The stated precondition, read back: every entry of the array is a real number. -/
theorem real_of_pre [Cert.Pre_finite_inputs.Facts] (x : FVec Ideal Cert.Pre_finite_inputs.S4x3072x2048 .f32)
    (h : Cert.Pre_finite_inputs.fn (F := Ideal) x = (fun _ => 1#1)) : ∀ i, ∃ r : ℝ, x i = (r : EReal) := by
  intro i
  have h0 := congrFun h ValueIdx.ix0
  dsimp only [Cert.Pre_finite_inputs.fn] at h0
  -- the conjunction over all entries is true, so the comparison at entry i is
  have hi := Host.reduce_andi_all _ _ _ _ _ h0 i
  -- that comparison is max (x i) (-(x i)) < the value of the pattern, decided
  have hlt : max (x i) (-(x i)) < Ideal.ofBits .f32 0x7F800000#32 := by
    have hc : Ideal.cmp .olt (max (x i) (-(x i))) (Ideal.ofBits .f32 0x7F800000#32) = 1#1 := hi
    exact of_decide_eq_true (true_of_ofBool_eq_one hc)
  rw [inf_pattern] at hlt
  exact real_of_abs_lt_top _ hlt

/-- The same, in the form the claims state it: on every device, every entry of the kernel's argument array is a
    real number. -/
theorem real_of_pre_KernelIdeal [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg0)) i = (r : EReal) :=
  real_of_pre _ (h c)

end Cert.Proof.Finite

end
-- ==== Proof.Bridge.lean ====
/-
  Where the two programs meet: the packed array the kernel's windows read (the argument reshaped to 64 heads × 192 rows
  × 2048 positions, its change of format the identity over the extended reals) is the reference's own reshape of the
  same argument; its entries are real under the precondition; so the kernel's output array (whole-row attention of
  that array, by the blockwise recurrence) and the reference's (the same, computed row by row) are one array.
-/
import proofs.«418717_j6734508720606_3_alg».proof.Proof.KI.Value
import proofs.«418717_j6734508720606_3_alg».proof.Proof.Ref.Value
import proofs.«418717_j6734508720606_3_alg».proof.Proof.Attn.Finite

noncomputable section

namespace Cert.Proof.Bridge

open Idealize.ShloMosaic Idealize.ShloMosaic.TcCoe Idealize.ShloMosaic.ValueIdx Idealize.SL.Sem
open Cert.Attn

variable (m : (ℓ : Loc Cert.KernelIdeal.nD Cert.KernelIdeal.τ Cert.KernelIdeal.sig) → Buf (Elt Ideal) ℓ)

/-- The kernel's packed array is the reference's reshape of the argument. -/
theorem Rk_eq (c : Dev Cert.KernelIdeal.nD) :
    Cert.KernelIdeal.Hand.Rk m c
      = Cert.ReferenceIdeal.Read.val_main_v0 (F := Ideal) (m ((c.tc : Thread Cert.KernelIdeal.nD Cert.KernelIdeal.τ).loc Cert.KernelIdeal.main_arg0)) := by
  show StableHlo.after (List.flatten [Cert.KernelIdeal.Gen.hostOps0]) (fun b => m (c, b)) (Proc.devRef .tc Cert.KernelIdeal.main_v1) = _
  simp only [Cert.KernelIdeal.Gen.hostOps0, List.flatten_cons, List.flatten_nil, List.append_nil]
  after_results
  rfl

/-- Under the precondition its entries are real. -/
theorem Rk_real (h : Cert.Pre_KernelIdeal m) (c : Dev Cert.KernelIdeal.nD) :
    ∀ i, ∃ r : ℝ, Cert.KernelIdeal.Hand.Rk m c i = (r : EReal) := by
  intro i
  rw [Rk_eq m c, Cert.ReferenceIdeal.Read.val_main_v0_apply]
  exact Cert.Proof.Finite.real_of_pre_KernelIdeal m h c _

/-- The reference's attention array is whole-row attention of its reshape of the argument. -/
theorem ref_arr (x0 : (⟨Cert.ReferenceIdeal.S4x3072x2048, .f32⟩ : BufTy).Contents (Elt Ideal)) :
    Cert.ReferenceIdeal.Read.val_main_v23 (F := Ideal) x0
      = Cert.KernelIdeal.Hand.attnArr (Cert.ReferenceIdeal.Read.val_main_v0 (F := Ideal) x0) := by
  funext i
  rw [eq_ix3 i]
  exact Cert.ReferenceIdeal.RefValue.ref_attn x0 kappa_mul_self _ _ _

end Cert.Proof.Bridge

end
-- ==== Proof.lean ====
/-
  Blockwise ("flash") attention against whole-row softmax attention, over the extended reals.

  The kernel walks a 16 × 16 grid: for each query tile, the 16 key tiles in turn. Across a row of the grid it carries, per
  query column, a running maximum of the scores, a running sum of their exponentials rescaled to that maximum, and per
  value channel an accumulator of the values weighted by those exponentials; at the row's last key tile it stores the
  accumulator over the running sum. Its scores are key · (query / 8). The reference scales queries and keys each by
  1/√√64, takes the row maximum of all 2048 scores, exponentiates, normalises, and contracts with the values. Over the
  extended reals the two scales agree ((1/√√64)² = 1/8 exactly), the formats' changes are the identity, and for real
  inputs (the precondition) the recurrence's quotient after 16 blocks is the normalised sum (exp (a − b) · exp (b − c) =
  exp (a − c) in ℝ, the normaliser positive). Both programs end with the same reshape of that array.

  The three frames: each kernel program by its run (the body's three cases on the grid, the scratch contents carried by
  the region's invariant, the three input windows sharing one array at three shares of it); the reference by its run.
-/
import proofs.«418717_j6734508720606_3_alg».proof.Defs
import proofs.«418717_j6734508720606_3_alg».proof.Proof.Gen.Kernel
import proofs.«418717_j6734508720606_3_alg».proof.Proof.Gen.KernelIdeal
import proofs.«418717_j6734508720606_3_alg».proof.Proof.Gen.ReferenceIdeal
import proofs.«418717_j6734508720606_3_alg».proof.Proof.Gen.Pre_finite_inputs
import proofs.«418717_j6734508720606_3_alg».proof.Proof.Gen.ReferenceIdeal.Run
import proofs.«418717_j6734508720606_3_alg».proof.Proof.Gen.ReferenceIdeal.Read
import proofs.«418717_j6734508720606_3_alg».proof.Proof.K.Run
import proofs.«418717_j6734508720606_3_alg».proof.Proof.KI.Run
import proofs.«418717_j6734508720606_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the closing reshape of whole-row attention of the packed argument. -/
theorem algebraic : Cert.algebraic_KernelIdeal_ReferenceIdeal := by
  intro m ρ m' ρ' hpre hagree
  refine ⟨fun c => shapeCast Cert.KernelIdeal.S4x1024x2048
      (Cert.KernelIdeal.Hand.attnArr (Cert.KernelIdeal.Hand.Rk m c)) Cert.KernelIdeal.Facts₀.shapeCasts_S64x64x2048_S4x1024x2048, ?_, ?_⟩
  · refine (θ_run Cert.KernelIdeal.defs _ _).mono (fun r h c => ⟨?_, (h c).1⟩) (Cert.KernelIdeal.Hand.run_main m ρ)
    rw [(h c).2, Cert.KernelIdeal.Hand.final_attn m c (Bridge.Rk_real m hpre c)]
  · refine (θ_run Cert.ReferenceIdeal.defs _ _).mono (fun r h c => ⟨?_, (h c).2⟩)
      (Cert.ReferenceIdeal.Value.run (F := Ideal) m' ρ')
    rw [(h c).1, Cert.ReferenceIdeal.Read.val_main_v24_eq, hagree c]
    beta_reduce
    rw [Bridge.Rk_eq m c]
    unfold Cert.ReferenceIdeal.Read.val_main_v24
    rw [Bridge.ref_arr]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
